-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x20x14400 : Shape := ⟨3, ![32, 20, 14400]⟩
abbrev S7200x25 : Shape := ⟨2, ![7200, 25]⟩
abbrev S3600x25 : Shape := ⟨2, ![3600, 25]⟩
abbrev S1800x25 : Shape := ⟨2, ![1800, 25]⟩
abbrev S900x25 : Shape := ⟨2, ![900, 25]⟩
abbrev S450x25 : Shape := ⟨2, ![450, 25]⟩
abbrev S1x7200 : Shape := ⟨2, ![1, 7200]⟩
abbrev S1x3600 : Shape := ⟨2, ![1, 3600]⟩
abbrev S1x1800 : Shape := ⟨2, ![1, 1800]⟩
abbrev S1x900 : Shape := ⟨2, ![1, 900]⟩
abbrev S1x450 : Shape := ⟨2, ![1, 450]⟩
abbrev S450x2 : Shape := ⟨2, ![450, 2]⟩
abbrev S2 : Shape := ⟨1, ![2]⟩
abbrev S_ : Shape := ⟨0, ![]⟩

class Facts : Prop where
  bcast_S_S32x20x14400 : S_.BroadcastsInDim S32x20x14400 (![] : Fin 0 → Fin S32x20x14400.rank)
  reducesTo_S32x20x14400_S_d0_1_2 : S32x20x14400.ReducesTo [0, 1, 2] S_
  h_S_ : 0 < S_.numel
  bcast_S_S7200x25 : S_.BroadcastsInDim S7200x25 (![] : Fin 0 → Fin S7200x25.rank)
  reducesTo_S7200x25_S_d0_1 : S7200x25.ReducesTo [0, 1] S_
  bcast_S_S3600x25 : S_.BroadcastsInDim S3600x25 (![] : Fin 0 → Fin S3600x25.rank)
  reducesTo_S3600x25_S_d0_1 : S3600x25.ReducesTo [0, 1] S_
  bcast_S_S1800x25 : S_.BroadcastsInDim S1800x25 (![] : Fin 0 → Fin S1800x25.rank)
  reducesTo_S1800x25_S_d0_1 : S1800x25.ReducesTo [0, 1] S_
  bcast_S_S900x25 : S_.BroadcastsInDim S900x25 (![] : Fin 0 → Fin S900x25.rank)
  reducesTo_S900x25_S_d0_1 : S900x25.ReducesTo [0, 1] S_
  bcast_S_S450x25 : S_.BroadcastsInDim S450x25 (![] : Fin 0 → Fin S450x25.rank)
  reducesTo_S450x25_S_d0_1 : S450x25.ReducesTo [0, 1] S_
  bcast_S_S1x7200 : S_.BroadcastsInDim S1x7200 (![] : Fin 0 → Fin S1x7200.rank)
  reducesTo_S1x7200_S_d0_1 : S1x7200.ReducesTo [0, 1] S_
  bcast_S_S1x3600 : S_.BroadcastsInDim S1x3600 (![] : Fin 0 → Fin S1x3600.rank)
  reducesTo_S1x3600_S_d0_1 : S1x3600.ReducesTo [0, 1] S_
  bcast_S_S1x1800 : S_.BroadcastsInDim S1x1800 (![] : Fin 0 → Fin S1x1800.rank)
  reducesTo_S1x1800_S_d0_1 : S1x1800.ReducesTo [0, 1] S_
  bcast_S_S1x900 : S_.BroadcastsInDim S1x900 (![] : Fin 0 → Fin S1x900.rank)
  reducesTo_S1x900_S_d0_1 : S1x900.ReducesTo [0, 1] S_
  bcast_S_S1x450 : S_.BroadcastsInDim S1x450 (![] : Fin 0 → Fin S1x450.rank)
  reducesTo_S1x450_S_d0_1 : S1x450.ReducesTo [0, 1] S_
  bcast_S_S450x2 : S_.BroadcastsInDim S450x2 (![] : Fin 0 → Fin S450x2.rank)
  reducesTo_S450x2_S_d0_1 : S450x2.ReducesTo [0, 1] S_
  bcast_S_S2 : S_.BroadcastsInDim S2 (![] : Fin 0 → Fin S2.rank)
  reducesTo_S2_S_d0 : S2.ReducesTo [0] S_

variable [Facts]

def fn_part5 {F : FTy → Type} [FloatOps F] (main_arg17 : IVec S450x25 32) (main_v84 : IVec S_ 1) : IVec S_ 1 :=
  let main_c_33 : IVec S_ 32 := constantI S_ 32 0#32
  let main_v85 : IVec S450x25 32 := broadcastInDim S450x25 ![] bcast_S_S450x25 main_c_33
  let main_v86 : IVec S450x25 1 := cmpi .sge main_arg17 main_v85
  let main_c_34 : IVec S_ 32 := constantI S_ 32 900#32
  let main_v87 : IVec S450x25 32 := broadcastInDim S450x25 ![] bcast_S_S450x25 main_c_34
  let main_v88 : IVec S450x25 1 := cmpi .slt main_arg17 main_v87
  let main_v89 : IVec S450x25 1 := andi main_v86 main_v88
  let main_c_35 : IVec S_ 1 := constantI S_ 1 1#1
  let main_v90 : IVec S_ 1 := (fun x v => Host.reduce IntOp.andi x v reducesTo_S450x25_S_d0_1 h_S_) main_v89 main_c_35
  let main_v91 : IVec S_ 1 := andi main_v84 main_v90
  main_v91

def fn_part4 {F : FTy → Type} [FloatOps F] (main_arg15 : IVec S1800x25 32) (main_arg16 : IVec S900x25 32) (main_arg17 : IVec S450x25 32) (main_v63 : IVec S_ 1) (main_v65 : IVec S3600x25 1) (main_v67 : IVec S3600x25 1) : IVec S_ 1 :=
  let main_v68 : IVec S3600x25 1 := andi main_v65 main_v67
  let main_c_26 : IVec S_ 1 := constantI S_ 1 1#1
  let main_v69 : IVec S_ 1 := (fun x v => Host.reduce IntOp.andi x v reducesTo_S3600x25_S_d0_1 h_S_) main_v68 main_c_26
  let main_v70 : IVec S_ 1 := andi main_v63 main_v69
  let main_c_27 : IVec S_ 32 := constantI S_ 32 0#32
  let main_v71 : IVec S1800x25 32 := broadcastInDim S1800x25 ![] bcast_S_S1800x25 main_c_27
  let main_v72 : IVec S1800x25 1 := cmpi .sge main_arg15 main_v71
  let main_c_28 : IVec S_ 32 := constantI S_ 32 3600#32
  let main_v73 : IVec S1800x25 32 := broadcastInDim S1800x25 ![] bcast_S_S1800x25 main_c_28
  let main_v74 : IVec S1800x25 1 := cmpi .slt main_arg15 main_v73
  let main_v75 : IVec S1800x25 1 := andi main_v72 main_v74
  let main_c_29 : IVec S_ 1 := constantI S_ 1 1#1
  let main_v76 : IVec S_ 1 := (fun x v => Host.reduce IntOp.andi x v reducesTo_S1800x25_S_d0_1 h_S_) main_v75 main_c_29
  let main_v77 : IVec S_ 1 := andi main_v70 main_v76
  let main_c_30 : IVec S_ 32 := constantI S_ 32 0#32
  let main_v78 : IVec S900x25 32 := broadcastInDim S900x25 ![] bcast_S_S900x25 main_c_30
  let main_v79 : IVec S900x25 1 := cmpi .sge main_arg16 main_v78
  let main_c_31 : IVec S_ 32 := constantI S_ 32 1800#32
  let main_v80 : IVec S900x25 32 := broadcastInDim S900x25 ![] bcast_S_S900x25 main_c_31
  let main_v81 : IVec S900x25 1 := cmpi .slt main_arg16 main_v80
  let main_v82 : IVec S900x25 1 := andi main_v79 main_v81
  let main_c_32 : IVec S_ 1 := constantI S_ 1 1#1
  let main_v83 : IVec S_ 1 := (fun x v => Host.reduce IntOp.andi x v reducesTo_S900x25_S_d0_1 h_S_) main_v82 main_c_32
  let main_v84 : IVec S_ 1 := andi main_v77 main_v83
  fn_part5 (F := F) main_arg17 main_v84

def fn_part3 {F : FTy → Type} [FloatOps F] (main_arg11 : FVec F S450x2 .f32) (main_arg12 : FVec F S2 .f32) (main_arg14 : IVec S3600x25 32) (main_arg15 : IVec S1800x25 32) (main_arg16 : IVec S900x25 32) (main_arg17 : IVec S450x25 32) (main_v48 : IVec S_ 1) (main_v49 : FVec F S1x450 .f32) (main_v50 : FVec F S1x450 .f32) : IVec S_ 1 :=
  let main_v51 : IVec S1x450 1 := cmpf .olt main_v49 main_v50
  let main_c_19 : IVec S_ 1 := constantI S_ 1 1#1
  let main_v52 : IVec S_ 1 := (fun x v => Host.reduce IntOp.andi x v reducesTo_S1x450_S_d0_1 h_S_) main_v51 main_c_19
  let main_v53 : IVec S_ 1 := andi main_v48 main_v52
  let main_v54 : FVec F S450x2 .f32 := Host.absf main_arg11
  let main_cst_20 : FVec F S_ .f32 := constant S_ .f32 0x7F800000#32
  let main_v55 : FVec F S450x2 .f32 := broadcastInDim S450x2 ![] bcast_S_S450x2 main_cst_20
  let main_v56 : IVec S450x2 1 := cmpf .olt main_v54 main_v55
  let main_c_21 : IVec S_ 1 := constantI S_ 1 1#1
  let main_v57 : IVec S_ 1 := (fun x v => Host.reduce IntOp.andi x v reducesTo_S450x2_S_d0_1 h_S_) main_v56 main_c_21
  let main_v58 : IVec S_ 1 := andi main_v53 main_v57
  let main_v59 : FVec F S2 .f32 := Host.absf main_arg12
  let main_cst_22 : FVec F S_ .f32 := constant S_ .f32 0x7F800000#32
  let main_v60 : FVec F S2 .f32 := broadcastInDim S2 ![] bcast_S_S2 main_cst_22
  let main_v61 : IVec S2 1 := cmpf .olt main_v59 main_v60
  let main_c_23 : IVec S_ 1 := constantI S_ 1 1#1
  let main_v62 : IVec S_ 1 := (fun x v => Host.reduce IntOp.andi x v reducesTo_S2_S_d0 h_S_) main_v61 main_c_23
  let main_v63 : IVec S_ 1 := andi main_v58 main_v62
  let main_c_24 : IVec S_ 32 := constantI S_ 32 0#32
  let main_v64 : IVec S3600x25 32 := broadcastInDim S3600x25 ![] bcast_S_S3600x25 main_c_24
  let main_v65 : IVec S3600x25 1 := cmpi .sge main_arg14 main_v64
  let main_c_25 : IVec S_ 32 := constantI S_ 32 7200#32
  let main_v66 : IVec S3600x25 32 := broadcastInDim S3600x25 ![] bcast_S_S3600x25 main_c_25
  let main_v67 : IVec S3600x25 1 := cmpi .slt main_arg14 main_v66
  fn_part4 (F := F) main_arg15 main_arg16 main_arg17 main_v63 main_v65 main_v67

def fn_part2 {F : FTy → Type} [FloatOps F] (main_arg7 : FVec F S1x3600 .f32) (main_arg8 : FVec F S1x1800 .f32) (main_arg9 : FVec F S1x900 .f32) (main_arg10 : FVec F S1x450 .f32) (main_arg11 : FVec F S450x2 .f32) (main_arg12 : FVec F S2 .f32) (main_arg14 : IVec S3600x25 32) (main_arg15 : IVec S1800x25 32) (main_arg16 : IVec S900x25 32) (main_arg17 : IVec S450x25 32) (main_v33 : IVec S_ 1) : IVec S_ 1 :=
  let main_v34 : FVec F S1x3600 .f32 := Host.absf main_arg7
  let main_cst_12 : FVec F S_ .f32 := constant S_ .f32 0x7F800000#32
  let main_v35 : FVec F S1x3600 .f32 := broadcastInDim S1x3600 ![] bcast_S_S1x3600 main_cst_12
  let main_v36 : IVec S1x3600 1 := cmpf .olt main_v34 main_v35
  let main_c_13 : IVec S_ 1 := constantI S_ 1 1#1
  let main_v37 : IVec S_ 1 := (fun x v => Host.reduce IntOp.andi x v reducesTo_S1x3600_S_d0_1 h_S_) main_v36 main_c_13
  let main_v38 : IVec S_ 1 := andi main_v33 main_v37
  let main_v39 : FVec F S1x1800 .f32 := Host.absf main_arg8
  let main_cst_14 : FVec F S_ .f32 := constant S_ .f32 0x7F800000#32
  let main_v40 : FVec F S1x1800 .f32 := broadcastInDim S1x1800 ![] bcast_S_S1x1800 main_cst_14
  let main_v41 : IVec S1x1800 1 := cmpf .olt main_v39 main_v40
  let main_c_15 : IVec S_ 1 := constantI S_ 1 1#1
  let main_v42 : IVec S_ 1 := (fun x v => Host.reduce IntOp.andi x v reducesTo_S1x1800_S_d0_1 h_S_) main_v41 main_c_15
  let main_v43 : IVec S_ 1 := andi main_v38 main_v42
  let main_v44 : FVec F S1x900 .f32 := Host.absf main_arg9
  let main_cst_16 : FVec F S_ .f32 := constant S_ .f32 0x7F800000#32
  let main_v45 : FVec F S1x900 .f32 := broadcastInDim S1x900 ![] bcast_S_S1x900 main_cst_16
  let main_v46 : IVec S1x900 1 := cmpf .olt main_v44 main_v45
  let main_c_17 : IVec S_ 1 := constantI S_ 1 1#1
  let main_v47 : IVec S_ 1 := (fun x v => Host.reduce IntOp.andi x v reducesTo_S1x900_S_d0_1 h_S_) main_v46 main_c_17
  let main_v48 : IVec S_ 1 := andi main_v43 main_v47
  let main_v49 : FVec F S1x450 .f32 := Host.absf main_arg10
  let main_cst_18 : FVec F S_ .f32 := constant S_ .f32 0x7F800000#32
  let main_v50 : FVec F S1x450 .f32 := broadcastInDim S1x450 ![] bcast_S_S1x450 main_cst_18
  fn_part3 (F := F) main_arg11 main_arg12 main_arg14 main_arg15 main_arg16 main_arg17 main_v48 main_v49 main_v50

def fn_part1 {F : FTy → Type} [FloatOps F] (main_arg4 : FVec F S900x25 .f32) (main_arg5 : FVec F S450x25 .f32) (main_arg6 : FVec F S1x7200 .f32) (main_arg7 : FVec F S1x3600 .f32) (main_arg8 : FVec F S1x1800 .f32) (main_arg9 : FVec F S1x900 .f32) (main_arg10 : FVec F S1x450 .f32) (main_arg11 : FVec F S450x2 .f32) (main_arg12 : FVec F S2 .f32) (main_arg14 : IVec S3600x25 32) (main_arg15 : IVec S1800x25 32) (main_arg16 : IVec S900x25 32) (main_arg17 : IVec S450x25 32) (main_v13 : IVec S_ 1) (main_v16 : IVec S1800x25 1) : IVec S_ 1 :=
  let main_c_5 : IVec S_ 1 := constantI S_ 1 1#1
  let main_v17 : IVec S_ 1 := (fun x v => Host.reduce IntOp.andi x v reducesTo_S1800x25_S_d0_1 h_S_) main_v16 main_c_5
  let main_v18 : IVec S_ 1 := andi main_v13 main_v17
  let main_v19 : FVec F S900x25 .f32 := Host.absf main_arg4
  let main_cst_6 : FVec F S_ .f32 := constant S_ .f32 0x7F800000#32
  let main_v20 : FVec F S900x25 .f32 := broadcastInDim S900x25 ![] bcast_S_S900x25 main_cst_6
  let main_v21 : IVec S900x25 1 := cmpf .olt main_v19 main_v20
  let main_c_7 : IVec S_ 1 := constantI S_ 1 1#1
  let main_v22 : IVec S_ 1 := (fun x v => Host.reduce IntOp.andi x v reducesTo_S900x25_S_d0_1 h_S_) main_v21 main_c_7
  let main_v23 : IVec S_ 1 := andi main_v18 main_v22
  let main_v24 : FVec F S450x25 .f32 := Host.absf main_arg5
  let main_cst_8 : FVec F S_ .f32 := constant S_ .f32 0x7F800000#32
  let main_v25 : FVec F S450x25 .f32 := broadcastInDim S450x25 ![] bcast_S_S450x25 main_cst_8
  let main_v26 : IVec S450x25 1 := cmpf .olt main_v24 main_v25
  let main_c_9 : IVec S_ 1 := constantI S_ 1 1#1
  let main_v27 : IVec S_ 1 := (fun x v => Host.reduce IntOp.andi x v reducesTo_S450x25_S_d0_1 h_S_) main_v26 main_c_9
  let main_v28 : IVec S_ 1 := andi main_v23 main_v27
  let main_v29 : FVec F S1x7200 .f32 := Host.absf main_arg6
  let main_cst_10 : FVec F S_ .f32 := constant S_ .f32 0x7F800000#32
  let main_v30 : FVec F S1x7200 .f32 := broadcastInDim S1x7200 ![] bcast_S_S1x7200 main_cst_10
  let main_v31 : IVec S1x7200 1 := cmpf .olt main_v29 main_v30
  let main_c_11 : IVec S_ 1 := constantI S_ 1 1#1
  let main_v32 : IVec S_ 1 := (fun x v => Host.reduce IntOp.andi x v reducesTo_S1x7200_S_d0_1 h_S_) main_v31 main_c_11
  let main_v33 : IVec S_ 1 := andi main_v28 main_v32
  fn_part2 (F := F) main_arg7 main_arg8 main_arg9 main_arg10 main_arg11 main_arg12 main_arg14 main_arg15 main_arg16 main_arg17 main_v33

def fn {F : FTy → Type} [FloatOps F] (main_arg0 : FVec F S32x20x14400 .f32) (main_arg1 : FVec F S7200x25 .f32) (main_arg2 : FVec F S3600x25 .f32) (main_arg3 : FVec F S1800x25 .f32) (main_arg4 : FVec F S900x25 .f32) (main_arg5 : FVec F S450x25 .f32) (main_arg6 : FVec F S1x7200 .f32) (main_arg7 : FVec F S1x3600 .f32) (main_arg8 : FVec F S1x1800 .f32) (main_arg9 : FVec F S1x900 .f32) (main_arg10 : FVec F S1x450 .f32) (main_arg11 : FVec F S450x2 .f32) (main_arg12 : FVec F S2 .f32) (main_arg13 : IVec S7200x25 32) (main_arg14 : IVec S3600x25 32) (main_arg15 : IVec S1800x25 32) (main_arg16 : IVec S900x25 32) (main_arg17 : IVec S450x25 32) : IVec S_ 1 :=
  let main_v0 : FVec F S32x20x14400 .f32 := Host.absf main_arg0
  let main_cst : FVec F S_ .f32 := constant S_ .f32 0x7F800000#32
  let main_v1 : FVec F S32x20x14400 .f32 := broadcastInDim S32x20x14400 ![] bcast_S_S32x20x14400 main_cst
  let main_v2 : IVec S32x20x14400 1 := cmpf .olt main_v0 main_v1
  let main_c : IVec S_ 1 := constantI S_ 1 1#1
  let main_v3 : IVec S_ 1 := (fun x v => Host.reduce IntOp.andi x v reducesTo_S32x20x14400_S_d0_1_2 h_S_) main_v2 main_c
  let main_v4 : FVec F S7200x25 .f32 := Host.absf main_arg1
  let main_cst_0 : FVec F S_ .f32 := constant S_ .f32 0x7F800000#32
  let main_v5 : FVec F S7200x25 .f32 := broadcastInDim S7200x25 ![] bcast_S_S7200x25 main_cst_0
  let main_v6 : IVec S7200x25 1 := cmpf .olt main_v4 main_v5
  let main_c_1 : IVec S_ 1 := constantI S_ 1 1#1
  let main_v7 : IVec S_ 1 := (fun x v => Host.reduce IntOp.andi x v reducesTo_S7200x25_S_d0_1 h_S_) main_v6 main_c_1
  let main_v8 : IVec S_ 1 := andi main_v3 main_v7
  let main_v9 : FVec F S3600x25 .f32 := Host.absf main_arg2
  let main_cst_2 : FVec F S_ .f32 := constant S_ .f32 0x7F800000#32
  let main_v10 : FVec F S3600x25 .f32 := broadcastInDim S3600x25 ![] bcast_S_S3600x25 main_cst_2
  let main_v11 : IVec S3600x25 1 := cmpf .olt main_v9 main_v10
  let main_c_3 : IVec S_ 1 := constantI S_ 1 1#1
  let main_v12 : IVec S_ 1 := (fun x v => Host.reduce IntOp.andi x v reducesTo_S3600x25_S_d0_1 h_S_) main_v11 main_c_3
  let main_v13 : IVec S_ 1 := andi main_v8 main_v12
  let main_v14 : FVec F S1800x25 .f32 := Host.absf main_arg3
  let main_cst_4 : FVec F S_ .f32 := constant S_ .f32 0x7F800000#32
  let main_v15 : FVec F S1800x25 .f32 := broadcastInDim S1800x25 ![] bcast_S_S1800x25 main_cst_4
  let main_v16 : IVec S1800x25 1 := cmpf .olt main_v14 main_v15
  fn_part1 (F := F) main_arg4 main_arg5 main_arg6 main_arg7 main_arg8 main_arg9 main_arg10 main_arg11 main_arg12 main_arg14 main_arg15 main_arg16 main_arg17 main_v13 main_v16
-- ==== Kernel.lean ====
abbrev S32x20x14400 : Shape := ⟨3, ![32, 20, 14400]⟩
abbrev S7200x25 : Shape := ⟨2, ![7200, 25]⟩
abbrev S3600x25 : Shape := ⟨2, ![3600, 25]⟩
abbrev S1800x25 : Shape := ⟨2, ![1800, 25]⟩
abbrev S900x25 : Shape := ⟨2, ![900, 25]⟩
abbrev S450x25 : Shape := ⟨2, ![450, 25]⟩
abbrev S1x7200 : Shape := ⟨2, ![1, 7200]⟩
abbrev S1x3600 : Shape := ⟨2, ![1, 3600]⟩
abbrev S1x1800 : Shape := ⟨2, ![1, 1800]⟩
abbrev S1x900 : Shape := ⟨2, ![1, 900]⟩
abbrev S1x450 : Shape := ⟨2, ![1, 450]⟩
abbrev S450x2 : Shape := ⟨2, ![450, 2]⟩
abbrev S2 : Shape := ⟨1, ![2]⟩
abbrev S32x1x14400 : Shape := ⟨3, ![32, 1, 14400]⟩
abbrev S32x14400 : Shape := ⟨2, ![32, 14400]⟩
abbrev S25x7200 : Shape := ⟨2, ![25, 7200]⟩
abbrev S_ : Shape := ⟨0, ![]⟩
abbrev S25x7680 : Shape := ⟨2, ![25, 7680]⟩
abbrev S1x7680 : Shape := ⟨2, ![1, 7680]⟩
abbrev S25x7680x1 : Shape := ⟨3, ![25, 7680, 1]⟩
abbrev S32x25x7680 : Shape := ⟨3, ![32, 25, 7680]⟩
abbrev S32x7680 : Shape := ⟨2, ![32, 7680]⟩
abbrev S32x25x512 : Shape := ⟨3, ![32, 25, 512]⟩
abbrev S25x512 : Shape := ⟨2, ![25, 512]⟩
abbrev S1x512 : Shape := ⟨2, ![1, 512]⟩
abbrev S32x512 : Shape := ⟨2, ![32, 512]⟩
abbrev S32x1x512 : Shape := ⟨3, ![32, 1, 512]⟩
abbrev S512 : Shape := ⟨1, ![512]⟩
abbrev S25x3600 : Shape := ⟨2, ![25, 3600]⟩
abbrev S25x4096 : Shape := ⟨2, ![25, 4096]⟩
abbrev S1x4096 : Shape := ⟨2, ![1, 4096]⟩
abbrev S25x4096x1 : Shape := ⟨3, ![25, 4096, 1]⟩
abbrev S32x25x4096 : Shape := ⟨3, ![32, 25, 4096]⟩
abbrev S32x4096 : Shape := ⟨2, ![32, 4096]⟩
abbrev S25x1800 : Shape := ⟨2, ![25, 1800]⟩
abbrev S25x2048 : Shape := ⟨2, ![25, 2048]⟩
abbrev S1x2048 : Shape := ⟨2, ![1, 2048]⟩
abbrev S25x2048x1 : Shape := ⟨3, ![25, 2048, 1]⟩
abbrev S32x25x2048 : Shape := ⟨3, ![32, 25, 2048]⟩
abbrev S32x2048 : Shape := ⟨2, ![32, 2048]⟩
abbrev S25x900 : Shape := ⟨2, ![25, 900]⟩
abbrev S25x1024 : Shape := ⟨2, ![25, 1024]⟩
abbrev S1x1024 : Shape := ⟨2, ![1, 1024]⟩
abbrev S25x1024x1 : Shape := ⟨3, ![25, 1024, 1]⟩
abbrev S32x25x1024 : Shape := ⟨3, ![32, 25, 1024]⟩
abbrev S32x1024 : Shape := ⟨2, ![32, 1024]⟩
abbrev S32x25x256 : Shape := ⟨3, ![32, 25, 256]⟩
abbrev S25x256 : Shape := ⟨2, ![25, 256]⟩
abbrev S1x256 : Shape := ⟨2, ![1, 256]⟩
abbrev S32x256 : Shape := ⟨2, ![32, 256]⟩
abbrev S32x1x256 : Shape := ⟨3, ![32, 1, 256]⟩
abbrev S256 : Shape := ⟨1, ![256]⟩
abbrev S25x450 : Shape := ⟨2, ![25, 450]⟩
abbrev S25x512x1 : Shape := ⟨3, ![25, 512, 1]⟩
abbrev S512x128 : Shape := ⟨2, ![512, 128]⟩
abbrev S1x2 : Shape := ⟨2, ![1, 2]⟩
abbrev S1x128 : Shape := ⟨2, ![1, 128]⟩
abbrev S32x128 : Shape := ⟨2, ![32, 128]⟩
abbrev S32x2 : Shape := ⟨2, ![32, 2]⟩

abbrev nBuf : Space → Nat
  | .hbm => 136
  | .vmem => 44
  | .smem => 0
  | _ => 0

abbrev hbmTy0_0 (i : Nat) : BufTy := match i % 128 with
  | 0 => ⟨S32x20x14400, .f32⟩
  | 1 => ⟨S7200x25, .f32⟩
  | 2 => ⟨S3600x25, .f32⟩
  | 3 => ⟨S1800x25, .f32⟩
  | 4 => ⟨S900x25, .f32⟩
  | 5 => ⟨S450x25, .f32⟩
  | 6 => ⟨S1x7200, .f32⟩
  | 7 => ⟨S1x3600, .f32⟩
  | 8 => ⟨S1x1800, .f32⟩
  | 9 => ⟨S1x900, .f32⟩
  | 10 => ⟨S1x450, .f32⟩
  | 11 => ⟨S450x2, .f32⟩
  | 12 => ⟨S2, .f32⟩
  | 13 => ⟨S7200x25, .i32⟩
  | 14 => ⟨S3600x25, .i32⟩
  | 15 => ⟨S1800x25, .i32⟩
  | 16 => ⟨S900x25, .i32⟩
  | 17 => ⟨S450x25, .i32⟩
  | 18 => ⟨S32x1x14400, .f32⟩
  | 19 => ⟨S32x14400, .f32⟩
  | 20 => ⟨S25x7200, .i32⟩
  | 21 => ⟨S25x7200, .f32⟩
  | 22 => ⟨S_, .i32⟩
  | 23 => ⟨S_, .i32⟩
  | 24 => ⟨S25x7680, .i32⟩
  | 25 => ⟨S_, .i32⟩
  | 26 => ⟨S_, .f32⟩
  | 27 => ⟨S25x7680, .f32⟩
  | 28 => ⟨S_, .i32⟩
  | 29 => ⟨S_, .f32⟩
  | 30 => ⟨S1x7680, .f32⟩
  | 31 => ⟨S_, .i32⟩
  | 32 => ⟨S25x7680, .i32⟩
  | 33 => ⟨S25x7680, .i1⟩
  | 34 => ⟨S_, .i32⟩
  | 35 => ⟨S25x7680, .i32⟩
  | 36 => ⟨S25x7680, .i32⟩
  | 37 => ⟨S25x7680, .i32⟩
  | 38 => ⟨S25x7680x1, .i32⟩
  | 39 => ⟨S32x25x7680, .f32⟩
  | 40 => ⟨S32x7680, .f32⟩
  | 41 => ⟨S25x3600, .i32⟩
  | 42 => ⟨S25x3600, .f32⟩
  | 43 => ⟨S_, .i32⟩
  | 44 => ⟨S_, .i32⟩
  | 45 => ⟨S25x4096, .i32⟩
  | 46 => ⟨S_, .i32⟩
  | 47 => ⟨S_, .f32⟩
  | 48 => ⟨S25x4096, .f32⟩
  | 49 => ⟨S_, .i32⟩
  | 50 => ⟨S_, .f32⟩
  | 51 => ⟨S1x4096, .f32⟩
  | 52 => ⟨S_, .i32⟩
  | 53 => ⟨S25x4096, .i32⟩
  | 54 => ⟨S25x4096, .i1⟩
  | 55 => ⟨S_, .i32⟩
  | 56 => ⟨S25x4096, .i32⟩
  | 57 => ⟨S25x4096, .i32⟩
  | 58 => ⟨S25x4096, .i32⟩
  | 59 => ⟨S25x4096x1, .i32⟩
  | 60 => ⟨S32x25x4096, .f32⟩
  | 61 => ⟨S32x4096, .f32⟩
  | 62 => ⟨S25x1800, .i32⟩
  | 63 => ⟨S25x1800, .f32⟩
  | 64 => ⟨S_, .i32⟩
  | 65 => ⟨S_, .i32⟩
  | 66 => ⟨S25x2048, .i32⟩
  | 67 => ⟨S_, .i32⟩
  | 68 => ⟨S_, .f32⟩
  | 69 => ⟨S25x2048, .f32⟩
  | 70 => ⟨S_, .i32⟩
  | 71 => ⟨S_, .f32⟩
  | 72 => ⟨S1x2048, .f32⟩
  | 73 => ⟨S_, .i32⟩
  | 74 => ⟨S25x2048, .i32⟩
  | 75 => ⟨S25x2048, .i1⟩
  | 76 => ⟨S_, .i32⟩
  | 77 => ⟨S25x2048, .i32⟩
  | 78 => ⟨S25x2048, .i32⟩
  | 79 => ⟨S25x2048, .i32⟩
  | 80 => ⟨S25x2048x1, .i32⟩
  | 81 => ⟨S32x25x2048, .f32⟩
  | 82 => ⟨S32x2048, .f32⟩
  | 83 => ⟨S25x900, .i32⟩
  | 84 => ⟨S25x900, .f32⟩
  | 85 => ⟨S_, .i32⟩
  | 86 => ⟨S_, .i32⟩
  | 87 => ⟨S25x1024, .i32⟩
  | 88 => ⟨S_, .i32⟩
  | 89 => ⟨S_, .f32⟩
  | 90 => ⟨S25x1024, .f32⟩
  | 91 => ⟨S_, .i32⟩
  | 92 => ⟨S_, .f32⟩
  | 93 => ⟨S1x1024, .f32⟩
  | 94 => ⟨S_, .i32⟩
  | 95 => ⟨S25x1024, .i32⟩
  | 96 => ⟨S25x1024, .i1⟩
  | 97 => ⟨S_, .i32⟩
  | 98 => ⟨S25x1024, .i32⟩
  | 99 => ⟨S25x1024, .i32⟩
  | 100 => ⟨S25x1024, .i32⟩
  | 101 => ⟨S25x1024x1, .i32⟩
  | 102 => ⟨S32x25x1024, .f32⟩
  | 103 => ⟨S32x1024, .f32⟩
  | 104 => ⟨S25x450, .i32⟩
  | 105 => ⟨S25x450, .f32⟩
  | 106 => ⟨S_, .i32⟩
  | 107 => ⟨S_, .i32⟩
  | 108 => ⟨S25x512, .i32⟩
  | 109 => ⟨S_, .i32⟩
  | 110 => ⟨S_, .f32⟩
  | 111 => ⟨S25x512, .f32⟩
  | 112 => ⟨S_, .i32⟩
  | 113 => ⟨S_, .f32⟩
  | 114 => ⟨S1x512, .f32⟩
  | 115 => ⟨S_, .i32⟩
  | 116 => ⟨S25x512, .i32⟩
  | 117 => ⟨S25x512, .i1⟩
  | 118 => ⟨S_, .i32⟩
  | 119 => ⟨S25x512, .i32⟩
  | 120 => ⟨S25x512, .i32⟩
  | 121 => ⟨S25x512, .i32⟩
  | 122 => ⟨S25x512x1, .i32⟩
  | 123 => ⟨S32x25x512, .f32⟩
  | 124 => ⟨S32x512, .f32⟩
  | 125 => ⟨S32x512, .bf16⟩
  | 126 => ⟨S450x2, .bf16⟩
  | 127 => ⟨S_, .i32⟩
  | _ => ⟨S32x20x14400, .f32⟩

abbrev hbmTy0_1 (i : Nat) : BufTy := match i % 128 with
  | 0 => ⟨S_, .bf16⟩
  | 1 => ⟨S512x128, .bf16⟩
  | 2 => ⟨S1x2, .f32⟩
  | 3 => ⟨S_, .i32⟩
  | 4 => ⟨S_, .f32⟩
  | 5 => ⟨S1x128, .f32⟩
  | 6 => ⟨S32x128, .f32⟩
  | 7 => ⟨S32x2, .f32⟩
  | _ => ⟨S32x20x14400, .f32⟩

abbrev hbmTy (i : Nat) : BufTy := match i / 128 with
  | 0 => hbmTy0_0 i
  | 1 => hbmTy0_1 i
  | _ => ⟨S32x20x14400, .f32⟩

abbrev bufTy : (tb : Table) → Fin (tcTables nBuf tb) → BufTy
  | .hbm, ⟨i, _⟩ => hbmTy i
  | .local _ .vmem, ⟨0, _⟩ => ⟨S32x25x512, .f32⟩
  | .local _ .vmem, ⟨1, _⟩ => ⟨S32x25x512, .f32⟩
  | .local _ .vmem, ⟨2, _⟩ => ⟨S25x512, .f32⟩
  | .local _ .vmem, ⟨3, _⟩ => ⟨S25x512, .f32⟩
  | .local _ .vmem, ⟨4, _⟩ => ⟨S1x512, .f32⟩
  | .local _ .vmem, ⟨5, _⟩ => ⟨S1x512, .f32⟩
  | .local _ .vmem, ⟨6, _⟩ => ⟨S32x512, .f32⟩
  | .local _ .vmem, ⟨7, _⟩ => ⟨S32x512, .f32⟩
  | .local _ .vmem, ⟨8, _⟩ => ⟨S32x25x512, .f32⟩
  | .local _ .vmem, ⟨9, _⟩ => ⟨S32x25x512, .f32⟩
  | .local _ .vmem, ⟨10, _⟩ => ⟨S25x512, .f32⟩
  | .local _ .vmem, ⟨11, _⟩ => ⟨S25x512, .f32⟩
  | .local _ .vmem, ⟨12, _⟩ => ⟨S1x512, .f32⟩
  | .local _ .vmem, ⟨13, _⟩ => ⟨S1x512, .f32⟩
  | .local _ .vmem, ⟨14, _⟩ => ⟨S32x512, .f32⟩
  | .local _ .vmem, ⟨15, _⟩ => ⟨S32x512, .f32⟩
  | .local _ .vmem, ⟨16, _⟩ => ⟨S32x25x512, .f32⟩
  | .local _ .vmem, ⟨17, _⟩ => ⟨S32x25x512, .f32⟩
  | .local _ .vmem, ⟨18, _⟩ => ⟨S25x512, .f32⟩
  | .local _ .vmem, ⟨19, _⟩ => ⟨S25x512, .f32⟩
  | .local _ .vmem, ⟨20, _⟩ => ⟨S1x512, .f32⟩
  | .local _ .vmem, ⟨21, _⟩ => ⟨S1x512, .f32⟩
  | .local _ .vmem, ⟨22, _⟩ => ⟨S32x512, .f32⟩
  | .local _ .vmem, ⟨23, _⟩ => ⟨S32x512, .f32⟩
  | .local _ .vmem, ⟨24, _⟩ => ⟨S32x25x256, .f32⟩
  | .local _ .vmem, ⟨25, _⟩ => ⟨S32x25x256, .f32⟩
  | .local _ .vmem, ⟨26, _⟩ => ⟨S25x256, .f32⟩
  | .local _ .vmem, ⟨27, _⟩ => ⟨S25x256, .f32⟩
  | .local _ .vmem, ⟨28, _⟩ => ⟨S1x256, .f32⟩
  | .local _ .vmem, ⟨29, _⟩ => ⟨S1x256, .f32⟩
  | .local _ .vmem, ⟨30, _⟩ => ⟨S32x256, .f32⟩
  | .local _ .vmem, ⟨31, _⟩ => ⟨S32x256, .f32⟩
  | .local _ .vmem, ⟨32, _⟩ => ⟨S32x25x256, .f32⟩
  | .local _ .vmem, ⟨33, _⟩ => ⟨S32x25x256, .f32⟩
  | .local _ .vmem, ⟨34, _⟩ => ⟨S25x256, .f32⟩
  | .local _ .vmem, ⟨35, _⟩ => ⟨S25x256, .f32⟩
  | .local _ .vmem, ⟨36, _⟩ => ⟨S1x256, .f32⟩
  | .local _ .vmem, ⟨37, _⟩ => ⟨S1x256, .f32⟩
  | .local _ .vmem, ⟨38, _⟩ => ⟨S32x256, .f32⟩
  | .local _ .vmem, ⟨39, _⟩ => ⟨S32x256, .f32⟩
  | .local _ .vmem, ⟨40, _⟩ => ⟨S32x512, .bf16⟩
  | .local _ .vmem, ⟨41, _⟩ => ⟨S512x128, .bf16⟩
  | .local _ .vmem, ⟨42, _⟩ => ⟨S1x128, .f32⟩
  | .local _ .vmem, ⟨43, _⟩ => ⟨S32x128, .f32⟩
  | _, _ => ⟨S32x20x14400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_call0_v0 : Ref sig .tc := ⟨.hbm, 23, rfl⟩
abbrev main_v4 : Ref sig .tc := ⟨.hbm, 24, rfl⟩
abbrev main_c_0 : Ref sig .tc := ⟨.hbm, 25, rfl⟩
abbrev main_call1_v0 : Ref sig .tc := ⟨.hbm, 26, rfl⟩
abbrev main_v5 : Ref sig .tc := ⟨.hbm, 27, rfl⟩
abbrev main_c_1 : Ref sig .tc := ⟨.hbm, 28, rfl⟩
abbrev main_call2_v0 : Ref sig .tc := ⟨.hbm, 29, rfl⟩
abbrev main_v6 : Ref sig .tc := ⟨.hbm, 30, rfl⟩
abbrev main_c_2 : Ref sig .tc := ⟨.hbm, 31, rfl⟩
abbrev main_v7 : Ref sig .tc := ⟨.hbm, 32, rfl⟩
abbrev main_v8 : Ref sig .tc := ⟨.hbm, 33, rfl⟩
abbrev main_c_3 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_c_4 : Ref sig .tc := ⟨.hbm, 43, rfl⟩
abbrev main_call3_v0 : Ref sig .tc := ⟨.hbm, 44, rfl⟩
abbrev main_v17 : Ref sig .tc := ⟨.hbm, 45, rfl⟩
abbrev main_c_5 : Ref sig .tc := ⟨.hbm, 46, rfl⟩
abbrev main_call4_v0 : Ref sig .tc := ⟨.hbm, 47, rfl⟩
abbrev main_v18 : Ref sig .tc := ⟨.hbm, 48, rfl⟩
abbrev main_c_6 : Ref sig .tc := ⟨.hbm, 49, rfl⟩
abbrev main_call5_v0 : Ref sig .tc := ⟨.hbm, 50, rfl⟩
abbrev main_v19 : Ref sig .tc := ⟨.hbm, 51, rfl⟩
abbrev main_c_7 : Ref sig .tc := ⟨.hbm, 52, rfl⟩
abbrev main_v20 : Ref sig .tc := ⟨.hbm, 53, rfl⟩
abbrev main_v21 : Ref sig .tc := ⟨.hbm, 54, rfl⟩
abbrev main_c_8 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_c_9 : Ref sig .tc := ⟨.hbm, 64, rfl⟩
abbrev main_call6_v0 : Ref sig .tc := ⟨.hbm, 65, rfl⟩
abbrev main_v30 : Ref sig .tc := ⟨.hbm, 66, rfl⟩
abbrev main_c_10 : Ref sig .tc := ⟨.hbm, 67, rfl⟩
abbrev main_call7_v0 : Ref sig .tc := ⟨.hbm, 68, rfl⟩
abbrev main_v31 : Ref sig .tc := ⟨.hbm, 69, rfl⟩
abbrev main_c_11 : Ref sig .tc := ⟨.hbm, 70, rfl⟩
abbrev main_call8_v0 : Ref sig .tc := ⟨.hbm, 71, rfl⟩
abbrev main_v32 : Ref sig .tc := ⟨.hbm, 72, rfl⟩
abbrev main_c_12 : Ref sig .tc := ⟨.hbm, 73, rfl⟩
abbrev main_v33 : Ref sig .tc := ⟨.hbm, 74, rfl⟩
abbrev main_v34 : Ref sig .tc := ⟨.hbm, 75, rfl⟩
abbrev main_c_13 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_c_14 : Ref sig .tc := ⟨.hbm, 85, rfl⟩
abbrev main_call9_v0 : Ref sig .tc := ⟨.hbm, 86, rfl⟩
abbrev main_v43 : Ref sig .tc := ⟨.hbm, 87, rfl⟩
abbrev main_c_15 : Ref sig .tc := ⟨.hbm, 88, rfl⟩
abbrev main_call10_v0 : Ref sig .tc := ⟨.hbm, 89, rfl⟩
abbrev main_v44 : Ref sig .tc := ⟨.hbm, 90, rfl⟩
abbrev main_c_16 : Ref sig .tc := ⟨.hbm, 91, rfl⟩
abbrev main_call11_v0 : Ref sig .tc := ⟨.hbm, 92, rfl⟩
abbrev main_v45 : Ref sig .tc := ⟨.hbm, 93, rfl⟩
abbrev main_c_17 : Ref sig .tc := ⟨.hbm, 94, rfl⟩
abbrev main_v46 : Ref sig .tc := ⟨.hbm, 95, rfl⟩
abbrev main_v47 : Ref sig .tc := ⟨.hbm, 96, rfl⟩
abbrev main_c_18 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_19 : Ref sig .tc := ⟨.hbm, 106, rfl⟩
abbrev main_call12_v0 : Ref sig .tc := ⟨.hbm, 107, rfl⟩
abbrev main_v56 : Ref sig .tc := ⟨.hbm, 108, rfl⟩
abbrev main_c_20 : Ref sig .tc := ⟨.hbm, 109, rfl⟩
abbrev main_call13_v0 : Ref sig .tc := ⟨.hbm, 110, rfl⟩
abbrev main_v57 : Ref sig .tc := ⟨.hbm, 111, rfl⟩
abbrev main_c_21 : Ref sig .tc := ⟨.hbm, 112, rfl⟩
abbrev main_call14_v0 : Ref sig .tc := ⟨.hbm, 113, rfl⟩
abbrev main_v58 : Ref sig .tc := ⟨.hbm, 114, rfl⟩
abbrev main_c_22 : Ref sig .tc := ⟨.hbm, 115, rfl⟩
abbrev main_v59 : Ref sig .tc := ⟨.hbm, 116, rfl⟩
abbrev main_v60 : Ref sig .tc := ⟨.hbm, 117, rfl⟩
abbrev main_c_23 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_c_24 : Ref sig .tc := ⟨.hbm, 127, rfl⟩
abbrev main_call15_v0 : Ref sig .tc := ⟨.hbm, 128, rfl⟩
abbrev main_v69 : Ref sig .tc := ⟨.hbm, 129, rfl⟩
abbrev main_v70 : Ref sig .tc := ⟨.hbm, 130, rfl⟩
abbrev main_c_25 : Ref sig .tc := ⟨.hbm, 131, rfl⟩
abbrev main_call16_v0 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc5_stg0_0 : Ref sig .tc := ⟨.vmem, 40, rfl⟩
abbrev cc5_stg1_0 : Ref sig .tc := ⟨.vmem, 41, rfl⟩
abbrev cc5_stg2_0 : Ref sig .tc := ⟨.vmem, 42, rfl⟩
abbrev cc5_stg3_0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39
abbrev cc5_sem0_0 : DmaSem sig := 40
abbrev cc5_sem1_0 : DmaSem sig := 41
abbrev cc5_sem2_0 : DmaSem sig := 42
abbrev cc5_sem3_0 : DmaSem sig := 43

abbrev nD : Nat := 1
abbrev τ : Topo := Topo.v7x

variable {F : FTy → Type} [FloatOps F]

abbrev grid0 : Pipeline.Grid := ⟨1, ![15], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x25x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S25x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x25x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S25x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S32x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S32x25x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S25x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S32x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![4], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S32x25x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S25x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S32x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![2], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S32x25x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S25x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S1x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S32x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S32x512 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S512x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S32x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S32x20x14400_S32x1x14400_0_19_0 : S32x20x14400.Slices ![0, 19, 0] S32x1x14400
  shapeCasts_S32x1x14400_S32x14400 : S32x1x14400.ShapeCasts S32x14400
  transposes_S7200x25_S25x7200_1_0 : S7200x25.Transposes [1, 0] S25x7200
  pads_S25x7200_S25x7680_000_04800 : S25x7200.Pads (![0, 0] : Fin 2 → Nat) ![0, 480] ![0, 0] S25x7680
  h_S_ : 0 < S_.numel
  pads_S1x7200_S1x7680_000_04800 : S1x7200.Pads (![0, 0] : Fin 2 → Nat) ![0, 480] ![0, 0] S1x7680
  bcast_S_S25x7680 : S_.BroadcastsInDim S25x7680 (![] : Fin 0 → Fin S25x7680.rank)
  bcast_S25x7680_S25x7680x1_0_1 : S25x7680.BroadcastsInDim S25x7680x1 (![0, 1] : Fin 2 → Fin S25x7680x1.rank)
  inb_S32x25x512_S32x25x512_0_0_0 : ∀ a, (![0, 0, 0] : Fin 3 → Nat) a + S32x25x512.size a ≤ S32x25x512.size a
  h_S32x25x512 : 0 < S32x25x512.numel
  shapeCasts_S32x25x512_S32x25x512 : S32x25x512.ShapeCasts S32x25x512
  inb_S25x512_S25x512_0_0 : ∀ a, (![0, 0] : Fin 2 → Nat) a + S25x512.size a ≤ S25x512.size a
  h_S25x512 : 0 < S25x512.numel
  shapeCasts_S25x512_S25x512 : S25x512.ShapeCasts S25x512
  slices_S32x25x512_o0_0_0_S32x1x512 : S32x25x512.Slices ![0, 0, 0] S32x1x512
  shapeCasts_S32x1x512_S32x512 : S32x1x512.ShapeCasts S32x512
  slices_S25x512_o0_0_S1x512 : S25x512.Slices ![0, 0] S1x512
  shapeCasts_S1x512_S512 : S1x512.ShapeCasts S512
  shapeCasts_S512_S1x512 : S512.ShapeCasts S1x512
  broadcasts_S1x512_S32x512 : S1x512.Broadcasts S32x512
  slices_S32x25x512_o0_1_0_S32x1x512 : S32x25x512.Slices ![0, 1, 0] S32x1x512
  slices_S25x512_o1_0_S1x512 : S25x512.Slices ![1, 0] S1x512
  slices_S32x25x512_o0_2_0_S32x1x512 : S32x25x512.Slices ![0, 2, 0] S32x1x512
  slices_S25x512_o2_0_S1x512 : S25x512.Slices ![2, 0] S1x512
  slices_S32x25x512_o0_3_0_S32x1x512 : S32x25x512.Slices ![0, 3, 0] S32x1x512
  slices_S25x512_o3_0_S1x512 : S25x512.Slices ![3, 0] S1x512
  slices_S32x25x512_o0_4_0_S32x1x512 : S32x25x512.Slices ![0, 4, 0] S32x1x512
  slices_S25x512_o4_0_S1x512 : S25x512.Slices ![4, 0] S1x512
  slices_S32x25x512_o0_5_0_S32x1x512 : S32x25x512.Slices ![0, 5, 0] S32x1x512
  slices_S25x512_o5_0_S1x512 : S25x512.Slices ![5, 0] S1x512
  slices_S32x25x512_o0_6_0_S32x1x512 : S32x25x512.Slices ![0, 6, 0] S32x1x512
  slices_S25x512_o6_0_S1x512 : S25x512.Slices ![6, 0] S1x512
  slices_S32x25x512_o0_7_0_S32x1x512 : S32x25x512.Slices ![0, 7, 0] S32x1x512
  slices_S25x512_o7_0_S1x512 : S25x512.Slices ![7, 0] S1x512
  slices_S32x25x512_o0_8_0_S32x1x512 : S32x25x512.Slices ![0, 8, 0] S32x1x512
  slices_S25x512_o8_0_S1x512 : S25x512.Slices ![8, 0] S1x512
  slices_S32x25x512_o0_9_0_S32x1x512 : S32x25x512.Slices ![0, 9, 0] S32x1x512
  slices_S25x512_o9_0_S1x512 : S25x512.Slices ![9, 0] S1x512
  slices_S32x25x512_o0_10_0_S32x1x512 : S32x25x512.Slices ![0, 10, 0] S32x1x512
  slices_S25x512_o10_0_S1x512 : S25x512.Slices ![10, 0] S1x512
  slices_S32x25x512_o0_11_0_S32x1x512 : S32x25x512.Slices ![0, 11, 0] S32x1x512
  slices_S25x512_o11_0_S1x512 : S25x512.Slices ![11, 0] S1x512
  slices_S32x25x512_o0_12_0_S32x1x512 : S32x25x512.Slices ![0, 12, 0] S32x1x512
  slices_S25x512_o12_0_S1x512 : S25x512.Slices ![12, 0] S1x512
  slices_S32x25x512_o0_13_0_S32x1x512 : S32x25x512.Slices ![0, 13, 0] S32x1x512
  slices_S25x512_o13_0_S1x512 : S25x512.Slices ![13, 0] S1x512
  slices_S32x25x512_o0_14_0_S32x1x512 : S32x25x512.Slices ![0, 14, 0] S32x1x512
  slices_S25x512_o14_0_S1x512 : S25x512.Slices ![14, 0] S1x512
  slices_S32x25x512_o0_15_0_S32x1x512 : S32x25x512.Slices ![0, 15, 0] S32x1x512
  slices_S25x512_o15_0_S1x512 : S25x512.Slices ![15, 0] S1x512
  slices_S32x25x512_o0_16_0_S32x1x512 : S32x25x512.Slices ![0, 16, 0] S32x1x512
  slices_S25x512_o16_0_S1x512 : S25x512.Slices ![16, 0] S1x512
  slices_S32x25x512_o0_17_0_S32x1x512 : S32x25x512.Slices ![0, 17, 0] S32x1x512
  slices_S25x512_o17_0_S1x512 : S25x512.Slices ![17, 0] S1x512
  slices_S32x25x512_o0_18_0_S32x1x512 : S32x25x512.Slices ![0, 18, 0] S32x1x512
  slices_S25x512_o18_0_S1x512 : S25x512.Slices ![18, 0] S1x512
  slices_S32x25x512_o0_19_0_S32x1x512 : S32x25x512.Slices ![0, 19, 0] S32x1x512
  slices_S25x512_o19_0_S1x512 : S25x512.Slices ![19, 0] S1x512
  slices_S32x25x512_o0_20_0_S32x1x512 : S32x25x512.Slices ![0, 20, 0] S32x1x512
  slices_S25x512_o20_0_S1x512 : S25x512.Slices ![20, 0] S1x512
  slices_S32x25x512_o0_21_0_S32x1x512 : S32x25x512.Slices ![0, 21, 0] S32x1x512
  slices_S25x512_o21_0_S1x512 : S25x512.Slices ![21, 0] S1x512
  slices_S32x25x512_o0_22_0_S32x1x512 : S32x25x512.Slices ![0, 22, 0] S32x1x512
  slices_S25x512_o22_0_S1x512 : S25x512.Slices ![22, 0] S1x512
  slices_S32x25x512_o0_23_0_S32x1x512 : S32x25x512.Slices ![0, 23, 0] S32x1x512
  slices_S25x512_o23_0_S1x512 : S25x512.Slices ![23, 0] S1x512
  slices_S32x25x512_o0_24_0_S32x1x512 : S32x25x512.Slices ![0, 24, 0] S32x1x512
  slices_S25x512_o24_0_S1x512 : S25x512.Slices ![24, 0] S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S32x512_S32x512_0_0 : ∀ a, (![0, 0] : Fin 2 → Nat) a + S32x512.size a ≤ S32x512.size a
  h_S32x512 : 0 < S32x512.numel
  transposes_S3600x25_S25x3600_1_0 : S3600x25.Transposes [1, 0] S25x3600
  pads_S25x3600_S25x4096_000_04960 : S25x3600.Pads (![0, 0] : Fin 2 → Nat) ![0, 496] ![0, 0] S25x4096
  pads_S1x3600_S1x4096_000_04960 : S1x3600.Pads (![0, 0] : Fin 2 → Nat) ![0, 496] ![0, 0] S1x4096
  bcast_S_S25x4096 : S_.BroadcastsInDim S25x4096 (![] : Fin 0 → Fin S25x4096.rank)
  bcast_S25x4096_S25x4096x1_0_1 : S25x4096.BroadcastsInDim S25x4096x1 (![0, 1] : Fin 2 → Fin S25x4096x1.rank)
  transposes_S1800x25_S25x1800_1_0 : S1800x25.Transposes [1, 0] S25x1800
  pads_S25x1800_S25x2048_000_02480 : S25x1800.Pads (![0, 0] : Fin 2 → Nat) ![0, 248] ![0, 0] S25x2048
  pads_S1x1800_S1x2048_000_02480 : S1x1800.Pads (![0, 0] : Fin 2 → Nat) ![0, 248] ![0, 0] S1x2048
  bcast_S_S25x2048 : S_.BroadcastsInDim S25x2048 (![] : Fin 0 → Fin S25x2048.rank)
  bcast_S25x2048_S25x2048x1_0_1 : S25x2048.BroadcastsInDim S25x2048x1 (![0, 1] : Fin 2 → Fin S25x2048x1.rank)
  transposes_S900x25_S25x900_1_0 : S900x25.Transposes [1, 0] S25x900
  pads_S25x900_S25x1024_000_01240 : S25x900.Pads (![0, 0] : Fin 2 → Nat) ![0, 124] ![0, 0] S25x1024
  pads_S1x900_S1x1024_000_01240 : S1x900.Pads (![0, 0] : Fin 2 → Nat) ![0, 124] ![0, 0] S1x1024
  bcast_S_S25x1024 : S_.BroadcastsInDim S25x1024 (![] : Fin 0 → Fin S25x1024.rank)
  bcast_S25x1024_S25x1024x1_0_1 : S25x1024.BroadcastsInDim S25x1024x1 (![0, 1] : Fin 2 → Fin S25x1024x1.rank)
  inb_S32x25x256_S32x25x256_0_0_0 : ∀ a, (![0, 0, 0] : Fin 3 → Nat) a + S32x25x256.size a ≤ S32x25x256.size a
  h_S32x25x256 : 0 < S32x25x256.numel
  shapeCasts_S32x25x256_S32x25x256 : S32x25x256.ShapeCasts S32x25x256
  inb_S25x256_S25x256_0_0 : ∀ a, (![0, 0] : Fin 2 → Nat) a + S25x256.size a ≤ S25x256.size a
  h_S25x256 : 0 < S25x256.numel
  shapeCasts_S25x256_S25x256 : S25x256.ShapeCasts S25x256
  slices_S32x25x256_o0_0_0_S32x1x256 : S32x25x256.Slices ![0, 0, 0] S32x1x256
  shapeCasts_S32x1x256_S32x256 : S32x1x256.ShapeCasts S32x256
  slices_S25x256_o0_0_S1x256 : S25x256.Slices ![0, 0] S1x256
  shapeCasts_S1x256_S256 : S1x256.ShapeCasts S256
  shapeCasts_S256_S1x256 : S256.ShapeCasts S1x256
  broadcasts_S1x256_S32x256 : S1x256.Broadcasts S32x256
  slices_S32x25x256_o0_1_0_S32x1x256 : S32x25x256.Slices ![0, 1, 0] S32x1x256
  slices_S25x256_o1_0_S1x256 : S25x256.Slices ![1, 0] S1x256
  slices_S32x25x256_o0_2_0_S32x1x256 : S32x25x256.Slices ![0, 2, 0] S32x1x256
  slices_S25x256_o2_0_S1x256 : S25x256.Slices ![2, 0] S1x256
  slices_S32x25x256_o0_3_0_S32x1x256 : S32x25x256.Slices ![0, 3, 0] S32x1x256
  slices_S25x256_o3_0_S1x256 : S25x256.Slices ![3, 0] S1x256
  slices_S32x25x256_o0_4_0_S32x1x256 : S32x25x256.Slices ![0, 4, 0] S32x1x256
  slices_S25x256_o4_0_S1x256 : S25x256.Slices ![4, 0] S1x256
  slices_S32x25x256_o0_5_0_S32x1x256 : S32x25x256.Slices ![0, 5, 0] S32x1x256
  slices_S25x256_o5_0_S1x256 : S25x256.Slices ![5, 0] S1x256
  slices_S32x25x256_o0_6_0_S32x1x256 : S32x25x256.Slices ![0, 6, 0] S32x1x256
  slices_S25x256_o6_0_S1x256 : S25x256.Slices ![6, 0] S1x256
  slices_S32x25x256_o0_7_0_S32x1x256 : S32x25x256.Slices ![0, 7, 0] S32x1x256
  slices_S25x256_o7_0_S1x256 : S25x256.Slices ![7, 0] S1x256
  slices_S32x25x256_o0_8_0_S32x1x256 : S32x25x256.Slices ![0, 8, 0] S32x1x256
  slices_S25x256_o8_0_S1x256 : S25x256.Slices ![8, 0] S1x256
  slices_S32x25x256_o0_9_0_S32x1x256 : S32x25x256.Slices ![0, 9, 0] S32x1x256
  slices_S25x256_o9_0_S1x256 : S25x256.Slices ![9, 0] S1x256
  slices_S32x25x256_o0_10_0_S32x1x256 : S32x25x256.Slices ![0, 10, 0] S32x1x256
  slices_S25x256_o10_0_S1x256 : S25x256.Slices ![10, 0] S1x256
  slices_S32x25x256_o0_11_0_S32x1x256 : S32x25x256.Slices ![0, 11, 0] S32x1x256
  slices_S25x256_o11_0_S1x256 : S25x256.Slices ![11, 0] S1x256
  slices_S32x25x256_o0_12_0_S32x1x256 : S32x25x256.Slices ![0, 12, 0] S32x1x256
  slices_S25x256_o12_0_S1x256 : S25x256.Slices ![12, 0] S1x256
  slices_S32x25x256_o0_13_0_S32x1x256 : S32x25x256.Slices ![0, 13, 0] S32x1x256
  slices_S25x256_o13_0_S1x256 : S25x256.Slices ![13, 0] S1x256
  slices_S32x25x256_o0_14_0_S32x1x256 : S32x25x256.Slices ![0, 14, 0] S32x1x256
  slices_S25x256_o14_0_S1x256 : S25x256.Slices ![14, 0] S1x256
  slices_S32x25x256_o0_15_0_S32x1x256 : S32x25x256.Slices ![0, 15, 0] S32x1x256
  slices_S25x256_o15_0_S1x256 : S25x256.Slices ![15, 0] S1x256
  slices_S32x25x256_o0_16_0_S32x1x256 : S32x25x256.Slices ![0, 16, 0] S32x1x256
  slices_S25x256_o16_0_S1x256 : S25x256.Slices ![16, 0] S1x256
  slices_S32x25x256_o0_17_0_S32x1x256 : S32x25x256.Slices ![0, 17, 0] S32x1x256
  slices_S25x256_o17_0_S1x256 : S25x256.Slices ![17, 0] S1x256
  slices_S32x25x256_o0_18_0_S32x1x256 : S32x25x256.Slices ![0, 18, 0] S32x1x256
  slices_S25x256_o18_0_S1x256 : S25x256.Slices ![18, 0] S1x256
  slices_S32x25x256_o0_19_0_S32x1x256 : S32x25x256.Slices ![0, 19, 0] S32x1x256
  slices_S25x256_o19_0_S1x256 : S25x256.Slices ![19, 0] S1x256
  slices_S32x25x256_o0_20_0_S32x1x256 : S32x25x256.Slices ![0, 20, 0] S32x1x256
  slices_S25x256_o20_0_S1x256 : S25x256.Slices ![20, 0] S1x256
  slices_S32x25x256_o0_21_0_S32x1x256 : S32x25x256.Slices ![0, 21, 0] S32x1x256
  slices_S25x256_o21_0_S1x256 : S25x256.Slices ![21, 0] S1x256
  slices_S32x25x256_o0_22_0_S32x1x256 : S32x25x256.Slices ![0, 22, 0] S32x1x256
  slices_S25x256_o22_0_S1x256 : S25x256.Slices ![22, 0] S1x256
  slices_S32x25x256_o0_23_0_S32x1x256 : S32x25x256.Slices ![0, 23, 0] S32x1x256
  slices_S25x256_o23_0_S1x256 : S25x256.Slices ![23, 0] S1x256
  slices_S32x25x256_o0_24_0_S32x1x256 : S32x25x256.Slices ![0, 24, 0] S32x1x256
  slices_S25x256_o24_0_S1x256 : S25x256.Slices ![24, 0] S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S32x256_S32x256_0_0 : ∀ a, (![0, 0] : Fin 2 → Nat) a + S32x256.size a ≤ S32x256.size a
  h_S32x256 : 0 < S32x256.numel
  transposes_S450x25_S25x450_1_0 : S450x25.Transposes [1, 0] S25x450
  pads_S25x450_S25x512_000_0620 : S25x450.Pads (![0, 0] : Fin 2 → Nat) ![0, 62] ![0, 0] S25x512
  pads_S1x450_S1x512_000_0620 : S1x450.Pads (![0, 0] : Fin 2 → Nat) ![0, 62] ![0, 0] S1x512
  bcast_S_S25x512 : S_.BroadcastsInDim S25x512 (![] : Fin 0 → Fin S25x512.rank)
  bcast_S25x512_S25x512x1_0_1 : S25x512.BroadcastsInDim S25x512x1 (![0, 1] : Fin 2 → Fin S25x512x1.rank)
  bitsLt_bf16_f32 : FTy.bits .bf16 < FTy.bits .f32
  pads_S450x2_S512x128_0620_01260 : S450x2.Pads (![0, 0] : Fin 2 → Nat) ![62, 126] ![0, 0] S512x128
  shapeCasts_S2_S1x2 : S2.ShapeCasts S1x2
  pads_S1x2_S1x128_000_01260 : S1x2.Pads (![0, 0] : Fin 2 → Nat) ![0, 126] ![0, 0] S1x128
  shapeCasts_S32x512_S32x512 : S32x512.ShapeCasts S32x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S32x128 : S1x128.Broadcasts S32x128
  inb_S32x128_S32x128_0_0 : ∀ a, (![0, 0] : Fin 2 → Nat) a + S32x128.size a ≤ S32x128.size a
  h_S32x128 : 0 < S32x128.numel
  slices_S32x128_S32x2_0_0 : S32x128.Slices ![0, 0] S32x2
  gather_S32x14400_S25x7680x1_S32x25x7680_0_1_n_n_1_2_321_wf : GatherDims.WF S32x14400 S25x7680x1 S32x25x7680 [0] [1] [] [1] [] 2 ![32, 1]
  gather_S32x7680_S25x4096x1_S32x25x4096_0_1_n_n_1_2_321_wf : GatherDims.WF S32x7680 S25x4096x1 S32x25x4096 [0] [1] [] [1] [] 2 ![32, 1]
  gather_S32x4096_S25x2048x1_S32x25x2048_0_1_n_n_1_2_321_wf : GatherDims.WF S32x4096 S25x2048x1 S32x25x2048 [0] [1] [] [1] [] 2 ![32, 1]
  gather_S32x2048_S25x1024x1_S32x25x1024_0_1_n_n_1_2_321_wf : GatherDims.WF S32x2048 S25x1024x1 S32x25x1024 [0] [1] [] [1] [] 2 ![32, 1]
  gather_S32x1024_S25x512x1_S32x25x512_0_1_n_n_1_2_321_wf : GatherDims.WF S32x1024 S25x512x1 S32x25x512 [0] [1] [] [1] [] 2 ![32, 1]
  dot_S32x512_S512x128_S32x128_1_0_0_1_n_n_wf : DotDims.WF S32x512 S512x128 S32x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x25x512.size a ≤ S32x25x7680.size a
  hwx0_0 : ∀ i : grid0.Coords, EltTy.bits .f32 = 32 ∨ (Rect.block (s := S32x25x7680) S32x25x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S25x512.size a ≤ S25x7680.size a
  hwx0_1 : ∀ i : grid0.Coords, EltTy.bits .f32 = 32 ∨ (Rect.block (s := S25x7680) S25x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x7680.size a
  hwx0_2 : ∀ i : grid0.Coords, EltTy.bits .f32 = 32 ∨ (Rect.block (s := S1x7680) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x512.size a ≤ S32x7680.size a
  hwx0_3 : ∀ i : grid0.Coords, EltTy.bits .f32 = 32 ∨ (Rect.block (s := S32x7680) S32x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x25x512.size a ≤ S32x25x4096.size a
  hwx1_0 : ∀ i : grid1.Coords, EltTy.bits .f32 = 32 ∨ (Rect.block (s := S32x25x4096) S32x25x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S25x512.size a ≤ S25x4096.size a
  hwx1_1 : ∀ i : grid1.Coords, EltTy.bits .f32 = 32 ∨ (Rect.block (s := S25x4096) S25x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x512.size a ≤ S32x4096.size a
  hwx1_3 : ∀ i : grid1.Coords, EltTy.bits .f32 = 32 ∨ (Rect.block (s := S32x4096) S32x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x25x512.size a ≤ S32x25x2048.size a
  hwx2_0 : ∀ i : grid2.Coords, EltTy.bits .f32 = 32 ∨ (Rect.block (s := S32x25x2048) S32x25x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S25x512.size a ≤ S25x2048.size a
  hwx2_1 : ∀ i : grid2.Coords, EltTy.bits .f32 = 32 ∨ (Rect.block (s := S25x2048) S25x512.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x2048.size a
  hwx2_2 : ∀ i : grid2.Coords, EltTy.bits .f32 = 32 ∨ (Rect.block (s := S1x2048) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x512.size a ≤ S32x2048.size a
  hwx2_3 : ∀ i : grid2.Coords, EltTy.bits .f32 = 32 ∨ (Rect.block (s := S32x2048) S32x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S32x25x256.size a ≤ S32x25x1024.size a
  hwx3_0 : ∀ i : grid3.Coords, EltTy.bits .f32 = 32 ∨ (Rect.block (s := S32x25x1024) S32x25x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S25x256.size a ≤ S25x1024.size a
  hwx3_1 : ∀ i : grid3.Coords, EltTy.bits .f32 = 32 ∨ (Rect.block (s := S25x1024) S25x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x1024.size a
  hwx3_2 : ∀ i : grid3.Coords, EltTy.bits .f32 = 32 ∨ (Rect.block (s := S1x1024) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S32x256.size a ≤ S32x1024.size a
  hwx3_3 : ∀ i : grid3.Coords, EltTy.bits .f32 = 32 ∨ (Rect.block (s := S32x1024) S32x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x25x256.size a ≤ S32x25x512.size a
  hwx4_0 : ∀ i : grid4.Coords, EltTy.bits .f32 = 32 ∨ (Rect.block (s := S32x25x512) S32x25x256.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S25x256.size a ≤ S25x512.size a
  hwx4_1 : ∀ i : grid4.Coords, EltTy.bits .f32 = 32 ∨ (Rect.block (s := S25x512) S25x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x512.size a
  hwx4_2 : ∀ i : grid4.Coords, EltTy.bits .f32 = 32 ∨ (Rect.block (s := S1x512) S1x256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S32x256.size a ≤ S32x512.size a
  hwx4_3 : ∀ i : grid4.Coords, EltTy.bits .f32 = 32 ∨ (Rect.block (s := S32x512) S32x256.size (cc4_transform_3 i) (hinb4_3 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S32x512.size a ≤ S32x512.size a
  hwx5_0 : ∀ i : grid5.Coords, EltTy.bits .bf16 = 32 ∨ (Rect.block (s := S32x512) S32x512.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x128.size a ≤ S512x128.size a
  hwx5_1 : ∀ i : grid5.Coords, EltTy.bits .bf16 = 32 ∨ (Rect.block (s := S512x128) S512x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S32x128.size a ≤ S32x128.size a
  hwx5_3 : ∀ i : grid5.Coords, EltTy.bits .f32 = 32 ∨ (Rect.block (s := S32x128) S32x128.size (cc5_transform_3 i) (hinb5_3 i)).WholeWords (EltTy.packing .f32)

variable [Facts₀]

def gather_S32x14400_S25x7680x1_S32x25x7680_0_1_n_n_1_2_321 : GatherDims S32x14400 S25x7680x1 S32x25x7680 where
  offsetDims := [0]
  collapsedSliceDims := [1]
  operandBatchingDims := []
  startIndicesBatchingDims := []
  startIndexMap := [1]
  indexVectorDim := 2
  sliceSizes := ![32, 1]
  wf := gather_S32x14400_S25x7680x1_S32x25x7680_0_1_n_n_1_2_321_wf
def gather_S32x7680_S25x4096x1_S32x25x4096_0_1_n_n_1_2_321 : GatherDims S32x7680 S25x4096x1 S32x25x4096 where
  offsetDims := [0]
  collapsedSliceDims := [1]
  operandBatchingDims := []
  startIndicesBatchingDims := []
  startIndexMap := [1]
  indexVectorDim := 2
  sliceSizes := ![32, 1]
  wf := gather_S32x7680_S25x4096x1_S32x25x4096_0_1_n_n_1_2_321_wf
def gather_S32x4096_S25x2048x1_S32x25x2048_0_1_n_n_1_2_321 : GatherDims S32x4096 S25x2048x1 S32x25x2048 where
  offsetDims := [0]
  collapsedSliceDims := [1]
  operandBatchingDims := []
  startIndicesBatchingDims := []
  startIndexMap := [1]
  indexVectorDim := 2
  sliceSizes := ![32, 1]
  wf := gather_S32x4096_S25x2048x1_S32x25x2048_0_1_n_n_1_2_321_wf
def gather_S32x2048_S25x1024x1_S32x25x1024_0_1_n_n_1_2_321 : GatherDims S32x2048 S25x1024x1 S32x25x1024 where
  offsetDims := [0]
  collapsedSliceDims := [1]
  operandBatchingDims := []
  startIndicesBatchingDims := []
  startIndexMap := [1]
  indexVectorDim := 2
  sliceSizes := ![32, 1]
  wf := gather_S32x2048_S25x1024x1_S32x25x1024_0_1_n_n_1_2_321_wf
def gather_S32x1024_S25x512x1_S32x25x512_0_1_n_n_1_2_321 : GatherDims S32x1024 S25x512x1 S32x25x512 where
  offsetDims := [0]
  collapsedSliceDims := [1]
  operandBatchingDims := []
  startIndicesBatchingDims := []
  startIndexMap := [1]
  indexVectorDim := 2
  sliceSizes := ![32, 1]
  wf := gather_S32x1024_S25x512x1_S32x25x512_0_1_n_n_1_2_321_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf

abbrev win0_0 : Pipeline.Window sig grid0 :=
  Pipeline.Window.ofSpec (Memref.whole main_v13) S32x25x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S25x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S32x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S32x25x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S25x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S32x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v39) S32x25x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v31) S25x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v40) S32x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S32x25x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44) S25x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S1x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v53) S32x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v65) S32x25x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S25x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S1x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v66) S32x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v67) S32x512.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_v69) S512x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v71) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S32x128.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S32x20x14400 : Shape := ⟨3, ![32, 20, 14400]⟩
abbrev S7200x25 : Shape := ⟨2, ![7200, 25]⟩
abbrev S3600x25 : Shape := ⟨2, ![3600, 25]⟩
abbrev S1800x25 : Shape := ⟨2, ![1800, 25]⟩
abbrev S900x25 : Shape := ⟨2, ![900, 25]⟩
abbrev S450x25 : Shape := ⟨2, ![450, 25]⟩
abbrev S1x7200 : Shape := ⟨2, ![1, 7200]⟩
abbrev S1x3600 : Shape := ⟨2, ![1, 3600]⟩
abbrev S1x1800 : Shape := ⟨2, ![1, 1800]⟩
abbrev S1x900 : Shape := ⟨2, ![1, 900]⟩
abbrev S1x450 : Shape := ⟨2, ![1, 450]⟩
abbrev S450x2 : Shape := ⟨2, ![450, 2]⟩
abbrev S2 : Shape := ⟨1, ![2]⟩
abbrev S640x14400 : Shape := ⟨2, ![640, 14400]⟩
abbrev S_ : Shape := ⟨0, ![]⟩
abbrev S7200x25x1 : Shape := ⟨3, ![7200, 25, 1]⟩
abbrev S640x7200x25 : Shape := ⟨3, ![640, 7200, 25]⟩
abbrev S1x7200x25 : Shape := ⟨3, ![1, 7200, 25]⟩
abbrev S640x7200 : Shape := ⟨2, ![640, 7200]⟩
abbrev S3600x25x1 : Shape := ⟨3, ![3600, 25, 1]⟩
abbrev S640x3600x25 : Shape := ⟨3, ![640, 3600, 25]⟩
abbrev S1x3600x25 : Shape := ⟨3, ![1, 3600, 25]⟩
abbrev S640x3600 : Shape := ⟨2, ![640, 3600]⟩
abbrev S1800x25x1 : Shape := ⟨3, ![1800, 25, 1]⟩
abbrev S640x1800x25 : Shape := ⟨3, ![640, 1800, 25]⟩
abbrev S1x1800x25 : Shape := ⟨3, ![1, 1800, 25]⟩
abbrev S640x1800 : Shape := ⟨2, ![640, 1800]⟩
abbrev S900x25x1 : Shape := ⟨3, ![900, 25, 1]⟩
abbrev S640x900x25 : Shape := ⟨3, ![640, 900, 25]⟩
abbrev S1x900x25 : Shape := ⟨3, ![1, 900, 25]⟩
abbrev S640x900 : Shape := ⟨2, ![640, 900]⟩
abbrev S450x25x1 : Shape := ⟨3, ![450, 25, 1]⟩
abbrev S640x450x25 : Shape := ⟨3, ![640, 450, 25]⟩
abbrev S1x450x25 : Shape := ⟨3, ![1, 450, 25]⟩
abbrev S640x450 : Shape := ⟨2, ![640, 450]⟩
abbrev S640x2 : Shape := ⟨2, ![640, 2]⟩
abbrev S1x2 : Shape := ⟨2, ![1, 2]⟩
abbrev S32x20x2 : Shape := ⟨3, ![32, 20, 2]⟩
abbrev S32x1x2 : Shape := ⟨3, ![32, 1, 2]⟩
abbrev S32x2 : Shape := ⟨2, ![32, 2]⟩

abbrev nBuf : Space → Nat
  | .hbm => 166
  | .vmem => 0
  | .smem => 0
  | _ => 0

abbrev hbmTy0_0 (i : Nat) : BufTy := match i % 128 with
  | 0 => ⟨S32x20x14400, .f32⟩
  | 1 => ⟨S7200x25, .f32⟩
  | 2 => ⟨S3600x25, .f32⟩
  | 3 => ⟨S1800x25, .f32⟩
  | 4 => ⟨S900x25, .f32⟩
  | 5 => ⟨S450x25, .f32⟩
  | 6 => ⟨S1x7200, .f32⟩
  | 7 => ⟨S1x3600, .f32⟩
  | 8 => ⟨S1x1800, .f32⟩
  | 9 => ⟨S1x900, .f32⟩
  | 10 => ⟨S1x450, .f32⟩
  | 11 => ⟨S450x2, .f32⟩
  | 12 => ⟨S2, .f32⟩
  | 13 => ⟨S7200x25, .i32⟩
  | 14 => ⟨S3600x25, .i32⟩
  | 15 => ⟨S1800x25, .i32⟩
  | 16 => ⟨S900x25, .i32⟩
  | 17 => ⟨S450x25, .i32⟩
  | 18 => ⟨S640x14400, .f32⟩
  | 19 => ⟨S_, .i32⟩
  | 20 => ⟨S7200x25, .i32⟩
  | 21 => ⟨S7200x25, .i1⟩
  | 22 => ⟨S_, .i32⟩
  | 23 => ⟨S7200x25, .i32⟩
  | 24 => ⟨S7200x25, .i32⟩
  | 25 => ⟨S7200x25, .i32⟩
  | 26 => ⟨S7200x25x1, .i32⟩
  | 27 => ⟨S640x7200x25, .f32⟩
  | 28 => ⟨S1x7200x25, .f32⟩
  | 29 => ⟨S640x7200x25, .f32⟩
  | 30 => ⟨S640x7200x25, .f32⟩
  | 31 => ⟨S_, .f32⟩
  | 32 => ⟨S640x7200, .f32⟩
  | 33 => ⟨S640x7200, .f32⟩
  | 34 => ⟨S640x7200, .f32⟩
  | 35 => ⟨S_, .f32⟩
  | 36 => ⟨S640x7200, .f32⟩
  | 37 => ⟨S_, .f32⟩
  | 38 => ⟨S640x7200, .f32⟩
  | 39 => ⟨S640x7200, .f32⟩
  | 40 => ⟨S640x7200, .f32⟩
  | 41 => ⟨S_, .f32⟩
  | 42 => ⟨S640x7200, .f32⟩
  | 43 => ⟨S_, .f32⟩
  | 44 => ⟨S640x7200, .f32⟩
  | 45 => ⟨S640x7200, .f32⟩
  | 46 => ⟨S640x7200, .f32⟩
  | 47 => ⟨S_, .i32⟩
  | 48 => ⟨S3600x25, .i32⟩
  | 49 => ⟨S3600x25, .i1⟩
  | 50 => ⟨S_, .i32⟩
  | 51 => ⟨S3600x25, .i32⟩
  | 52 => ⟨S3600x25, .i32⟩
  | 53 => ⟨S3600x25, .i32⟩
  | 54 => ⟨S3600x25x1, .i32⟩
  | 55 => ⟨S640x3600x25, .f32⟩
  | 56 => ⟨S1x3600x25, .f32⟩
  | 57 => ⟨S640x3600x25, .f32⟩
  | 58 => ⟨S640x3600x25, .f32⟩
  | 59 => ⟨S_, .f32⟩
  | 60 => ⟨S640x3600, .f32⟩
  | 61 => ⟨S640x3600, .f32⟩
  | 62 => ⟨S640x3600, .f32⟩
  | 63 => ⟨S_, .f32⟩
  | 64 => ⟨S640x3600, .f32⟩
  | 65 => ⟨S_, .f32⟩
  | 66 => ⟨S640x3600, .f32⟩
  | 67 => ⟨S640x3600, .f32⟩
  | 68 => ⟨S640x3600, .f32⟩
  | 69 => ⟨S_, .f32⟩
  | 70 => ⟨S640x3600, .f32⟩
  | 71 => ⟨S_, .f32⟩
  | 72 => ⟨S640x3600, .f32⟩
  | 73 => ⟨S640x3600, .f32⟩
  | 74 => ⟨S640x3600, .f32⟩
  | 75 => ⟨S_, .i32⟩
  | 76 => ⟨S1800x25, .i32⟩
  | 77 => ⟨S1800x25, .i1⟩
  | 78 => ⟨S_, .i32⟩
  | 79 => ⟨S1800x25, .i32⟩
  | 80 => ⟨S1800x25, .i32⟩
  | 81 => ⟨S1800x25, .i32⟩
  | 82 => ⟨S1800x25x1, .i32⟩
  | 83 => ⟨S640x1800x25, .f32⟩
  | 84 => ⟨S1x1800x25, .f32⟩
  | 85 => ⟨S640x1800x25, .f32⟩
  | 86 => ⟨S640x1800x25, .f32⟩
  | 87 => ⟨S_, .f32⟩
  | 88 => ⟨S640x1800, .f32⟩
  | 89 => ⟨S640x1800, .f32⟩
  | 90 => ⟨S640x1800, .f32⟩
  | 91 => ⟨S_, .f32⟩
  | 92 => ⟨S640x1800, .f32⟩
  | 93 => ⟨S_, .f32⟩
  | 94 => ⟨S640x1800, .f32⟩
  | 95 => ⟨S640x1800, .f32⟩
  | 96 => ⟨S640x1800, .f32⟩
  | 97 => ⟨S_, .f32⟩
  | 98 => ⟨S640x1800, .f32⟩
  | 99 => ⟨S_, .f32⟩
  | 100 => ⟨S640x1800, .f32⟩
  | 101 => ⟨S640x1800, .f32⟩
  | 102 => ⟨S640x1800, .f32⟩
  | 103 => ⟨S_, .i32⟩
  | 104 => ⟨S900x25, .i32⟩
  | 105 => ⟨S900x25, .i1⟩
  | 106 => ⟨S_, .i32⟩
  | 107 => ⟨S900x25, .i32⟩
  | 108 => ⟨S900x25, .i32⟩
  | 109 => ⟨S900x25, .i32⟩
  | 110 => ⟨S900x25x1, .i32⟩
  | 111 => ⟨S640x900x25, .f32⟩
  | 112 => ⟨S1x900x25, .f32⟩
  | 113 => ⟨S640x900x25, .f32⟩
  | 114 => ⟨S640x900x25, .f32⟩
  | 115 => ⟨S_, .f32⟩
  | 116 => ⟨S640x900, .f32⟩
  | 117 => ⟨S640x900, .f32⟩
  | 118 => ⟨S640x900, .f32⟩
  | 119 => ⟨S_, .f32⟩
  | 120 => ⟨S640x900, .f32⟩
  | 121 => ⟨S_, .f32⟩
  | 122 => ⟨S640x900, .f32⟩
  | 123 => ⟨S640x900, .f32⟩
  | 124 => ⟨S640x900, .f32⟩
  | 125 => ⟨S_, .f32⟩
  | 126 => ⟨S640x900, .f32⟩
  | 127 => ⟨S_, .f32⟩
  | _ => ⟨S32x20x14400, .f32⟩

abbrev hbmTy0_1 (i : Nat) : BufTy := match i % 128 with
  | 0 => ⟨S640x900, .f32⟩
  | 1 => ⟨S640x900, .f32⟩
  | 2 => ⟨S640x900, .f32⟩
  | 3 => ⟨S_, .i32⟩
  | 4 => ⟨S450x25, .i32⟩
  | 5 => ⟨S450x25, .i1⟩
  | 6 => ⟨S_, .i32⟩
  | 7 => ⟨S450x25, .i32⟩
  | 8 => ⟨S450x25, .i32⟩
  | 9 => ⟨S450x25, .i32⟩
  | 10 => ⟨S450x25x1, .i32⟩
  | 11 => ⟨S640x450x25, .f32⟩
  | 12 => ⟨S1x450x25, .f32⟩
  | 13 => ⟨S640x450x25, .f32⟩
  | 14 => ⟨S640x450x25, .f32⟩
  | 15 => ⟨S_, .f32⟩
  | 16 => ⟨S640x450, .f32⟩
  | 17 => ⟨S640x450, .f32⟩
  | 18 => ⟨S640x450, .f32⟩
  | 19 => ⟨S_, .f32⟩
  | 20 => ⟨S640x450, .f32⟩
  | 21 => ⟨S_, .f32⟩
  | 22 => ⟨S640x450, .f32⟩
  | 23 => ⟨S640x450, .f32⟩
  | 24 => ⟨S640x450, .f32⟩
  | 25 => ⟨S_, .f32⟩
  | 26 => ⟨S640x450, .f32⟩
  | 27 => ⟨S_, .f32⟩
  | 28 => ⟨S640x450, .f32⟩
  | 29 => ⟨S640x450, .f32⟩
  | 30 => ⟨S640x450, .f32⟩
  | 31 => ⟨S640x2, .f32⟩
  | 32 => ⟨S1x2, .f32⟩
  | 33 => ⟨S640x2, .f32⟩
  | 34 => ⟨S640x2, .f32⟩
  | 35 => ⟨S32x20x2, .f32⟩
  | 36 => ⟨S32x1x2, .f32⟩
  | 37 => ⟨S32x2, .f32⟩
  | _ => ⟨S32x20x14400, .f32⟩

abbrev hbmTy (i : Nat) : BufTy := match i / 128 with
  | 0 => hbmTy0_0 i
  | 1 => hbmTy0_1 i
  | _ => ⟨S32x20x14400, .f32⟩

abbrev bufTy : (tb : Table) → Fin (tcTables nBuf tb) → BufTy
  | .hbm, ⟨i, _⟩ => hbmTy i
  | _, _ => ⟨S32x20x14400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_c : Ref sig .tc := ⟨.hbm, 19, rfl⟩
abbrev main_v1 : Ref sig .tc := ⟨.hbm, 20, rfl⟩
abbrev main_v2 : Ref sig .tc := ⟨.hbm, 21, rfl⟩
abbrev main_c_0 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_cst_2 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_3 : Ref sig .tc := ⟨.hbm, 41, rfl⟩
abbrev main_v18 : Ref sig .tc := ⟨.hbm, 42, rfl⟩
abbrev main_cst_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_c_5 : Ref sig .tc := ⟨.hbm, 47, rfl⟩
abbrev main_v22 : Ref sig .tc := ⟨.hbm, 48, rfl⟩
abbrev main_v23 : Ref sig .tc := ⟨.hbm, 49, rfl⟩
abbrev main_c_6 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_7 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_8 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_10 : Ref sig .tc := ⟨.hbm, 69, rfl⟩
abbrev main_v39 : Ref sig .tc := ⟨.hbm, 70, rfl⟩
abbrev main_cst_11 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_12 : Ref sig .tc := ⟨.hbm, 75, rfl⟩
abbrev main_v43 : Ref sig .tc := ⟨.hbm, 76, rfl⟩
abbrev main_v44 : Ref sig .tc := ⟨.hbm, 77, rfl⟩
abbrev main_c_13 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_cst_14 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_cst_15 : Ref sig .tc := ⟨.hbm, 91, rfl⟩
abbrev main_v56 : Ref sig .tc := ⟨.hbm, 92, rfl⟩
abbrev main_cst_16 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_cst_17 : Ref sig .tc := ⟨.hbm, 97, rfl⟩
abbrev main_v60 : Ref sig .tc := ⟨.hbm, 98, rfl⟩
abbrev main_cst_18 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_c_19 : Ref sig .tc := ⟨.hbm, 103, rfl⟩
abbrev main_v64 : Ref sig .tc := ⟨.hbm, 104, rfl⟩
abbrev main_v65 : Ref sig .tc := ⟨.hbm, 105, rfl⟩
abbrev main_c_20 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_cst_21 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_22 : Ref sig .tc := ⟨.hbm, 119, rfl⟩
abbrev main_v77 : Ref sig .tc := ⟨.hbm, 120, rfl⟩
abbrev main_cst_23 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_24 : Ref sig .tc := ⟨.hbm, 125, rfl⟩
abbrev main_v81 : Ref sig .tc := ⟨.hbm, 126, rfl⟩
abbrev main_cst_25 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_c_26 : Ref sig .tc := ⟨.hbm, 131, rfl⟩
abbrev main_v85 : Ref sig .tc := ⟨.hbm, 132, rfl⟩
abbrev main_v86 : Ref sig .tc := ⟨.hbm, 133, rfl⟩
abbrev main_c_27 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_28 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_cst_29 : Ref sig .tc := ⟨.hbm, 147, rfl⟩
abbrev main_v98 : Ref sig .tc := ⟨.hbm, 148, rfl⟩
abbrev main_cst_30 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_cst_31 : Ref sig .tc := ⟨.hbm, 153, rfl⟩
abbrev main_v102 : Ref sig .tc := ⟨.hbm, 154, rfl⟩
abbrev main_cst_32 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩

abbrev nD : Nat := 1
abbrev τ : Topo := Topo.v7x

variable {F : FTy → Type} [FloatOps F]

class Facts₀ : Prop where
  shapeCasts_S32x20x14400_S640x14400 : S32x20x14400.ShapeCasts S640x14400
  bcast_S_S7200x25 : S_.BroadcastsInDim S7200x25 (![] : Fin 0 → Fin S7200x25.rank)
  bcast_S7200x25_S7200x25x1_0_1 : S7200x25.BroadcastsInDim S7200x25x1 (![0, 1] : Fin 2 → Fin S7200x25x1.rank)
  bcast_S7200x25_S1x7200x25_1_2 : S7200x25.BroadcastsInDim S1x7200x25 (![1, 2] : Fin 2 → Fin S1x7200x25.rank)
  bcast_S1x7200x25_S640x7200x25_0_1_2 : S1x7200x25.BroadcastsInDim S640x7200x25 (![0, 1, 2] : Fin 3 → Fin S640x7200x25.rank)
  reducesTo_S640x7200x25_S640x7200_d2 : S640x7200x25.ReducesTo [2] S640x7200
  h_S_ : 0 < S_.numel
  bcast_S1x7200_S640x7200_0_1 : S1x7200.BroadcastsInDim S640x7200 (![0, 1] : Fin 2 → Fin S640x7200.rank)
  bcast_S_S640x7200 : S_.BroadcastsInDim S640x7200 (![] : Fin 0 → Fin S640x7200.rank)
  bcast_S_S3600x25 : S_.BroadcastsInDim S3600x25 (![] : Fin 0 → Fin S3600x25.rank)
  bcast_S3600x25_S3600x25x1_0_1 : S3600x25.BroadcastsInDim S3600x25x1 (![0, 1] : Fin 2 → Fin S3600x25x1.rank)
  bcast_S3600x25_S1x3600x25_1_2 : S3600x25.BroadcastsInDim S1x3600x25 (![1, 2] : Fin 2 → Fin S1x3600x25.rank)
  bcast_S1x3600x25_S640x3600x25_0_1_2 : S1x3600x25.BroadcastsInDim S640x3600x25 (![0, 1, 2] : Fin 3 → Fin S640x3600x25.rank)
  reducesTo_S640x3600x25_S640x3600_d2 : S640x3600x25.ReducesTo [2] S640x3600
  bcast_S1x3600_S640x3600_0_1 : S1x3600.BroadcastsInDim S640x3600 (![0, 1] : Fin 2 → Fin S640x3600.rank)
  bcast_S_S640x3600 : S_.BroadcastsInDim S640x3600 (![] : Fin 0 → Fin S640x3600.rank)
  bcast_S_S1800x25 : S_.BroadcastsInDim S1800x25 (![] : Fin 0 → Fin S1800x25.rank)
  bcast_S1800x25_S1800x25x1_0_1 : S1800x25.BroadcastsInDim S1800x25x1 (![0, 1] : Fin 2 → Fin S1800x25x1.rank)
  bcast_S1800x25_S1x1800x25_1_2 : S1800x25.BroadcastsInDim S1x1800x25 (![1, 2] : Fin 2 → Fin S1x1800x25.rank)
  bcast_S1x1800x25_S640x1800x25_0_1_2 : S1x1800x25.BroadcastsInDim S640x1800x25 (![0, 1, 2] : Fin 3 → Fin S640x1800x25.rank)
  reducesTo_S640x1800x25_S640x1800_d2 : S640x1800x25.ReducesTo [2] S640x1800
  bcast_S1x1800_S640x1800_0_1 : S1x1800.BroadcastsInDim S640x1800 (![0, 1] : Fin 2 → Fin S640x1800.rank)
  bcast_S_S640x1800 : S_.BroadcastsInDim S640x1800 (![] : Fin 0 → Fin S640x1800.rank)
  bcast_S_S900x25 : S_.BroadcastsInDim S900x25 (![] : Fin 0 → Fin S900x25.rank)
  bcast_S900x25_S900x25x1_0_1 : S900x25.BroadcastsInDim S900x25x1 (![0, 1] : Fin 2 → Fin S900x25x1.rank)
  bcast_S900x25_S1x900x25_1_2 : S900x25.BroadcastsInDim S1x900x25 (![1, 2] : Fin 2 → Fin S1x900x25.rank)
  bcast_S1x900x25_S640x900x25_0_1_2 : S1x900x25.BroadcastsInDim S640x900x25 (![0, 1, 2] : Fin 3 → Fin S640x900x25.rank)
  reducesTo_S640x900x25_S640x900_d2 : S640x900x25.ReducesTo [2] S640x900
  bcast_S1x900_S640x900_0_1 : S1x900.BroadcastsInDim S640x900 (![0, 1] : Fin 2 → Fin S640x900.rank)
  bcast_S_S640x900 : S_.BroadcastsInDim S640x900 (![] : Fin 0 → Fin S640x900.rank)
  bcast_S_S450x25 : S_.BroadcastsInDim S450x25 (![] : Fin 0 → Fin S450x25.rank)
  bcast_S450x25_S450x25x1_0_1 : S450x25.BroadcastsInDim S450x25x1 (![0, 1] : Fin 2 → Fin S450x25x1.rank)
  bcast_S450x25_S1x450x25_1_2 : S450x25.BroadcastsInDim S1x450x25 (![1, 2] : Fin 2 → Fin S1x450x25.rank)
  bcast_S1x450x25_S640x450x25_0_1_2 : S1x450x25.BroadcastsInDim S640x450x25 (![0, 1, 2] : Fin 3 → Fin S640x450x25.rank)
  reducesTo_S640x450x25_S640x450_d2 : S640x450x25.ReducesTo [2] S640x450
  bcast_S1x450_S640x450_0_1 : S1x450.BroadcastsInDim S640x450 (![0, 1] : Fin 2 → Fin S640x450.rank)
  bcast_S_S640x450 : S_.BroadcastsInDim S640x450 (![] : Fin 0 → Fin S640x450.rank)
  bcast_S2_S1x2_1 : S2.BroadcastsInDim S1x2 (![1] : Fin 1 → Fin S1x2.rank)
  bcast_S1x2_S640x2_0_1 : S1x2.BroadcastsInDim S640x2 (![0, 1] : Fin 2 → Fin S640x2.rank)
  shapeCasts_S640x2_S32x20x2 : S640x2.ShapeCasts S32x20x2
  slices_S32x20x2_S32x1x2_0_19_0 : S32x20x2.Slices ![0, 19, 0] S32x1x2
  shapeCasts_S32x1x2_S32x2 : S32x1x2.ShapeCasts S32x2
  gather_S640x14400_S7200x25x1_S640x7200x25_0_1_n_n_1_2_6401_wf : GatherDims.WF S640x14400 S7200x25x1 S640x7200x25 [0] [1] [] [1] [] 2 ![640, 1]
  gather_S640x7200_S3600x25x1_S640x3600x25_0_1_n_n_1_2_6401_wf : GatherDims.WF S640x7200 S3600x25x1 S640x3600x25 [0] [1] [] [1] [] 2 ![640, 1]
  gather_S640x3600_S1800x25x1_S640x1800x25_0_1_n_n_1_2_6401_wf : GatherDims.WF S640x3600 S1800x25x1 S640x1800x25 [0] [1] [] [1] [] 2 ![640, 1]
  gather_S640x1800_S900x25x1_S640x900x25_0_1_n_n_1_2_6401_wf : GatherDims.WF S640x1800 S900x25x1 S640x900x25 [0] [1] [] [1] [] 2 ![640, 1]
  gather_S640x900_S450x25x1_S640x450x25_0_1_n_n_1_2_6401_wf : GatherDims.WF S640x900 S450x25x1 S640x450x25 [0] [1] [] [1] [] 2 ![640, 1]
  dot_S640x450_S450x2_S640x2_1_0_0_1_n_n_wf : DotDims.WF S640x450 S450x2 S640x2 [1] [0] [0] [1] [] []

variable [Facts₀]

def gather_S640x14400_S7200x25x1_S640x7200x25_0_1_n_n_1_2_6401 : GatherDims S640x14400 S7200x25x1 S640x7200x25 where
  offsetDims := [0]
  collapsedSliceDims := [1]
  operandBatchingDims := []
  startIndicesBatchingDims := []
  startIndexMap := [1]
  indexVectorDim := 2
  sliceSizes := ![640, 1]
  wf := gather_S640x14400_S7200x25x1_S640x7200x25_0_1_n_n_1_2_6401_wf
def gather_S640x7200_S3600x25x1_S640x3600x25_0_1_n_n_1_2_6401 : GatherDims S640x7200 S3600x25x1 S640x3600x25 where
  offsetDims := [0]
  collapsedSliceDims := [1]
  operandBatchingDims := []
  startIndicesBatchingDims := []
  startIndexMap := [1]
  indexVectorDim := 2
  sliceSizes := ![640, 1]
  wf := gather_S640x7200_S3600x25x1_S640x3600x25_0_1_n_n_1_2_6401_wf
def gather_S640x3600_S1800x25x1_S640x1800x25_0_1_n_n_1_2_6401 : GatherDims S640x3600 S1800x25x1 S640x1800x25 where
  offsetDims := [0]
  collapsedSliceDims := [1]
  operandBatchingDims := []
  startIndicesBatchingDims := []
  startIndexMap := [1]
  indexVectorDim := 2
  sliceSizes := ![640, 1]
  wf := gather_S640x3600_S1800x25x1_S640x1800x25_0_1_n_n_1_2_6401_wf
def gather_S640x1800_S900x25x1_S640x900x25_0_1_n_n_1_2_6401 : GatherDims S640x1800 S900x25x1 S640x900x25 where
  offsetDims := [0]
  collapsedSliceDims := [1]
  operandBatchingDims := []
  startIndicesBatchingDims := []
  startIndexMap := [1]
  indexVectorDim := 2
  sliceSizes := ![640, 1]
  wf := gather_S640x1800_S900x25x1_S640x900x25_0_1_n_n_1_2_6401_wf
def gather_S640x900_S450x25x1_S640x450x25_0_1_n_n_1_2_6401 : GatherDims S640x900 S450x25x1 S640x450x25 where
  offsetDims := [0]
  collapsedSliceDims := [1]
  operandBatchingDims := []
  startIndicesBatchingDims := []
  startIndexMap := [1]
  indexVectorDim := 2
  sliceSizes := ![640, 1]
  wf := gather_S640x900_S450x25x1_S640x450x25_0_1_n_n_1_2_6401_wf
def dot_S640x450_S450x2_S640x2_1_0_0_1_n_n : DotDims S640x450 S450x2 S640x2 where
  lhsContracting := [1]
  rhsContracting := [0]
  lhsNonContracting := [0]
  rhsNonContracting := [1]
  lhsBatch := []
  rhsBatch := []
  wf := dot_S640x450_S450x2_S640x2_1_0_0_1_n_n_wf

class Facts : Prop extends Facts₀ where

variable [Facts]
-- ==== Proof.PreRange.lean ====
/-
  The integer range conjuncts of the precondition, read back. The printed predicate is a conjunction, nested to the
  left, of seventeen `jnp.all` reductions; the last four say of each neighbour table (the second to the fifth) that
  every word w satisfies 0 ≤ w < n signed, with n the row count of the table it indexes (7200, 3600, 1800, 900).
  Each is a reduction by `and` of the elementwise conjunction of two signed comparisons against broadcast
  constants; equal to one, it gives both comparisons at every index.
-/
import proofs.«427585_j58162447123130_3_alg».proof.Pre_finite_inputs
import Idealize.ShloMosaic.Lib.ReduceAll
import Idealize.ShloMosaic.Lib.ValueIdx

noncomputable section

namespace Cert.PreRange

open Idealize.ShloMosaic Cert.Pre_finite_inputs

/-- The rank-0 shape has one index. -/
instance : Subsingleton S_.Idx := ⟨fun a b => funext fun d => d.elim0⟩

/-- An elementwise `and` of `i1` arrays that is one at an index has both operands one there. -/
theorem andi_one {s : Shape} (a b : IVec s 1) (j : s.Idx) (e : andi a b j = 1#1) : a j = 1#1 ∧ b j = 1#1 :=
  IntOp.andi_eq_one.1 e

/-- One range conjunct read back: `jnp.all((x >= 0) & (x < c))` equal to one says every word of `x` lies in
    `[0, c)` as a signed integer. -/
theorem range_of_all {s : Shape} {axes : List (Fin s.rank)} (x : IVec s 32) (c : BitVec 32)
    (hb : S_.BroadcastsInDim s (![] : Fin 0 → Fin s.rank)) (hr : s.ReducesTo axes S_) (hS : 0 < S_.numel) (j : S_.Idx)
    (e : Host.reduce IntOp.andi
          (andi (cmpi .sge x (broadcastInDim s ![] hb (constantI S_ 32 0#32)))
                (cmpi .slt x (broadcastInDim s ![] hb (constantI S_ 32 c))))
          (constantI S_ 1 1#1) hr hS j = 1#1) (i : s.Idx) :
    0 ≤ (x i).toInt ∧ (x i).toInt < c.toInt := by
  have b := Host.reduce_andi_all _ _ hr hS j e i
  obtain ⟨b0, b1⟩ := andi_one _ _ _ b
  have c0 : (0#32).toInt ≤ (x i).toInt := IntOp.cmpi_sge.1 b0
  have c1 : (x i).toInt < c.toInt := IntOp.cmpi_slt.1 b1
  have z : (0#32).toInt = 0 := by decide
  rw [z] at c0
  exact ⟨c0, c1⟩

/-- The second neighbour table indexes the 7200 rows of the first layer's output. -/
theorem knn1_range {F : FTy → Type} [FloatOps F] [Facts]
    (x0 : FVec F S32x20x14400 .f32) (x1 : FVec F S7200x25 .f32) (x2 : FVec F S3600x25 .f32) (x3 : FVec F S1800x25 .f32) (x4 : FVec F S900x25 .f32) (x5 : FVec F S450x25 .f32)
    (x6 : FVec F S1x7200 .f32) (x7 : FVec F S1x3600 .f32) (x8 : FVec F S1x1800 .f32) (x9 : FVec F S1x900 .f32) (x10 : FVec F S1x450 .f32) (x11 : FVec F S450x2 .f32) (x12 : FVec F S2 .f32)
    (x13 : IVec S7200x25 32) (x14 : IVec S3600x25 32) (x15 : IVec S1800x25 32) (x16 : IVec S900x25 32) (x17 : IVec S450x25 32)
    (h : fn (F := F) x0 x1 x2 x3 x4 x5 x6 x7 x8 x9 x10 x11 x12 x13 x14 x15 x16 x17 = fun _ => 1#1) :
    ∀ i : S3600x25.Idx, 0 ≤ (x14 i).toInt ∧ (x14 i).toInt < 7200 := by
  intro i
  have e := congrFun h ValueIdx.ix0
  dsimp only [fn, fn_part1, fn_part2, fn_part3, fn_part4, fn_part5] at e
  have r := range_of_all x14 (BitVec.ofNat 32 7200) _ _ _ _ (andi_one _ _ _ (andi_one _ _ _ (andi_one _ _ _ (andi_one _ _ _ e).1).1).1).2 i
  have c : (BitVec.ofNat 32 7200).toInt = 7200 := by decide
  rw [c] at r
  exact r

/-- The third neighbour table indexes the 3600 rows of the second layer's output. -/
theorem knn2_range {F : FTy → Type} [FloatOps F] [Facts]
    (x0 : FVec F S32x20x14400 .f32) (x1 : FVec F S7200x25 .f32) (x2 : FVec F S3600x25 .f32) (x3 : FVec F S1800x25 .f32) (x4 : FVec F S900x25 .f32) (x5 : FVec F S450x25 .f32)
    (x6 : FVec F S1x7200 .f32) (x7 : FVec F S1x3600 .f32) (x8 : FVec F S1x1800 .f32) (x9 : FVec F S1x900 .f32) (x10 : FVec F S1x450 .f32) (x11 : FVec F S450x2 .f32) (x12 : FVec F S2 .f32)
    (x13 : IVec S7200x25 32) (x14 : IVec S3600x25 32) (x15 : IVec S1800x25 32) (x16 : IVec S900x25 32) (x17 : IVec S450x25 32)
    (h : fn (F := F) x0 x1 x2 x3 x4 x5 x6 x7 x8 x9 x10 x11 x12 x13 x14 x15 x16 x17 = fun _ => 1#1) :
    ∀ i : S1800x25.Idx, 0 ≤ (x15 i).toInt ∧ (x15 i).toInt < 3600 := by
  intro i
  have e := congrFun h ValueIdx.ix0
  dsimp only [fn, fn_part1, fn_part2, fn_part3, fn_part4, fn_part5] at e
  have r := range_of_all x15 (BitVec.ofNat 32 3600) _ _ _ _ (andi_one _ _ _ (andi_one _ _ _ (andi_one _ _ _ e).1).1).2 i
  have c : (BitVec.ofNat 32 3600).toInt = 3600 := by decide
  rw [c] at r
  exact r

/-- The fourth neighbour table indexes the 1800 rows of the third layer's output. -/
theorem knn3_range {F : FTy → Type} [FloatOps F] [Facts]
    (x0 : FVec F S32x20x14400 .f32) (x1 : FVec F S7200x25 .f32) (x2 : FVec F S3600x25 .f32) (x3 : FVec F S1800x25 .f32) (x4 : FVec F S900x25 .f32) (x5 : FVec F S450x25 .f32)
    (x6 : FVec F S1x7200 .f32) (x7 : FVec F S1x3600 .f32) (x8 : FVec F S1x1800 .f32) (x9 : FVec F S1x900 .f32) (x10 : FVec F S1x450 .f32) (x11 : FVec F S450x2 .f32) (x12 : FVec F S2 .f32)
    (x13 : IVec S7200x25 32) (x14 : IVec S3600x25 32) (x15 : IVec S1800x25 32) (x16 : IVec S900x25 32) (x17 : IVec S450x25 32)
    (h : fn (F := F) x0 x1 x2 x3 x4 x5 x6 x7 x8 x9 x10 x11 x12 x13 x14 x15 x16 x17 = fun _ => 1#1) :
    ∀ i : S900x25.Idx, 0 ≤ (x16 i).toInt ∧ (x16 i).toInt < 1800 := by
  intro i
  have e := congrFun h ValueIdx.ix0
  dsimp only [fn, fn_part1, fn_part2, fn_part3, fn_part4, fn_part5] at e
  have r := range_of_all x16 (BitVec.ofNat 32 1800) _ _ _ _ (andi_one _ _ _ (andi_one _ _ _ e).1).2 i
  have c : (BitVec.ofNat 32 1800).toInt = 1800 := by decide
  rw [c] at r
  exact r

/-- The fifth neighbour table indexes the 900 rows of the fourth layer's output. -/
theorem knn4_range {F : FTy → Type} [FloatOps F] [Facts]
    (x0 : FVec F S32x20x14400 .f32) (x1 : FVec F S7200x25 .f32) (x2 : FVec F S3600x25 .f32) (x3 : FVec F S1800x25 .f32) (x4 : FVec F S900x25 .f32) (x5 : FVec F S450x25 .f32)
    (x6 : FVec F S1x7200 .f32) (x7 : FVec F S1x3600 .f32) (x8 : FVec F S1x1800 .f32) (x9 : FVec F S1x900 .f32) (x10 : FVec F S1x450 .f32) (x11 : FVec F S450x2 .f32) (x12 : FVec F S2 .f32)
    (x13 : IVec S7200x25 32) (x14 : IVec S3600x25 32) (x15 : IVec S1800x25 32) (x16 : IVec S900x25 32) (x17 : IVec S450x25 32)
    (h : fn (F := F) x0 x1 x2 x3 x4 x5 x6 x7 x8 x9 x10 x11 x12 x13 x14 x15 x16 x17 = fun _ => 1#1) :
    ∀ i : S450x25.Idx, 0 ≤ (x17 i).toInt ∧ (x17 i).toInt < 900 := by
  intro i
  have e := congrFun h ValueIdx.ix0
  dsimp only [fn, fn_part1, fn_part2, fn_part3, fn_part4, fn_part5] at e
  have r := range_of_all x17 (BitVec.ofNat 32 900) _ _ _ _ (andi_one _ _ _ e).2 i
  have c : (BitVec.ofNat 32 900).toInt = 900 := by decide
  rw [c] at r
  exact r

end Cert.PreRange

end
-- ==== Proof.Spec.lean ====
/-
  The mathematics of the stack, apart from either program.

  One layer: output node `j` of a row gathers 25 entries of that row of the input, the columns read off an
  integer table, weights each and adds a bias:  out[r, j] = (∑ k < 25, h[r, col(knn[j, k])] · w[j, k]) + b[0, j].
  A table word is used the way `h[:, knn]` uses it: a negative word wraps by the axis length, and the result is clamped
  into the axis. The whole function is five such layers on the last time step's rows and a dense 450 → 2 layer.

  The kernel's layers work on column-padded arrays (output width rounded up to a tile multiple, the table padded with
  the word 0 and weights and bias with 0); `padLayer` is a layer in that form. On the real columns a padded layer is
  the plain layer as soon as the table's words lie in the real range of the input (`padLayer_eq_layer`).
-/
import Idealize.ShloMosaic.PureOps.Ideal
import Idealize.ShloMosaic.Lib.ValueIdx

noncomputable section

namespace Cert.Spec

open Idealize.ShloMosaic Idealize.ShloMosaic.ValueIdx

/-- A float array's contents at the extended reals, as a function on its literal index type (so that its entries are
    extended reals on their face, with their arithmetic). -/
def rdF {S : Shape} (f : S.Idx → EReal) : S.Idx → EReal := f

theorem rdF_apply {S : Shape} (f : S.Idx → EReal) (i : S.Idx) : rdF f i = f i := rfl

/-- A table word as an index into an axis of length `n`, before clamping: a negative word wraps by `n`. -/
def wrap (n : ℕ) (i : BitVec 32) : BitVec 32 :=
  Scalar.select (IntOp.cmpi .slt i 0#32) (IntOp.addi i (BitVec.ofNat 32 n)) i

/-- The column of an axis of length `n` a table word selects: wrapped, read signed, clamped into `[0, n − 1]`. -/
def colNat (n : ℕ) (i : BitVec 32) : ℕ := min (wrap n i).toInt.toNat (n - 1)

theorem colNat_lt {n : ℕ} (hn : 0 < n) (i : BitVec 32) : colNat n i < n := by
  unfold colNat; omega

/-- The same as an index of the axis. -/
def col {n : ℕ} (hn : 0 < n) (i : BitVec 32) : Fin n := ⟨colNat n i, colNat_lt hn i⟩

/-- A word in `[0, n')` with `n' ≤ n` selects its own value, whatever the axis length `n` it is wrapped and clamped by. -/
theorem colNat_of_range {n n' : ℕ} (hn : n < 2 ^ 31) (hn' : n' ≤ n) (i : BitVec 32) (h0 : 0 ≤ i.toInt) (h1 : i.toInt < n') :
    colNat n i = i.toInt.toNat := by
  have hs : i.slt 0#32 = false := by
    simp only [BitVec.slt, BitVec.toInt_zero, decide_eq_false_iff_not, not_lt]
    exact h0
  have hw : wrap n i = i := by
    unfold wrap Scalar.select IntOp.cmpi
    simp [hs]
  unfold colNat
  rw [hw]
  omega

/-- One layer on `R` rows: input width `N`, output width `J`, 25 neighbours per output node. -/
def layer {R N J : ℕ} (hN : 0 < N) (h : (⟨2, ![R, N]⟩ : Shape).Idx → EReal) (knn : (⟨2, ![J, 25]⟩ : Shape).Idx → BitVec 32)
    (w : (⟨2, ![J, 25]⟩ : Shape).Idx → EReal) (b : (⟨2, ![1, J]⟩ : Shape).Idx → EReal) : (⟨2, ![R, J]⟩ : Shape).Idx → EReal :=
  fun i => (∑ k : Fin 25, h (ix2 (i 0) (col hN (knn (ix2 (i 1) k)))) * w (ix2 (i 1) k)) + b (ix2 (0 : Fin 1) (i 1))

/-- The table, transposed to `[25, Jp]` and padded with the word 0 beyond column `J`. -/
def padTbl {J : ℕ} (Jp : ℕ) (knn : (⟨2, ![J, 25]⟩ : Shape).Idx → BitVec 32) (k : Fin 25) (j : Fin Jp) : BitVec 32 :=
  if hj : j.val < J then knn (ix2 ⟨j.val, hj⟩ k) else 0#32

/-- The weights, transposed to `[25, Jp]` and padded with 0 beyond column `J`. -/
def padWt {J : ℕ} (Jp : ℕ) (w : (⟨2, ![J, 25]⟩ : Shape).Idx → EReal) (k : Fin 25) (j : Fin Jp) : EReal :=
  if hj : j.val < J then w (ix2 ⟨j.val, hj⟩ k) else 0

/-- The bias padded with 0 beyond column `J`. -/
def padBias {J : ℕ} (Jp : ℕ) (b : (⟨2, ![1, J]⟩ : Shape).Idx → EReal) (j : Fin Jp) : EReal :=
  if hj : j.val < J then b (ix2 (0 : Fin 1) ⟨j.val, hj⟩) else 0

/-- A layer in the kernel's form: the input of (padded) width `Np`, the output of padded width `Jp`, table, weights and
    bias padded from their real width `J`. -/
def padLayer {R Np J : ℕ} (Jp : ℕ) (hNp : 0 < Np) (h : (⟨2, ![R, Np]⟩ : Shape).Idx → EReal) (knn : (⟨2, ![J, 25]⟩ : Shape).Idx → BitVec 32)
    (w : (⟨2, ![J, 25]⟩ : Shape).Idx → EReal) (b : (⟨2, ![1, J]⟩ : Shape).Idx → EReal) : (⟨2, ![R, Jp]⟩ : Shape).Idx → EReal :=
  fun i => (∑ k : Fin 25, h (ix2 (i 0) (col hNp (padTbl Jp knn k (i 1)))) * padWt Jp w k (i 1)) + padBias Jp b (i 1)

/-- ON THE REAL COLUMNS A PADDED LAYER IS THE LAYER. If the padded input `hp` agrees with `h` on the real columns
    (`< N`) and every table word lies in `[0, N)`, the padded layer's column `j < J` is the plain layer's. -/
theorem padLayer_eq_layer {R N Np J : ℕ} (Jp : ℕ) (hN : 0 < N) (hNp : 0 < Np) (hle : N ≤ Np) (hNp31 : Np < 2 ^ 31)
    (hp : (⟨2, ![R, Np]⟩ : Shape).Idx → EReal) (h : (⟨2, ![R, N]⟩ : Shape).Idx → EReal)
    (hagree : ∀ (r : Fin R) (n : Fin N), hp (ix2 r ⟨n.val, lt_of_lt_of_le n.isLt hle⟩) = h (ix2 r n))
    (knn : (⟨2, ![J, 25]⟩ : Shape).Idx → BitVec 32) (hrange : ∀ i, 0 ≤ (knn i).toInt ∧ (knn i).toInt < N)
    (w : (⟨2, ![J, 25]⟩ : Shape).Idx → EReal) (b : (⟨2, ![1, J]⟩ : Shape).Idx → EReal)
    (r : Fin R) (j : Fin J) (hj : j.val < Jp) :
    padLayer Jp hNp hp knn w b (ix2 r ⟨j.val, hj⟩) = layer hN h knn w b (ix2 r j) := by
  have hT : ∀ k, padTbl Jp knn k ⟨j.val, hj⟩ = knn (ix2 j k) := by
    intro k; unfold padTbl; rw [dif_pos j.isLt]
  have hW : ∀ k, padWt Jp w k ⟨j.val, hj⟩ = w (ix2 j k) := by
    intro k; unfold padWt; rw [dif_pos j.isLt]
  have hB : padBias Jp b ⟨j.val, hj⟩ = b (ix2 (0 : Fin 1) j) := by
    unfold padBias; rw [dif_pos j.isLt]
  have hc : ∀ k, col hNp (knn (ix2 j k))
      = ⟨(col hN (knn (ix2 j k))).val, lt_of_lt_of_le (col hN (knn (ix2 j k))).isLt hle⟩ := by
    intro k
    apply Fin.ext
    show colNat Np _ = colNat N _
    obtain ⟨h0, h1⟩ := hrange (ix2 j k)
    rw [colNat_of_range hNp31 hle _ h0 h1, colNat_of_range (lt_of_le_of_lt hle hNp31) le_rfl _ h0 h1]
  show (∑ k : Fin 25, hp (ix2 r (col hNp (padTbl Jp knn k ⟨j.val, hj⟩))) * padWt Jp w k ⟨j.val, hj⟩)
        + padBias Jp b ⟨j.val, hj⟩
      = (∑ k : Fin 25, h (ix2 r (col hN (knn (ix2 j k)))) * w (ix2 j k)) + b (ix2 (0 : Fin 1) j)
  rw [hB]
  congr 1
  refine Finset.sum_congr rfl fun k _ => ?_
  rw [hT, hW, hc, hagree]

/-- The first layer reads the same unpadded input in both forms: no range is needed, only the padding of table,
    weights and bias. -/
theorem padLayer_eq_layer_same {R N J : ℕ} (Jp : ℕ) (hN : 0 < N)
    (h : (⟨2, ![R, N]⟩ : Shape).Idx → EReal)
    (knn : (⟨2, ![J, 25]⟩ : Shape).Idx → BitVec 32)
    (w : (⟨2, ![J, 25]⟩ : Shape).Idx → EReal) (b : (⟨2, ![1, J]⟩ : Shape).Idx → EReal)
    (r : Fin R) (j : Fin J) (hj : j.val < Jp) :
    padLayer Jp hN h knn w b (ix2 r ⟨j.val, hj⟩) = layer hN h knn w b (ix2 r j) := by
  have hT : ∀ k, padTbl Jp knn k ⟨j.val, hj⟩ = knn (ix2 j k) := by
    intro k; unfold padTbl; rw [dif_pos j.isLt]
  have hW : ∀ k, padWt Jp w k ⟨j.val, hj⟩ = w (ix2 j k) := by
    intro k; unfold padWt; rw [dif_pos j.isLt]
  have hB : padBias Jp b ⟨j.val, hj⟩ = b (ix2 (0 : Fin 1) j) := by
    unfold padBias; rw [dif_pos j.isLt]
  show (∑ k : Fin 25, h (ix2 r (col hN (padTbl Jp knn k ⟨j.val, hj⟩))) * padWt Jp w k ⟨j.val, hj⟩)
        + padBias Jp b ⟨j.val, hj⟩
      = (∑ k : Fin 25, h (ix2 r (col hN (knn (ix2 j k)))) * w (ix2 j k)) + b (ix2 (0 : Fin 1) j)
  rw [hB]
  congr 1
  refine Finset.sum_congr rfl fun k _ => ?_
  rw [hT, hW]

/-- A LAYER ACTS ROW BY ROW: row `r` of the output depends on row `r'` of another input only through that row. -/
theorem layer_row_congr {R R' N J : ℕ} (hN : 0 < N) (h : (⟨2, ![R, N]⟩ : Shape).Idx → EReal) (h' : (⟨2, ![R', N]⟩ : Shape).Idx → EReal)
    (knn : (⟨2, ![J, 25]⟩ : Shape).Idx → BitVec 32) (w : (⟨2, ![J, 25]⟩ : Shape).Idx → EReal) (b : (⟨2, ![1, J]⟩ : Shape).Idx → EReal)
    (r : Fin R) (r' : Fin R') (hrow : ∀ n : Fin N, h (ix2 r n) = h' (ix2 r' n)) (j : Fin J) :
    layer hN h knn w b (ix2 r j) = layer hN h' knn w b (ix2 r' j) := by
  show (∑ k : Fin 25, h (ix2 r (col hN (knn (ix2 j k)))) * w (ix2 j k)) + b (ix2 (0 : Fin 1) j)
      = (∑ k : Fin 25, h' (ix2 r' (col hN (knn (ix2 j k)))) * w (ix2 j k)) + b (ix2 (0 : Fin 1) j)
  congr 1
  refine Finset.sum_congr rfl fun k _ => ?_
  rw [hrow]

/-- The dense last layer: `out[r, o] = (∑ k < 450, h[r, k] · W[k, o]) + bias[o]`. -/
def dense {R : ℕ} (h : (⟨2, ![R, 450]⟩ : Shape).Idx → EReal) (W : (⟨2, ![450, 2]⟩ : Shape).Idx → EReal)
    (bias : (⟨1, ![2]⟩ : Shape).Idx → EReal) : (⟨2, ![R, 2]⟩ : Shape).Idx → EReal :=
  fun i => (∑ k : Fin 450, h (ix2 (i 0) k) * W (ix2 k (i 1))) + bias (ix1 (i 1))

/-- The dense layer in the kernel's form: 512 input columns (62 of padding), 128 output columns (126 of padding), the
    weight rows and columns and the bias beyond the real extents zero. -/
def padDense {R : ℕ} (hp : (⟨2, ![R, 512]⟩ : Shape).Idx → EReal) (W : (⟨2, ![450, 2]⟩ : Shape).Idx → EReal)
    (bias : (⟨1, ![2]⟩ : Shape).Idx → EReal) : (⟨2, ![R, 128]⟩ : Shape).Idx → EReal :=
  fun i => (∑ k : Fin 512, hp (ix2 (i 0) k) *
      (if hk : k.val < 450 ∧ (i 1).val < 2 then W (ix2 ⟨k.val, hk.1⟩ ⟨(i 1).val, hk.2⟩) else 0))
    + (if ho : (i 1).val < 2 then bias (ix1 ⟨(i 1).val, ho⟩) else 0)

/-- On the two real output columns the padded dense layer is the dense layer of the input's real columns: a padded
    weight row is zero, and `x · 0 = 0` for every extended real `x`. -/
theorem padDense_eq_dense {R : ℕ} (hp : (⟨2, ![R, 512]⟩ : Shape).Idx → EReal) (h : (⟨2, ![R, 450]⟩ : Shape).Idx → EReal)
    (hagree : ∀ (r : Fin R) (k : Fin 450), hp (ix2 r ⟨k.val, by omega⟩) = h (ix2 r k))
    (W : (⟨2, ![450, 2]⟩ : Shape).Idx → EReal) (bias : (⟨1, ![2]⟩ : Shape).Idx → EReal) (r : Fin R) (o : Fin 2) :
    padDense hp W bias (ix2 r ⟨o.val, by omega⟩) = dense h W bias (ix2 r o) := by
  show (∑ k : Fin 512, hp (ix2 r k) *
        (if hk : k.val < 450 ∧ o.val < 2 then W (ix2 ⟨k.val, hk.1⟩ ⟨o.val, hk.2⟩) else 0))
      + (if ho : o.val < 2 then bias (ix1 ⟨o.val, ho⟩) else 0)
    = (∑ k : Fin 450, h (ix2 r k) * W (ix2 k o)) + bias (ix1 o)
  rw [dif_pos o.isLt]
  congr 1
  have hsplit := Fin.sum_univ_add (a := 450) (b := 62) (fun k : Fin 512 => hp (ix2 r k) *
        (if hk : k.val < 450 ∧ o.val < 2 then W (ix2 ⟨k.val, hk.1⟩ ⟨o.val, hk.2⟩) else 0))
  refine hsplit.trans ?_
  have hpad : ∑ i : Fin 62, (fun k : Fin 512 => hp (ix2 r k) *
        (if hk : k.val < 450 ∧ o.val < 2 then W (ix2 ⟨k.val, hk.1⟩ ⟨o.val, hk.2⟩) else 0)) (Fin.natAdd 450 i) = 0 := by
    refine Finset.sum_eq_zero fun i _ => ?_
    show hp (ix2 r (Fin.natAdd 450 i)) *
        (if hk : (Fin.natAdd 450 i).val < 450 ∧ o.val < 2 then W (ix2 ⟨(Fin.natAdd 450 i).val, hk.1⟩ ⟨o.val, hk.2⟩) else 0) = 0
    rw [dif_neg (by simp [Fin.natAdd]), mul_zero]
  rw [hpad, add_zero]
  refine Finset.sum_congr rfl fun k _ => ?_
  show hp (ix2 r (Fin.castAdd 62 k)) *
        (if hk : (Fin.castAdd 62 k).val < 450 ∧ o.val < 2 then W (ix2 ⟨(Fin.castAdd 62 k).val, hk.1⟩ ⟨o.val, hk.2⟩) else 0)
      = h (ix2 r k) * W (ix2 k o)
  rw [dif_pos ⟨k.isLt, o.isLt⟩]
  exact congrArg (· * W (ix2 k o)) (hagree r k)

/-- The last time step's rows of the input: `x[r, 19, n]`. -/
def lastStep (x : (⟨3, ![32, 20, 14400]⟩ : Shape).Idx → EReal) : (⟨2, ![32, 14400]⟩ : Shape).Idx → EReal :=
  fun i => x (ix3 (i 0) (19 : Fin 20) (i 1))

/-- THE WHOLE FUNCTION: five layers on the last time step's 32 rows, then the dense layer. -/
def net (x : (⟨3, ![32, 20, 14400]⟩ : Shape).Idx → EReal)
    (w0 : (⟨2, ![7200, 25]⟩ : Shape).Idx → EReal) (w1 : (⟨2, ![3600, 25]⟩ : Shape).Idx → EReal)
    (w2 : (⟨2, ![1800, 25]⟩ : Shape).Idx → EReal) (w3 : (⟨2, ![900, 25]⟩ : Shape).Idx → EReal)
    (w4 : (⟨2, ![450, 25]⟩ : Shape).Idx → EReal)
    (b0 : (⟨2, ![1, 7200]⟩ : Shape).Idx → EReal) (b1 : (⟨2, ![1, 3600]⟩ : Shape).Idx → EReal)
    (b2 : (⟨2, ![1, 1800]⟩ : Shape).Idx → EReal) (b3 : (⟨2, ![1, 900]⟩ : Shape).Idx → EReal)
    (b4 : (⟨2, ![1, 450]⟩ : Shape).Idx → EReal)
    (Wfc : (⟨2, ![450, 2]⟩ : Shape).Idx → EReal) (bfc : (⟨1, ![2]⟩ : Shape).Idx → EReal)
    (knn0 : (⟨2, ![7200, 25]⟩ : Shape).Idx → BitVec 32) (knn1 : (⟨2, ![3600, 25]⟩ : Shape).Idx → BitVec 32)
    (knn2 : (⟨2, ![1800, 25]⟩ : Shape).Idx → BitVec 32) (knn3 : (⟨2, ![900, 25]⟩ : Shape).Idx → BitVec 32)
    (knn4 : (⟨2, ![450, 25]⟩ : Shape).Idx → BitVec 32) : (⟨2, ![32, 2]⟩ : Shape).Idx → EReal :=
  dense
    (layer (N := 900) (by norm_num)
      (layer (N := 1800) (by norm_num)
        (layer (N := 3600) (by norm_num)
          (layer (N := 7200) (by norm_num)
            (layer (N := 14400) (by norm_num) (lastStep x) knn0 w0 b0)
            knn1 w1 b1)
          knn2 w2 b2)
        knn3 w3 b3)
      knn4 w4 b4)
    Wfc bfc

end Cert.Spec

end
-- ==== Proof.SpecNet.lean ====
/-
  The kernel's arrangement of the stack against the plain one.

  The kernel carries every activation array column-padded to a tile multiple (7680, 4096, 2048, 1024, 512 columns for
  7200, 3600, 1800, 900, 450 real ones) and runs each layer in padded form; the dense layer reads 512 columns and writes
  128. `padNet` is that composition. On its two real output columns it is `net`, provided the tables of layers 1-4 hold
  indices of the previous layer's real columns: a real column of a padded layer is the plain layer's column (by induction
  down the stack, the padding never being read), and a padded weight row of the dense layer is zero.
-/
import proofs.«427585_j58162447123130_3_alg».proof.Proof.Spec

noncomputable section

namespace Cert.Spec

open Idealize.ShloMosaic Idealize.ShloMosaic.ValueIdx

section
variable (x : (⟨3, ![32, 20, 14400]⟩ : Shape).Idx → EReal)
    (w0 : (⟨2, ![7200, 25]⟩ : Shape).Idx → EReal) (w1 : (⟨2, ![3600, 25]⟩ : Shape).Idx → EReal)
    (w2 : (⟨2, ![1800, 25]⟩ : Shape).Idx → EReal) (w3 : (⟨2, ![900, 25]⟩ : Shape).Idx → EReal)
    (w4 : (⟨2, ![450, 25]⟩ : Shape).Idx → EReal)
    (b0 : (⟨2, ![1, 7200]⟩ : Shape).Idx → EReal) (b1 : (⟨2, ![1, 3600]⟩ : Shape).Idx → EReal)
    (b2 : (⟨2, ![1, 1800]⟩ : Shape).Idx → EReal) (b3 : (⟨2, ![1, 900]⟩ : Shape).Idx → EReal)
    (b4 : (⟨2, ![1, 450]⟩ : Shape).Idx → EReal)
    (Wfc : (⟨2, ![450, 2]⟩ : Shape).Idx → EReal) (bfc : (⟨1, ![2]⟩ : Shape).Idx → EReal)
    (knn0 : (⟨2, ![7200, 25]⟩ : Shape).Idx → BitVec 32) (knn1 : (⟨2, ![3600, 25]⟩ : Shape).Idx → BitVec 32)
    (knn2 : (⟨2, ![1800, 25]⟩ : Shape).Idx → BitVec 32) (knn3 : (⟨2, ![900, 25]⟩ : Shape).Idx → BitVec 32)
    (knn4 : (⟨2, ![450, 25]⟩ : Shape).Idx → BitVec 32)

/-- The padded activations after each layer. -/
def pad0 : (⟨2, ![32, 7680]⟩ : Shape).Idx → EReal := padLayer 7680 (Np := 14400) (by norm_num) (lastStep x) knn0 w0 b0
def pad1 : (⟨2, ![32, 4096]⟩ : Shape).Idx → EReal := padLayer 4096 (Np := 7680) (by norm_num) (pad0 x w0 b0 knn0) knn1 w1 b1
def pad2 : (⟨2, ![32, 2048]⟩ : Shape).Idx → EReal := padLayer 2048 (Np := 4096) (by norm_num) (pad1 x w0 w1 b0 b1 knn0 knn1) knn2 w2 b2
def pad3 : (⟨2, ![32, 1024]⟩ : Shape).Idx → EReal := padLayer 1024 (Np := 2048) (by norm_num) (pad2 x w0 w1 w2 b0 b1 b2 knn0 knn1 knn2) knn3 w3 b3
def pad4 : (⟨2, ![32, 512]⟩ : Shape).Idx → EReal := padLayer 512 (Np := 1024) (by norm_num) (pad3 x w0 w1 w2 w3 b0 b1 b2 b3 knn0 knn1 knn2 knn3) knn4 w4 b4

/-- The plain activations after each layer. -/
def act0 : (⟨2, ![32, 7200]⟩ : Shape).Idx → EReal := layer (N := 14400) (by norm_num) (lastStep x) knn0 w0 b0
def act1 : (⟨2, ![32, 3600]⟩ : Shape).Idx → EReal := layer (N := 7200) (by norm_num) (act0 x w0 b0 knn0) knn1 w1 b1
def act2 : (⟨2, ![32, 1800]⟩ : Shape).Idx → EReal := layer (N := 3600) (by norm_num) (act1 x w0 w1 b0 b1 knn0 knn1) knn2 w2 b2
def act3 : (⟨2, ![32, 900]⟩ : Shape).Idx → EReal := layer (N := 1800) (by norm_num) (act2 x w0 w1 w2 b0 b1 b2 knn0 knn1 knn2) knn3 w3 b3
def act4 : (⟨2, ![32, 450]⟩ : Shape).Idx → EReal := layer (N := 900) (by norm_num) (act3 x w0 w1 w2 w3 b0 b1 b2 b3 knn0 knn1 knn2 knn3) knn4 w4 b4

/-- The kernel's whole arrangement: five padded layers and the padded dense layer, 128 output columns. -/
def padNet : (⟨2, ![32, 128]⟩ : Shape).Idx → EReal :=
  padDense (pad4 x w0 w1 w2 w3 w4 b0 b1 b2 b3 b4 knn0 knn1 knn2 knn3 knn4) Wfc bfc

theorem net_eq : net x w0 w1 w2 w3 w4 b0 b1 b2 b3 b4 Wfc bfc knn0 knn1 knn2 knn3 knn4
    = dense (act4 x w0 w1 w2 w3 w4 b0 b1 b2 b3 b4 knn0 knn1 knn2 knn3 knn4) Wfc bfc := rfl

variable (h1 : ∀ i, 0 ≤ (knn1 i).toInt ∧ (knn1 i).toInt < 7200) (h2 : ∀ i, 0 ≤ (knn2 i).toInt ∧ (knn2 i).toInt < 3600)
    (h3 : ∀ i, 0 ≤ (knn3 i).toInt ∧ (knn3 i).toInt < 1800) (h4 : ∀ i, 0 ≤ (knn4 i).toInt ∧ (knn4 i).toInt < 900)

theorem pad0_real (r : Fin 32) (n : Fin 7200) :
    pad0 x w0 b0 knn0 (ix2 r ⟨n.val, lt_of_lt_of_le n.isLt (by norm_num)⟩) = act0 x w0 b0 knn0 (ix2 r n) :=
  padLayer_eq_layer_same 7680 (by norm_num) (lastStep x) knn0 w0 b0 r n _

include h1 in
theorem pad1_real (r : Fin 32) (n : Fin 3600) :
    pad1 x w0 w1 b0 b1 knn0 knn1 (ix2 r ⟨n.val, lt_of_lt_of_le n.isLt (by norm_num)⟩) = act1 x w0 w1 b0 b1 knn0 knn1 (ix2 r n) :=
  padLayer_eq_layer 4096 (N := 7200) (Np := 7680) (by norm_num) (by norm_num) (by norm_num) (by norm_num) _ _
    (pad0_real x w0 b0 knn0) knn1 h1 w1 b1 r n _

include h1 h2 in
theorem pad2_real (r : Fin 32) (n : Fin 1800) :
    pad2 x w0 w1 w2 b0 b1 b2 knn0 knn1 knn2 (ix2 r ⟨n.val, lt_of_lt_of_le n.isLt (by norm_num)⟩)
      = act2 x w0 w1 w2 b0 b1 b2 knn0 knn1 knn2 (ix2 r n) :=
  padLayer_eq_layer 2048 (N := 3600) (Np := 4096) (by norm_num) (by norm_num) (by norm_num) (by norm_num) _ _
    (pad1_real x w0 w1 b0 b1 knn0 knn1 h1) knn2 h2 w2 b2 r n _

include h1 h2 h3 in
theorem pad3_real (r : Fin 32) (n : Fin 900) :
    pad3 x w0 w1 w2 w3 b0 b1 b2 b3 knn0 knn1 knn2 knn3 (ix2 r ⟨n.val, lt_of_lt_of_le n.isLt (by norm_num)⟩)
      = act3 x w0 w1 w2 w3 b0 b1 b2 b3 knn0 knn1 knn2 knn3 (ix2 r n) :=
  padLayer_eq_layer 1024 (N := 1800) (Np := 2048) (by norm_num) (by norm_num) (by norm_num) (by norm_num) _ _
    (pad2_real x w0 w1 w2 b0 b1 b2 knn0 knn1 knn2 h1 h2) knn3 h3 w3 b3 r n _

include h1 h2 h3 h4 in
theorem pad4_real (r : Fin 32) (n : Fin 450) :
    pad4 x w0 w1 w2 w3 w4 b0 b1 b2 b3 b4 knn0 knn1 knn2 knn3 knn4 (ix2 r ⟨n.val, lt_of_lt_of_le n.isLt (by norm_num)⟩)
      = act4 x w0 w1 w2 w3 w4 b0 b1 b2 b3 b4 knn0 knn1 knn2 knn3 knn4 (ix2 r n) :=
  padLayer_eq_layer 512 (N := 900) (Np := 1024) (by norm_num) (by norm_num) (by norm_num) (by norm_num) _ _
    (pad3_real x w0 w1 w2 w3 b0 b1 b2 b3 knn0 knn1 knn2 knn3 h1 h2 h3) knn4 h4 w4 b4 r n _

include h1 h2 h3 h4 in
/-- ON ITS TWO REAL OUTPUT COLUMNS THE KERNEL'S ARRANGEMENT IS THE NETWORK. -/
theorem padNet_eq_net (r : Fin 32) (o : Fin 2) :
    padNet x w0 w1 w2 w3 w4 b0 b1 b2 b3 b4 Wfc bfc knn0 knn1 knn2 knn3 knn4 (ix2 r ⟨o.val, by omega⟩)
      = net x w0 w1 w2 w3 w4 b0 b1 b2 b3 b4 Wfc bfc knn0 knn1 knn2 knn3 knn4 (ix2 r o) := by
  rw [net_eq]
  exact padDense_eq_dense _ _ (pad4_real x w0 w1 w2 w3 w4 b0 b1 b2 b3 b4 knn0 knn1 knn2 knn3 knn4 h1 h2 h3 h4) Wfc bfc r o

end

end Cert.Spec

end
-- ==== Proof.KRegion0.lean ====
import proofs.«427585_j58162447123130_3_alg».proof.Proof.Gen.KernelIdeal.Frame
import proofs.«427585_j58162447123130_3_alg».proof.Proof.Spec
import Idealize.ShloMosaic.Lib.Pipeline.Value
import Idealize.ShloMosaic.Lib.ValueIdx
import Idealize.ShloMosaic.Lib.ValueLayout
import Mathlib.Algebra.BigOperators.Fin

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem
open Idealize.ShloMosaic.Pipeline (Dat)

namespace R0

/-! ## The two layout chains of the body, read at an index -/

section Layout
variable {α : Type}

/-- Slice `o` along the middle axis of a rank-3 array, as a matrix: at `(r, q)` it is the array at `(r, o, q)`. -/
theorem slab_apply {n0 n1 n2 : Nat} (o : Nat) (X : (⟨3, ![n0, n1, n2]⟩ : Shape).Idx → α)
    (h : (⟨3, ![n0, n1, n2]⟩ : Shape).Slices ![0, o, 0] ⟨3, ![n0, 1, n2]⟩)
    (hc : (⟨3, ![n0, 1, n2]⟩ : Shape).ShapeCasts ⟨2, ![n0, n2]⟩) (r : Fin n0) (q : Fin n2) :
    shapeCast ⟨2, ![n0, n2]⟩ (extractStridedSlice ⟨3, ![n0, 1, n2]⟩ ![0, o, 0] X h) hc (ix2 r q)
      = X (ix3 r ⟨o + (0 : Fin 1).val, Nat.lt_of_lt_of_le (Nat.add_lt_add_left (0 : Fin 1).isLt o) (h.2 1)⟩ q) := by
  refine (shapeCast_apply _ hc (ix2 r q) (ix3 r (0 : Fin 1) q) ?_).trans (slice3_axis1_eq o X h r 0 q)
  rw [Shape.rowMajor_val_three, Shape.rowMajor_val_two]
  show (r.val * 1 + 0) * n2 + q.val = r.val * n2 + q.val
  rw [Nat.mul_one, Nat.add_zero]

/-- Row `o` of a matrix, spread over `n0` rows: at `(r, q)` it is the matrix at `(o, q)`. -/
theorem rowSpread_apply {n0 n1 n2 : Nat} (o : Nat) (X : (⟨2, ![n1, n2]⟩ : Shape).Idx → α)
    (h : (⟨2, ![n1, n2]⟩ : Shape).Slices ![o, 0] ⟨2, ![1, n2]⟩)
    (h1 : (⟨2, ![1, n2]⟩ : Shape).ShapeCasts ⟨1, ![n2]⟩) (h2 : (⟨1, ![n2]⟩ : Shape).ShapeCasts ⟨2, ![1, n2]⟩)
    (hb : (⟨2, ![1, n2]⟩ : Shape).Broadcasts ⟨2, ![n0, n2]⟩) (r : Fin n0) (q : Fin n2) :
    broadcastTo ⟨2, ![n0, n2]⟩ (shapeCast ⟨2, ![1, n2]⟩ (shapeCast ⟨1, ![n2]⟩ (extractStridedSlice ⟨2, ![1, n2]⟩ ![o, 0] X h) h1) h2) hb (ix2 r q)
      = X (ix2 ⟨o + (0 : Fin 1).val, Nat.lt_of_lt_of_le (Nat.add_lt_add_left (0 : Fin 1).isLt o) (h.2 0)⟩ q) :=
  (broadcastTo_1b_ab_apply _ hb r q).trans ((shapeCast_a_1a_apply _ h2 0 q).trans ((shapeCast_1a_a_apply _ h1 q).trans
    (slice2_axis0_eq o X h 0 q)))

/-- A one-row matrix spread over `n0` rows (through the two casts the body prints): at `(r, q)` it is the row at `q`. -/
theorem rowSpread1_apply {n0 n2 : Nat} (v : (⟨2, ![1, n2]⟩ : Shape).Idx → α)
    (h1 : (⟨2, ![1, n2]⟩ : Shape).ShapeCasts ⟨1, ![n2]⟩) (h2 : (⟨1, ![n2]⟩ : Shape).ShapeCasts ⟨2, ![1, n2]⟩)
    (hb : (⟨2, ![1, n2]⟩ : Shape).Broadcasts ⟨2, ![n0, n2]⟩) (r : Fin n0) (q : Fin n2) :
    broadcastTo ⟨2, ![n0, n2]⟩ (shapeCast ⟨2, ![1, n2]⟩ (shapeCast ⟨1, ![n2]⟩ v h1) h2) hb (ix2 r q) = v (ix2 (0 : Fin 1) q) :=
  (broadcastTo_1b_ab_apply _ hb r q).trans ((shapeCast_a_1a_apply _ h2 0 q).trans (shapeCast_1a_a_apply _ h1 q))

/-- A row slice of a matrix at `(0, q)`. -/
theorem row_apply {n1 n2 : Nat} (o : Nat) (X : (⟨2, ![n1, n2]⟩ : Shape).Idx → α)
    (h : (⟨2, ![n1, n2]⟩ : Shape).Slices ![o, 0] ⟨2, ![1, n2]⟩) (q : Fin n2) :
    extractStridedSlice ⟨2, ![1, n2]⟩ ![o, 0] X h (ix2 (0 : Fin 1) q)
      = X (ix2 ⟨o + (0 : Fin 1).val, Nat.lt_of_lt_of_le (Nat.add_lt_add_left (0 : Fin 1).isLt o) (h.2 0)⟩ q) :=
  slice2_axis0_eq o X h 0 q

end Layout

/-! ## The body's arithmetic at an index -/

section Payload
variable (x0 : S32x25x512.Idx → EReal) (x1 : S25x512.Idx → EReal) (x2 : S1x512.Idx → EReal) (r : Fin 32) (q : Fin 512)

theorem pay2_eq : k0_pay2 (F := Ideal) x0 = x0 := by unfold k0_pay2; exact shapeCast_self _ _

theorem pay3_eq : k0_pay3 (F := Ideal) x1 = x1 := by unfold k0_pay3; exact shapeCast_self _ _

/-- Terms 0 to 5 of the sum, added from the left. -/
theorem pay4_apply : k0_pay4 (F := Ideal) x0 x1 (ix2 r q) = x0 (ix3 r 0 q) * x1 (ix2 0 q) + x0 (ix3 r 1 q) * x1 (ix2 1 q) + x0 (ix3 r 2 q) * x1 (ix2 2 q) + x0 (ix3 r 3 q) * x1 (ix2 3 q) + x0 (ix3 r 4 q) * x1 (ix2 4 q) + x0 (ix3 r 5 q) * x1 (ix2 5 q) := by
  unfold k0_pay4
  simp only [pay2_eq, pay3_eq, addf_apply, mulf_apply, slab_apply, rowSpread_apply]
  rfl

/-- Terms 6 to 12 added onto an accumulator. -/
theorem pay7_apply (a : S32x512.Idx → EReal) :
    k0_pay7 (F := Ideal) x0 x1 a (k0_pay5 x0) (k0_pay6 x1) (ix2 r q) = a (ix2 r q) + x0 (ix3 r 6 q) * x1 (ix2 6 q) + x0 (ix3 r 7 q) * x1 (ix2 7 q) + x0 (ix3 r 8 q) * x1 (ix2 8 q) + x0 (ix3 r 9 q) * x1 (ix2 9 q) + x0 (ix3 r 10 q) * x1 (ix2 10 q) + x0 (ix3 r 11 q) * x1 (ix2 11 q) + x0 (ix3 r 12 q) * x1 (ix2 12 q) := by
  unfold k0_pay7 k0_pay5 k0_pay6
  simp only [pay2_eq, pay3_eq, addf_apply, mulf_apply, slab_apply, rowSpread_apply]
  rfl

/-- Term 13. -/
theorem pay8_apply : k0_pay8 (F := Ideal) x0 x1 (ix2 r q) = x0 (ix3 r 13 q) * x1 (ix2 13 q) := by
  unfold k0_pay8
  simp only [mulf_apply, slab_apply, rowSpread_apply]
  rfl

/-- Term 13 and terms 14 to 20 added onto an accumulator. -/
theorem pay9_apply (a b : S32x512.Idx → EReal) :
    k0_pay9 (F := Ideal) x0 x1 a b (ix2 r q) = a (ix2 r q) + b (ix2 r q) + x0 (ix3 r 14 q) * x1 (ix2 14 q) + x0 (ix3 r 15 q) * x1 (ix2 15 q) + x0 (ix3 r 16 q) * x1 (ix2 16 q) + x0 (ix3 r 17 q) * x1 (ix2 17 q) + x0 (ix3 r 18 q) * x1 (ix2 18 q) + x0 (ix3 r 19 q) * x1 (ix2 19 q) + x0 (ix3 r 20 q) * x1 (ix2 20 q) := by
  unfold k0_pay9
  simp only [addf_apply, mulf_apply, slab_apply, rowSpread_apply]
  rfl

/-- Terms 21 to 24 and the bias row added onto an accumulator. -/
theorem pay1_apply (a : S32x512.Idx → EReal) :
    k0_pay1 (F := Ideal) x0 x1 a (k0_pay10 x0) (k0_pay11 x1) x2 (ix2 r q)
      = a (ix2 r q) + x0 (ix3 r 21 q) * x1 (ix2 21 q) + x0 (ix3 r 22 q) * x1 (ix2 22 q) + x0 (ix3 r 23 q) * x1 (ix2 23 q) + x0 (ix3 r 24 q) * x1 (ix2 24 q) + x2 (ix2 (0 : Fin 1) q) := by
  unfold k0_pay1 k0_pay10 k0_pay11
  simp only [shapeCast_self, addf_apply, mulf_apply, slab_apply, rowSpread_apply]
  simp only [broadcastTo_1b_ab_apply]
  rfl

/-- The stored value at `(r, q)`: the 25 products summed, plus the bias. -/
theorem payload_apply :
    k0_pay1 (F := Ideal) (k0_pay2 x0) (k0_pay3 x1) (k0_pay9 (k0_pay2 x0) (k0_pay3 x1) (k0_pay7 (k0_pay2 x0) (k0_pay3 x1) (k0_pay4 x0 x1) (k0_pay5 x0) (k0_pay6 x1)) (k0_pay8 (k0_pay2 x0) (k0_pay3 x1))) (k0_pay10 (k0_pay2 x0)) (k0_pay11 (k0_pay3 x1)) x2 (ix2 r q)
      = (∑ k : Fin 25, x0 (ix3 r k q) * x1 (ix2 k q)) + x2 (ix2 (0 : Fin 1) q) := by
  rw [pay2_eq, pay3_eq, pay1_apply, pay9_apply, pay7_apply, pay4_apply, pay8_apply]
  simp only [Fin.sum_univ_castSucc, Fin.sum_univ_zero, zero_add]
  rfl

end Payload

/-! ## From the blocks to the array -/

section Array
variable (V : (c : Dev nD) → (b : Ref sig .tc) → Buf (Elt Ideal) ((c : Thread nD τ).loc b))

theorem hz2 : (![0, 0] : Fin 2 → Nat) = fun _ => 0 := funext fun a => by fin_cases a <;> rfl

theorem hz3 : (![0, 0, 0] : Fin 3 → Nat) = fun _ => 0 := funext fun a => by fin_cases a <;> rfl

/-- The layer as one function of the three arrays: at `(r, j)` the 25 products along the middle axis summed, plus the bias. -/
abbrev layerVal (g : S32x25x7680.Idx → EReal) (w : S25x7680.Idx → EReal) (b : S1x7680.Idx → EReal) : S32x7680.Idx → EReal :=
  fun i => (∑ k : Fin 25, g (ix3 (i 0) k (i 1)) * w (ix2 k (i 1))) + b (ix2 (0 : Fin 1) (i 1))

/-- The index maps over the grid: every window's block moves along its last axis with the grid point and stays at 0 on the others. -/
theorem idx_facts : ∀ t : Fin cfg0.N,
    win0_0.index t (0 : Fin 3) = 0 ∧ win0_0.index t (1 : Fin 3) = 0 ∧ win0_0.index t (2 : Fin 3) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- Block `t` of the first array: columns `512 t … 512 t + 511`. -/
theorem gblk_apply (c : Dev nD) (t : Fin cfg0.N) (x : S32x25x512.Idx) (y : S32x25x7680.Idx)
    (h0 : (y 0).val = (x 0).val) (h1 : (y 1).val = (x 1).val) (h2 : (y 2).val = t.val * 512 + (x 2).val) :
    (iblk0 (F := Ideal) V c 0 t : S32x25x512.Idx → EReal) x = (V c main_v13 : S32x25x7680.Idx → EReal) y := by
  obtain ⟨e0, e1, e2, -⟩ := idx_facts t
  unfold iblk0
  rw [View.read_apply]
  show V c main_v13 _ = V c main_v13 _
  congr 1
  funext a
  apply Fin.ext
  match a with
  | ⟨0, _⟩ => show win0_0.index t (0 : Fin 3) * 32 + 1 * (x 0).val = (y 0).val; rw [e0, h0]; omega
  | ⟨1, _⟩ => show win0_0.index t (1 : Fin 3) * 25 + 1 * (x 1).val = (y 1).val; rw [e1, h1]; omega
  | ⟨2, _⟩ => show win0_0.index t (2 : Fin 3) * 512 + 1 * (x 2).val = (y 2).val; rw [e2, h2]; omega

/-- Block `t` of the second array. -/
theorem wblk_apply (c : Dev nD) (t : Fin cfg0.N) (x : S25x512.Idx) (y : S25x7680.Idx)
    (h0 : (y 0).val = (x 0).val) (h1 : (y 1).val = t.val * 512 + (x 1).val) :
    (iblk0 (F := Ideal) V c 1 t : S25x512.Idx → EReal) x = (V c main_v5 : S25x7680.Idx → EReal) y := by
  obtain ⟨-, -, -, e0, e1, -⟩ := idx_facts t
  unfold iblk0
  rw [View.read_apply]
  show V c main_v5 _ = V c main_v5 _
  congr 1
  funext a
  apply Fin.ext
  match a with
  | ⟨0, _⟩ => show win0_1.index t (0 : Fin 2) * 25 + 1 * (x 0).val = (y 0).val; rw [e0, h0]; omega
  | ⟨1, _⟩ => show win0_1.index t (1 : Fin 2) * 512 + 1 * (x 1).val = (y 1).val; rw [e1, h1]; omega

/-- Block `t` of the bias row. -/
theorem bblk_apply (c : Dev nD) (t : Fin cfg0.N) (x : S1x512.Idx) (y : S1x7680.Idx)
    (h0 : (y 0).val = (x 0).val) (h1 : (y 1).val = t.val * 512 + (x 1).val) :
    (iblk0 (F := Ideal) V c 2 t : S1x512.Idx → EReal) x = (V c main_v6 : S1x7680.Idx → EReal) y := by
  obtain ⟨-, -, -, -, -, e0, e1, -⟩ := idx_facts t
  unfold iblk0
  rw [View.read_apply]
  show V c main_v6 _ = V c main_v6 _
  congr 1
  funext a
  apply Fin.ext
  match a with
  | ⟨0, _⟩ => show win0_2.index t (0 : Fin 2) * 1 + 1 * (x 0).val = (y 0).val; rw [e0, h0]; omega
  | ⟨1, _⟩ => show win0_2.index t (1 : Fin 2) * 512 + 1 * (x 1).val = (y 1).val; rw [e1, h1]; omega

/-- What the body stores at `(r, q)` of block `t` is the layer's value at the array index under it. -/
theorem point_eq (c : Dev nD) (t : Fin cfg0.N) (r : Fin 32) (q : Fin 512) (i : S32x7680.Idx)
    (hi0 : (i 0).val = r.val) (hi1 : (i 1).val = t.val * 512 + q.val) :
    k0_pay1 (F := Ideal) (k0_pay2 (iblk0 (F := Ideal) V c 0 t)) (k0_pay3 (iblk0 (F := Ideal) V c 1 t)) (k0_pay9 (k0_pay2 (iblk0 (F := Ideal) V c 0 t)) (k0_pay3 (iblk0 (F := Ideal) V c 1 t)) (k0_pay7 (k0_pay2 (iblk0 (F := Ideal) V c 0 t)) (k0_pay3 (iblk0 (F := Ideal) V c 1 t)) (k0_pay4 (iblk0 (F := Ideal) V c 0 t) (iblk0 (F := Ideal) V c 1 t)) (k0_pay5 (iblk0 (F := Ideal) V c 0 t)) (k0_pay6 (iblk0 (F := Ideal) V c 1 t))) (k0_pay8 (k0_pay2 (iblk0 (F := Ideal) V c 0 t)) (k0_pay3 (iblk0 (F := Ideal) V c 1 t)))) (k0_pay10 (k0_pay2 (iblk0 (F := Ideal) V c 0 t))) (k0_pay11 (k0_pay3 (iblk0 (F := Ideal) V c 1 t))) (iblk0 (F := Ideal) V c 2 t) (ix2 r q)
      = layerVal (V c main_v13) (V c main_v5) (V c main_v6) i := by
  refine (payload_apply (iblk0 (F := Ideal) V c 0 t) (iblk0 (F := Ideal) V c 1 t) (iblk0 (F := Ideal) V c 2 t) r q).trans ?_
  refine congrArg₂ (fun a b : EReal => a + b) (Finset.sum_congr rfl fun k _ => congrArg₂ (fun a b : EReal => a * b)
    (gblk_apply V c t (ix3 r k q) (ix3 (i 0) k (i 1)) hi0 rfl hi1)
    (wblk_apply V c t (ix2 k q) (ix2 k (i 1)) rfl hi1))
    (bblk_apply V c t (ix2 (0 : Fin 1) q) (ix2 (0 : Fin 1) (i 1)) rfl hi1)

/-- What point `t` writes back is block `t` of the layer's value of the arrays as the region finds them. -/
theorem flushed_eq (c : Dev nD) (t : Fin cfg0.N) :
    (dat0 (F := Ideal) V c).flushed 3 t
      = ((cfg0.win 3).blk t).view.read (Elt Ideal) (layerVal (V c main_v13) (V c main_v5) (V c main_v6)) := by
  show (cfg0.win 3).cut (grid0.coords t) ((dat0 (F := Ideal) V c).after 3 t) = _
  rw [after0_3]
  unfold out0_3
  rw [View.canon_unit_zero hz2]
  simp only [View.ld_unit_zero (S := S32x25x512) hz3, View.ld_unit_zero (S := S25x512) hz2, View.ld_unit_zero (S := S1x512) hz2]
  obtain ⟨-, -, -, -, -, -, -, e0, e1⟩ := idx_facts t
  funext j
  obtain ⟨r, q, rfl⟩ : ∃ (r : Fin 32) (q : Fin 512), j = ix2 r q := ⟨j 0, j 1, eq_ix2 j⟩
  refine point_eq V c t r q _ ?_ ?_
  · show win0_3.index t (0 : Fin 2) * 32 + 1 * r.val = r.val; rw [e0]; omega
  · show win0_3.index t (1 : Fin 2) * 512 + 1 * q.val = t.val * 512 + q.val; rw [e1]; omega

/-- An index of the array is in point `t`'s block iff each coordinate is in the block's range on its axis. -/
theorem mem_blk (t : Fin cfg0.N) (i : S32x7680.Idx) :
    i ∈ ((cfg0.win 3).blk t).view.set ↔ ∀ a : Fin 2, win0_3.index t a * S32x512.size a ≤ (i a).val ∧ (i a).val < win0_3.index t a * S32x512.size a + S32x512.size a := by
  show i ∈ ((View.whole main_v14).slice (win0_3.rect t)).set ↔ _
  rw [View.set_slice_whole, Rect.mem_set_unit]
  exact Iff.rfl

/-- Every index of the array is in some point's block: column `j` is in block `j / 512`. -/
theorem covered (i : S32x7680.Idx) :
    ∃ t : Fin cfg0.N, (cfg0.win 3).flush t = true ∧ i ∈ ((cfg0.win 3).blk t).view.set := by
  have hi0 : (i 0).val < 32 := (i 0).isLt
  have hi1 : (i 1).val < 7680 := (i 1).isLt
  have hN : cfg0.N = 15 := N_0
  obtain ⟨t, ht⟩ : ∃ t : Fin cfg0.N, t.val = (i 1).val / 512 := ⟨⟨(i 1).val / 512, by rw [hN]; omega⟩, rfl⟩
  obtain ⟨-, -, -, -, -, -, -, e0, e1⟩ := idx_facts t
  refine ⟨t, flush0_3 t, ?_⟩
  rw [mem_blk]
  intro a
  match a with
  | ⟨0, _⟩ => show win0_3.index t (0 : Fin 2) * 32 ≤ (i 0).val ∧ (i 0).val < win0_3.index t (0 : Fin 2) * 32 + 32; rw [e0]; omega
  | ⟨1, _⟩ => show win0_3.index t (1 : Fin 2) * 512 ≤ (i 1).val ∧ (i 1).val < win0_3.index t (1 : Fin 2) * 512 + 512; rw [e1, ht]; omega

end Array

end R0

/-- The region's output array after its write-backs: the layer's value of the three input arrays as the region finds them. -/
theorem region0_value (V : (c : Dev nD) → (b : Ref sig .tc) → Buf (Elt Ideal) ((c : Thread nD τ).loc b)) (c : Dev nD) :
    ((dat0 (F := Ideal) V c).arrAt 3 cfg0.N : S32x7680.Idx → EReal)
      = fun i => (∑ k : Fin 25, Cert.Spec.rdF (S := S32x25x7680) (V c main_v13) (ix3 (i 0) k (i 1)) * Cert.Spec.rdF (S := S25x7680) (V c main_v5) (ix2 k (i 1))) + Cert.Spec.rdF (S := S1x7680) (V c main_v6) (ix2 (0 : Fin 1) (i 1)) :=
  (dat0 (F := Ideal) V c).arrAt_eq_of_cover 3 (R0.layerVal (V c main_v13) (V c main_v5) (V c main_v6)) (fun t _ => R0.flushed_eq V c t) R0.covered

end Cert.KernelIdeal.KVal

end
-- ==== Proof.KRegion5.lean ====
/- The dense layer's region: what the output array holds after the one grid point, as a function of the three
   operand arrays the region finds — the contraction of the activation rows with the weight columns over the 512
   shared coordinates, plus the bias row. -/
import proofs.«427585_j58162447123130_3_alg».proof.Proof.Gen.KernelIdeal.Frame
import proofs.«427585_j58162447123130_3_alg».proof.Proof.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem
open Idealize.ShloMosaic.Pipeline (Dat Cfg Window)
open scoped BigOperators

/-! ## The contraction's operand indices, axis by axis -/

theorem lhs_fc_0 (i : S32x128.Idx) (q : dot_S32x512_S512x128_S32x128_1_0_0_1_n_n.contr.Idx) :
    (dot_S32x512_S512x128_S32x128_1_0_0_1_n_n.lhsIdx i q 0).val = (i 0).val := by
  unfold DotDims.lhsIdx
  rw [dif_neg (show ¬(0 : Fin S32x512.rank) ∈ dot_S32x512_S512x128_S32x128_1_0_0_1_n_n.lhsBatch by decide), dif_pos (show (0 : Fin S32x512.rank) ∈ dot_S32x512_S512x128_S32x128_1_0_0_1_n_n.lhsNonContracting by decide)]
  rfl
theorem lhs_fc_1 (i : S32x128.Idx) (q : dot_S32x512_S512x128_S32x128_1_0_0_1_n_n.contr.Idx) :
    (dot_S32x512_S512x128_S32x128_1_0_0_1_n_n.lhsIdx i q 1).val = (q ⟨0, by decide⟩).val :=
  dot_S32x512_S512x128_S32x128_1_0_0_1_n_n.lhsIdx_val_of_single rfl i q
theorem rhs_fc_0 (i : S32x128.Idx) (q : dot_S32x512_S512x128_S32x128_1_0_0_1_n_n.contr.Idx) :
    (dot_S32x512_S512x128_S32x128_1_0_0_1_n_n.rhsIdx i q 0).val = (q ⟨0, by decide⟩).val :=
  dot_S32x512_S512x128_S32x128_1_0_0_1_n_n.rhsIdx_val_of_single rfl i q
theorem rhs_fc_1 (i : S32x128.Idx) (q : dot_S32x512_S512x128_S32x128_1_0_0_1_n_n.contr.Idx) :
    (dot_S32x512_S512x128_S32x128_1_0_0_1_n_n.rhsIdx i q 1).val = (i 1).val := by
  unfold DotDims.rhsIdx
  rw [dif_neg (show ¬(1 : Fin S512x128.rank) ∈ dot_S32x512_S512x128_S32x128_1_0_0_1_n_n.rhsBatch by decide), dif_pos (show (1 : Fin S512x128.rank) ∈ dot_S32x512_S512x128_S32x128_1_0_0_1_n_n.rhsNonContracting by decide)]
  rfl

/-! ## The product into the zero accumulator, at an index -/

/-- Entry (r, o) of the product of a [32,512] block with a [512,128] block is the sum over the shared coordinate. -/
theorem matmul_fc_apply (a : FVec Ideal S32x512 .bf16) (s : FVec Ideal S512x128 .bf16) (i : S32x128.Idx) :
    matmul dot_S32x512_S512x128_S32x128_1_0_0_1_n_n none a s (constant S32x128 .f32 0x00000000#32) i
      = ∑ k : Fin 512, a (ix2 (i 0) k) * s (ix2 k (i 1)) := by
  simp only [matmul]
  rw [Ideal.matmul_constant_zero_apply, ← Equiv.sum_comp (ValueIdx.contrEquiv1 dot_S32x512_S512x128_S32x128_1_0_0_1_n_n 512 rfl rfl).symm]
  refine Finset.sum_congr rfl fun k _ => ?_
  have hk := ValueIdx.contrEquiv1_symm_val dot_S32x512_S512x128_S32x128_1_0_0_1_n_n 512 rfl rfl k
  have el : dot_S32x512_S512x128_S32x128_1_0_0_1_n_n.lhsIdx i ((ValueIdx.contrEquiv1 dot_S32x512_S512x128_S32x128_1_0_0_1_n_n 512 rfl rfl).symm k) = ix2 (i 0) k := funext fun a => Fin.ext (by
    match a with
    | ⟨0, _⟩ => exact lhs_fc_0 _ _
    | ⟨1, _⟩ => exact (lhs_fc_1 _ _).trans hk)
  have er : dot_S32x512_S512x128_S32x128_1_0_0_1_n_n.rhsIdx i ((ValueIdx.contrEquiv1 dot_S32x512_S512x128_S32x128_1_0_0_1_n_n 512 rfl rfl).symm k) = ix2 k (i 1) := funext fun a => Fin.ext (by
    match a with
    | ⟨0, _⟩ => exact (rhs_fc_0 _ _).trans hk
    | ⟨1, _⟩ => exact rhs_fc_1 _ _)
  rw [el, er]
  rfl

/-- The bias row spread over the 32 rows reads its column's entry. -/
theorem bias_fc_apply (b : FVec Ideal S1x128 .f32) (i : S32x128.Idx) :
    broadcastTo S32x128 b broadcasts_S1x128_S32x128 i = b (ix2 (0 : Fin 1) (i 1)) :=
  broadcastTo_apply b broadcasts_S1x128_S32x128 i (ix2 (0 : Fin 1) (i 1)) (fun a => by
    match a with
    | ⟨0, _⟩ => show 0 = if (1 : Nat) = 1 then 0 else _; rw [if_pos rfl]
    | ⟨1, _⟩ => show (i 1).val = if (128 : Nat) = 1 then 0 else (i 1).val; rw [if_neg (by decide)])

/-! ## The body's payload at an index -/

/-- The dense layer of an activation block, a weight block and a bias row, entry by entry. -/
def denseOut (a : S32x512.Idx → EReal) (s : S512x128.Idx → EReal) (b : S1x128.Idx → EReal) : S32x128.Idx → EReal :=
  fun i => (∑ k : Fin 512, a (ix2 (i 0) k) * s (ix2 k (i 1))) + b (ix2 (0 : Fin 1) (i 1))

/-- Entry by entry. -/
theorem denseOut_apply (a : S32x512.Idx → EReal) (s : S512x128.Idx → EReal) (b : S1x128.Idx → EReal) (i : S32x128.Idx) :
    denseOut a s b i = (∑ k : Fin 512, a (ix2 (i 0) k) * s (ix2 k (i 1))) + b (ix2 (0 : Fin 1) (i 1)) := rfl

/-- The stored payload is the dense layer of the three loaded blocks. -/
theorem fc_payload (x0 : Vec Ideal S32x512 .bf16) (x1 : Vec Ideal S512x128 .bf16) (x2 : Vec Ideal S1x128 .f32) :
    k5_pay1 (F := Ideal) x0 x1 x2 = denseOut x0 x1 x2 := by
  funext i
  unfold k5_pay1
  simp only [shapeCast_self]
  rw [addf_apply, matmul_fc_apply, bias_fc_apply]
  rfl

/-- At coordinates. -/
theorem fc_payload_apply (x0 : Vec Ideal S32x512 .bf16) (x1 : Vec Ideal S512x128 .bf16) (x2 : Vec Ideal S1x128 .f32) (r : Fin 32) (o : Fin 128) :
    k5_pay1 (F := Ideal) x0 x1 x2 (ix2 r o) = (∑ k : Fin 512, x0 (ix2 r k) * x1 (ix2 k o)) + x2 (ix2 (0 : Fin 1) o) := by
  rw [fc_payload]; rfl

/-! ## From the one block to the array -/

variable (V : (c : Dev nD) → (b : Ref sig .tc) → Buf (Elt Ideal) ((c : Thread nD τ).loc b))

theorem zero_offsets : (![0, 0] : Fin 2 → Nat) = fun _ => 0 := funext fun a => by fin_cases a <;> rfl

/-- Every window's block index is (0, 0) at the one grid point. -/
theorem fc_index_zero : ∀ t : Fin cfg5.N, win5_0.index t (0 : Fin 2) = 0 ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- The activation window's block is the whole activation array. -/
theorem fc_block_act (c : Dev nD) (t : Fin cfg5.N) :
    (iblk5 V c 0 t : S32x512.Idx → EReal) = (V c main_v67 : S32x512.Idx → EReal) := by
  obtain ⟨e0, e1, -⟩ := fc_index_zero t
  funext y
  unfold iblk5
  rw [View.read_apply]
  show (V c main_v67 : S32x512.Idx → EReal) (((cfg5.win 0).blk t).view.emb y) = _
  refine congrArg (V c main_v67 : S32x512.Idx → EReal) (funext fun a => Fin.ext ?_)
  match a with
  | ⟨0, _⟩ => show win5_0.index t (0 : Fin 2) * 32 + 1 * (y 0).val = (y 0).val; rw [e0]; omega
  | ⟨1, _⟩ => show win5_0.index t (1 : Fin 2) * 512 + 1 * (y 1).val = (y 1).val; rw [e1]; omega

/-- The weight window's block is the whole weight array. -/
theorem fc_block_wt (c : Dev nD) (t : Fin cfg5.N) :
    (iblk5 V c 1 t : S512x128.Idx → EReal) = (V c main_v69 : S512x128.Idx → EReal) := by
  obtain ⟨-, -, e0, e1, -⟩ := fc_index_zero t
  funext y
  unfold iblk5
  rw [View.read_apply]
  show (V c main_v69 : S512x128.Idx → EReal) (((cfg5.win 1).blk t).view.emb y) = _
  refine congrArg (V c main_v69 : S512x128.Idx → EReal) (funext fun a => Fin.ext ?_)
  match a with
  | ⟨0, _⟩ => show win5_1.index t (0 : Fin 2) * 512 + 1 * (y 0).val = (y 0).val; rw [e0]; omega
  | ⟨1, _⟩ => show win5_1.index t (1 : Fin 2) * 128 + 1 * (y 1).val = (y 1).val; rw [e1]; omega

/-- The bias window's block is the whole bias row. -/
theorem fc_block_bias (c : Dev nD) (t : Fin cfg5.N) :
    (iblk5 V c 2 t : S1x128.Idx → EReal) = (V c main_v71 : S1x128.Idx → EReal) := by
  obtain ⟨-, -, -, -, e0, e1, -⟩ := fc_index_zero t
  funext y
  unfold iblk5
  rw [View.read_apply]
  show (V c main_v71 : S1x128.Idx → EReal) (((cfg5.win 2).blk t).view.emb y) = _
  refine congrArg (V c main_v71 : S1x128.Idx → EReal) (funext fun a => Fin.ext ?_)
  match a with
  | ⟨0, _⟩ => show win5_2.index t (0 : Fin 2) * 1 + 1 * (y 0).val = (y 0).val; rw [e0]; omega
  | ⟨1, _⟩ => show win5_2.index t (1 : Fin 2) * 128 + 1 * (y 1).val = (y 1).val; rw [e1]; omega

/-- What the one grid point writes back is the (whole-array) block of the dense layer of the three operand arrays. -/
theorem fc_flushed (c : Dev nD) (t : Fin cfg5.N) :
    (dat5 (F := Ideal) V c).flushed 3 t
      = ((cfg5.win 3).blk t).view.read (Elt Ideal) (denseOut (V c main_v67) (V c main_v69) (V c main_v71)) := by
  show (cfg5.win 3).cut (grid5.coords t) ((dat5 V c).after 3 t) = _
  rw [after5_3]
  unfold out5_3
  rw [View.canon_unit_zero zero_offsets]
  simp only [View.ld_unit_zero (S := S32x512) zero_offsets, View.ld_unit_zero (S := S512x128) zero_offsets, View.ld_unit_zero (S := S1x128) zero_offsets]
  rw [fc_payload]
  obtain ⟨-, -, -, -, -, -, e0, e1⟩ := fc_index_zero t
  funext j
  show denseOut (iblk5 V c 0 t) (iblk5 V c 1 t) (iblk5 V c 2 t) ((cfg5.win 3).xinj (grid5.coords t) j)
    = denseOut (V c main_v67) (V c main_v69) (V c main_v71) (((cfg5.win 3).blk t).view.emb j)
  rw [fc_block_act V c t, fc_block_wt V c t, fc_block_bias V c t]
  refine congrArg (denseOut (V c main_v67) (V c main_v69) (V c main_v71)) (funext fun a => Fin.ext ?_)
  match a with
  | ⟨0, _⟩ => show (j 0).val = win5_3.index t (0 : Fin 2) * 32 + 1 * (j 0).val; rw [e0]; omega
  | ⟨1, _⟩ => show (j 1).val = win5_3.index t (1 : Fin 2) * 128 + 1 * (j 1).val; rw [e1]; omega

/-- Every index of the output array is in the one point's block. -/
theorem fc_cover (i : S32x128.Idx) :
    ∃ t : Fin cfg5.N, (cfg5.win 3).flush t = true ∧ i ∈ ((cfg5.win 3).blk t).view.set := by
  refine ⟨t5_0, flush5_3 t5_0, ?_⟩
  show i ∈ ((View.whole main_v72).slice (win5_3.rect t5_0)).set
  rw [View.set_slice_whole, Rect.mem_set_unit]
  obtain ⟨-, -, -, -, -, -, e0, e1⟩ := fc_index_zero t5_0
  have h0 : (i 0).val < 32 := (i 0).isLt
  have h1 : (i 1).val < 128 := (i 1).isLt
  intro a
  match a with
  | ⟨0, _⟩ => show win5_3.index t5_0 (0 : Fin 2) * 32 ≤ (i 0).val ∧ (i 0).val < win5_3.index t5_0 (0 : Fin 2) * 32 + 32; rw [e0]; omega
  | ⟨1, _⟩ => show win5_3.index t5_0 (1 : Fin 2) * 128 ≤ (i 1).val ∧ (i 1).val < win5_3.index t5_0 (1 : Fin 2) * 128 + 128; rw [e1]; omega

/-- THE DENSE LAYER'S OUTPUT ARRAY after the region: entry (r, o) is the sum over the 512 shared coordinates of
    activation (r, k) times weight (k, o), plus bias (0, o), of the arrays the region finds (the dense layer read
    entry by entry is the definition unfolded). -/
theorem region5_dense (c : Dev nD) :
    ((dat5 (F := Ideal) V c).arrAt 3 cfg5.N : S32x128.Idx → EReal)
      = denseOut (V c main_v67) (V c main_v69) (V c main_v71) :=
  (dat5 (F := Ideal) V c).arrAt_eq_of_cover 3 (denseOut (V c main_v67) (V c main_v69) (V c main_v71))
    (fun t _ => fc_flushed V c t) fc_cover

/-- The same, entry by entry, each array read as a function to the extended reals on its literal index type. -/
theorem region5_value (c : Dev nD) :
    ((dat5 (F := Ideal) V c).arrAt 3 cfg5.N : S32x128.Idx → EReal)
      = fun i => (∑ k : Fin 512, Cert.Spec.rdF (S := S32x512) (V c main_v67) (ix2 (i 0) k) * Cert.Spec.rdF (S := S512x128) (V c main_v69) (ix2 k (i 1)))
          + Cert.Spec.rdF (S := S1x128) (V c main_v71) (ix2 (0 : Fin 1) (i 1)) :=
  region5_dense V c

end Cert.KernelIdeal.KVal

end
-- ==== Proof.LibGatherRows.lean ====
/-
  A `stablehlo.gather` of whole rows of a matrix at a table of column indices, read at an index.

  What `h[:, idx]` of a matrix `h : [R, N]` at an integer array `idx : [J, C]` lowers to: the start indices as `[J, C, 1]`,
  offset_dims `[0]`, collapsed_slice_dims `[1]`, start_index_map `[1]`, index_vector_dim 2, slice sizes `[R, 1]`. Result
  element `(r, j, k)` is `h[r, ·]` at the start index `idx[j, k, 0]` read as a signed integer and clamped into
  `[0, N − 1]`, as the gather clamps every start index.
-/
import Idealize.ShloMosaic.PureOps.Ideal
import Idealize.ShloMosaic.Lib.ValueIdx

noncomputable section

namespace Cert.RefValue

open Idealize.ShloMosaic Idealize.ShloMosaic.ValueIdx

section Gather
variable {α : Type}

/-- The dimension numbers of a row gather: operand `[R, N]`, start indices `[J, C, 1]`, result `[R, J, C]`; the
    whole of axis 0 is kept and axis 1 is read at the start index. -/
abbrev rowGatherDims (R N J C : Nat)
    (wf : GatherDims.WF ⟨2, ![R, N]⟩ ⟨3, ![J, C, 1]⟩ ⟨3, ![R, J, C]⟩ [0] [1] [] [1] [] 2 ![R, 1]) :
    GatherDims ⟨2, ![R, N]⟩ ⟨3, ![J, C, 1]⟩ ⟨3, ![R, J, C]⟩ where
  offsetDims := [0]
  collapsedSliceDims := [1]
  operandBatchingDims := []
  startIndicesBatchingDims := []
  startIndexMap := [1]
  indexVectorDim := 2
  sliceSizes := ![R, 1]
  wf := wf

/-- THE ROW GATHER READ AT `(r, j, k)`: row `r` of the operand at the column the start index `idx[j, k, 0]` names,
    read signed and clamped into `[0, N − 1]`. -/
theorem gather_rows_apply {R N J C w : Nat} (hN : 0 < N)
    (wf : GatherDims.WF ⟨2, ![R, N]⟩ ⟨3, ![J, C, 1]⟩ ⟨3, ![R, J, C]⟩ [0] [1] [] [1] [] 2 ![R, 1])
    (x : (⟨2, ![R, N]⟩ : Shape).Idx → α) (idx : IVec ⟨3, ![J, C, 1]⟩ w) (r : Fin R) (j : Fin J) (k : Fin C) :
    Host.gather (rowGatherDims R N J C wf) x idx (ix3 r j k)
      = x (ix2 r ⟨min (idx (ix3 j k (0 : Fin 1))).toInt.toNat (N - 1), by omega⟩) := by
  unfold Host.gather
  congr 1
  funext a
  refine Fin.ext ?_
  match a with
  | ⟨0, _⟩ =>
    show (rowGatherDims R N J C wf).start (ix3 r j k) idx 0 + (rowGatherDims R N J C wf).batchCoord (ix3 r j k) 0
        + (rowGatherDims R N J C wf).offCoord (ix3 r j k) 0 = r.val
    rw [GatherDims.batchCoord_eq_zero _ _ _ List.not_mem_nil]
    have hs : (rowGatherDims R N J C wf).start (ix3 r j k) idx 0 = 0 := by
      unfold GatherDims.start
      rw [dif_neg (show (0 : Fin 2) ∉ ([1] : List (Fin 2)) by decide)]
    rw [hs]
    simp only [Nat.add_zero, Nat.zero_add]
    rfl
  | ⟨1, _⟩ =>
    show (rowGatherDims R N J C wf).start (ix3 r j k) idx 1 + (rowGatherDims R N J C wf).batchCoord (ix3 r j k) 1
        + (rowGatherDims R N J C wf).offCoord (ix3 r j k) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowGatherDims R N J C wf).startIndexMap from List.mem_singleton.mpr rfl)]
    have hsi : (rowGatherDims R N J C wf).siIdx (ix3 r j k) ⟨List.idxOf (1 : Fin 2) (rowGatherDims R N J C wf).startIndexMap,
        List.idxOf_lt_length_iff.2 (List.mem_singleton.mpr rfl)⟩ = ix3 j k (0 : Fin 1) := by
      funext b; refine Fin.ext ?_
      match b with
      | ⟨0, _⟩ => rfl
      | ⟨1, _⟩ => rfl
      | ⟨2, _⟩ => rfl
    rw [hsi]
    rfl

end Gather

end Cert.RefValue

end
-- ==== Proof.KEntryLib.lean ====
/-
  Reading the host operations that prepare a layer's three input arrays, at an index.

  Each layer's table and weights arrive as `[J, 25]`, are transposed to `[25, J]` and padded on the right of the column
  axis to the tile multiple `Jp` (the table with the word 0, the weights and the bias with the float 0). The table's
  words are then normalised as an index into the previous array's columns (a negative word wraps by the axis length),
  given a trailing unit axis, and a gather of whole columns reads the previous array at them, clamping each index into
  the axis. The lemmas here read each of these steps at an index, for any sizes.
-/
import proofs.«427585_j58162447123130_3_alg».proof.Proof.Spec
import proofs.«427585_j58162447123130_3_alg».proof.Proof.LibGatherRows
import Idealize.ShloMosaic.Lib.KernelVsHost
import Idealize.ShloMosaic.Lib.ValueLayout

noncomputable section

namespace Cert.KernelIdeal.KVal

open Idealize.ShloMosaic Idealize.ShloMosaic.ValueIdx

section Layout
variable {α : Type}

/-- A matrix padded on the right of its column axis, read at `(k, j)`: the matrix there for a column it has, the
    padding value beyond. -/
theorem pad_cols_apply {A J Jp : ℕ} (hi : Fin (⟨2, ![A, J]⟩ : Shape).rank → ℕ)
    (x : (⟨2, ![A, J]⟩ : Shape).Idx → α) (v : (⟨0, ![]⟩ : Shape).Idx → α)
    (h : (⟨2, ![A, J]⟩ : Shape).Pads ![0, 0] hi ![0, 0] ⟨2, ![A, Jp]⟩) (hu : 0 < (⟨0, ![]⟩ : Shape).numel)
    (k : Fin A) (j : Fin Jp) :
    pad ⟨2, ![A, Jp]⟩ ![0, 0] hi ![0, 0] x v h hu (ix2 k j)
      = if hj : j.val < J then x (ix2 k ⟨j.val, hj⟩) else v ix0 := by
  by_cases hj : j.val < J
  · rw [dif_pos hj]
    refine pad_apply_of_inside _ _ _ x v h hu (ix2 k j) (ix2 k ⟨j.val, hj⟩) fun a => ?_
    match a with
    | ⟨0, _⟩ => show k.val = 0 + k.val * (0 + 1); omega
    | ⟨1, _⟩ => show j.val = 0 + j.val * (0 + 1); omega
  · rw [dif_neg hj]
    refine (pad_apply_of_not_inside _ _ _ x v h hu (ix2 k j) (1 : Fin 2) fun hh => hj ?_).trans
      (congrArg v (eq_ix0 _))
    have h3 : (j.val - 0) / (0 + 1) < J := hh.2.2
    rw [Nat.sub_zero, Nat.zero_add, Nat.div_one] at h3
    exact h3

/-- A `[25, Jp]` array given a trailing unit axis reads, at `(k, j, 0)`, the array at `(k, j)`. -/
theorem bcast_unit_apply {Jp : ℕ}
    (h : (⟨2, ![25, Jp]⟩ : Shape).BroadcastsInDim ⟨3, ![25, Jp, 1]⟩ ![0, 1])
    (x : (⟨2, ![25, Jp]⟩ : Shape).Idx → α) (k : Fin 25) (j : Fin Jp) :
    broadcastInDim ⟨3, ![25, Jp, 1]⟩ ![0, 1] h x (ix3 k j (0 : Fin 1)) = x (ix2 k j) := by
  refine broadcastInDim_apply _ h x (ix3 k j (0 : Fin 1)) (ix2 k j) fun a => ?_
  match a with
  | ⟨0, _⟩ =>
    show k.val = if (25 : ℕ) = 1 then 0 else k.val
    rw [if_neg (by decide)]
  | ⟨1, _⟩ =>
    show j.val = if Jp = 1 then 0 else j.val
    split
    · have := j.isLt; omega
    · rfl

/-- An `[a, 1, b]` array with its unit axis dropped reads, at `(r, n)`, the array at `(r, 0, n)`. -/
theorem shapeCast_a1b_ab_apply {a b : ℕ} (x : (⟨3, ![a, 1, b]⟩ : Shape).Idx → α)
    (h : (⟨3, ![a, 1, b]⟩ : Shape).ShapeCasts ⟨2, ![a, b]⟩) (r : Fin a) (n : Fin b) :
    shapeCast ⟨2, ![a, b]⟩ x h (ix2 r n) = x (ix3 r (0 : Fin 1) n) := by
  refine shapeCast_apply x h (ix2 r n) (ix3 r (0 : Fin 1) n) ?_
  rw [Shape.rowMajor_val_three, Shape.rowMajor_val_two]
  show (r.val * 1 + 0) * b + n.val = r.val * b + n.val
  rw [Nat.mul_one, Nat.add_zero]

end Layout

section Words

/-- THE NORMALISED INDEX AT `(k, j, 0)`: the table's word there, wrapped by the axis length `n` when negative. -/
theorem wrapped_apply {Jp n : ℕ}
    (d0 : Fin (⟨0, ![]⟩ : Shape).rank → Fin (⟨2, ![25, Jp]⟩ : Shape).rank)
    (h0 : (⟨0, ![]⟩ : Shape).BroadcastsInDim ⟨2, ![25, Jp]⟩ d0)
    (h : (⟨2, ![25, Jp]⟩ : Shape).BroadcastsInDim ⟨3, ![25, Jp, 1]⟩ ![0, 1])
    (T : IVec ⟨2, ![25, Jp]⟩ 32) (k : Fin 25) (j : Fin Jp) :
    broadcastInDim ⟨3, ![25, Jp, 1]⟩ ![0, 1] h
        (select (cmpi .slt T (broadcastInDim ⟨2, ![25, Jp]⟩ d0 h0 (constantI ⟨0, ![]⟩ 32 0#32)))
          (addi T (broadcastInDim ⟨2, ![25, Jp]⟩ d0 h0 (constantI ⟨0, ![]⟩ 32 (BitVec.ofNat 32 n)))) T)
        (ix3 k j (0 : Fin 1))
      = Cert.Spec.wrap n (T (ix2 k j)) := by
  rw [bcast_unit_apply, broadcastInDim_constantI, broadcastInDim_constantI]
  rfl

end Words

section Gather
variable {α : Type}

/-- THE GATHER OF WHOLE COLUMNS AT `(r, k, j)` WITH NORMALISED INDICES: row `r` of the operand at the column the
    table's word selects — wrapped, read signed, clamped into the axis: `Cert.Spec.col`. -/
theorem gather_wrapped_apply {R N Jp : ℕ} (hN : 0 < N)
    (wf : GatherDims.WF ⟨2, ![R, N]⟩ ⟨3, ![25, Jp, 1]⟩ ⟨3, ![R, 25, Jp]⟩ [0] [1] [] [1] [] 2 ![R, 1])
    (x : (⟨2, ![R, N]⟩ : Shape).Idx → α) (idx : IVec ⟨3, ![25, Jp, 1]⟩ 32) (w : BitVec 32)
    (r : Fin R) (k : Fin 25) (j : Fin Jp) (hw : idx (ix3 k j (0 : Fin 1)) = Cert.Spec.wrap N w) :
    Host.gather (Cert.RefValue.rowGatherDims R N 25 Jp wf) x idx (ix3 r k j) = x (ix2 r (Cert.Spec.col hN w)) := by
  rw [Cert.RefValue.gather_rows_apply hN wf x idx r k j]
  refine congrArg x (congrArg (ix2 r) (Fin.ext ?_))
  show min (idx (ix3 k j (0 : Fin 1))).toInt.toNat (N - 1) = Cert.Spec.colNat N w
  rw [hw]
  rfl

end Gather

section AtIdeal

/-- The padding value of the float pads: the integer zero converted is the float zero. -/
theorem sitofp_zero_apply (i : (⟨0, ![]⟩ : Shape).Idx) :
    (sitofp (F := Ideal) .f32 (constantI ⟨0, ![]⟩ 32 0#32) : FVec Ideal ⟨0, ![]⟩ .f32) i = (0 : EReal) := by
  show ((((0#32 : BitVec 32).toInt : ℤ) : ℝ) : EReal) = 0
  simp

end AtIdeal

end Cert.KernelIdeal.KVal

end
-- ==== Proof.KEntry0.lean ====
/-
  WHAT THE FIRST LAYER FINDS IN ITS THREE INPUT ARRAYS.

  Before the first layer runs, the host operations take the last time step's rows of the input (a slice along the time
  axis and a reshape to `[32, 14400]`), transpose the table and the weights to `[25, 7200]`, pad table, weights and
  bias on the right of the column axis to 7680 columns (the table with the word 0, the others with the float 0),
  normalise the table's words as indices into the 14400 input columns, and gather whole columns of the rows at them.
  Read at an index, the three arrays are: the gathered array `g[r, k, j] = x[r, 19, col(tbl[k, j])]`, the padded
  weights and the padded bias, in the specification's words (`Cert.Spec.lastStep`, `col`, `padTbl`, `padWt`,
  `padBias`).
-/
import proofs.«427585_j58162447123130_3_alg».proof.Proof.Gen.KernelIdeal.Frame
import proofs.«427585_j58162447123130_3_alg».proof.Proof.KEntryLib

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem

/-- A buffer none of the stretch's operations writes holds after it what it held before. -/
local macro "keeps " h:ident : tactic => `(tactic| (
  refine StableHlo.after_of_forall_not_mem _ _ (List.forall_iff_forall_mem.mp ?_)
  simp only [$h:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! The layer's own auxiliary statements live in a namespace of their own: the other layers' modules state theirs under the
    same names. -/
namespace Entry0

/-! ## Each stretch of host operations, from any contents `W` -/

section Stretches
variable (W : Valuation τ sig (Elt Ideal))

theorem s0_v1 :
    (StableHlo.after (hostOps0 (F := Ideal)) W (Proc.devRef .tc main_v1) : S32x14400.Idx → EReal)
      = shapeCast S32x14400 (extractStridedSlice S32x1x14400 ![0, 19, 0] (W (Proc.devRef .tc main_arg0) : S32x20x14400.Idx → EReal)
          slices_S32x20x14400_S32x1x14400_0_19_0) shapeCasts_S32x1x14400_S32x14400 := by
  after_results
  rfl

theorem s0_v2 :
    (StableHlo.after (hostOps0 (F := Ideal)) W (Proc.devRef .tc main_v2) : S25x7200.Idx → BitVec 32)
      = transpose S25x7200 [1, 0] (W (Proc.devRef .tc main_arg13) : S7200x25.Idx → BitVec 32) transposes_S7200x25_S25x7200_1_0 := by
  after_results

theorem s0_v3 :
    (StableHlo.after (hostOps0 (F := Ideal)) W (Proc.devRef .tc main_v3) : S25x7200.Idx → EReal)
      = transpose S25x7200 [1, 0] (W (Proc.devRef .tc main_arg1) : S7200x25.Idx → EReal) transposes_S7200x25_S25x7200_1_0 := by
  after_results

theorem s0_c :
    (StableHlo.after (hostOps0 (F := Ideal)) W (Proc.devRef .tc main_c) : S_.Idx → BitVec 32) = constantI S_ 32 0#32 := by
  after_results

theorem s1_v4 :
    (StableHlo.after (hostOps0_1 (F := Ideal)) W (Proc.devRef .tc main_v4) : S25x7680.Idx → BitVec 32)
      = pad S25x7680 ![0, 0] ![0, 480] ![0, 0] (W (Proc.devRef .tc main_v2) : S25x7200.Idx → BitVec 32)
          (W (Proc.devRef .tc main_c) : S_.Idx → BitVec 32) pads_S25x7200_S25x7680_000_04800 h_S_ := by
  after_results
  rfl

theorem s2_c :
    (StableHlo.after (hostOps0_2 (F := Ideal)) W (Proc.devRef .tc main_c_0) : S_.Idx → BitVec 32) = constantI S_ 32 0#32 := by
  after_results

theorem s3_v5 :
    (StableHlo.after (hostOps0_3 (F := Ideal)) W (Proc.devRef .tc main_v5) : S25x7680.Idx → EReal)
      = pad S25x7680 ![0, 0] ![0, 480] ![0, 0] (W (Proc.devRef .tc main_v3) : S25x7200.Idx → EReal)
          (sitofp (F := Ideal) .f32 (W (Proc.devRef .tc main_c_0) : S_.Idx → BitVec 32)) pads_S25x7200_S25x7680_000_04800 h_S_ := by
  after_results
  rfl

theorem s4_c :
    (StableHlo.after (hostOps0_4 (F := Ideal)) W (Proc.devRef .tc main_c_1) : S_.Idx → BitVec 32) = constantI S_ 32 0#32 := by
  after_results

theorem s5_v6 :
    (StableHlo.after (hostOps0_5 (F := Ideal)) W (Proc.devRef .tc main_v6) : S1x7680.Idx → EReal)
      = pad S1x7680 ![0, 0] ![0, 480] ![0, 0] (W (Proc.devRef .tc main_arg6) : S1x7200.Idx → EReal)
          (sitofp (F := Ideal) .f32 (W (Proc.devRef .tc main_c_1) : S_.Idx → BitVec 32)) pads_S1x7200_S1x7680_000_04800 h_S_ := by
  after_results
  rfl

set_option maxHeartbeats 1000000 in
theorem s6_v13 :
    (StableHlo.after (hostOps0_6 (F := Ideal)) W (Proc.devRef .tc main_v13) : S32x25x7680.Idx → EReal)
      = Host.gather gather_S32x14400_S25x7680x1_S32x25x7680_0_1_n_n_1_2_321 (W (Proc.devRef .tc main_v1) : S32x14400.Idx → EReal)
          (broadcastInDim S25x7680x1 ![0, 1] bcast_S25x7680_S25x7680x1_0_1
            (select (cmpi .slt (W (Proc.devRef .tc main_v4) : S25x7680.Idx → BitVec 32)
                (broadcastInDim S25x7680 ![] bcast_S_S25x7680 (constantI S_ 32 0#32)))
              (addi (W (Proc.devRef .tc main_v4) : S25x7680.Idx → BitVec 32)
                (broadcastInDim S25x7680 ![] bcast_S_S25x7680 (constantI S_ 32 14400#32)))
              (W (Proc.devRef .tc main_v4) : S25x7680.Idx → BitVec 32))) := by
  after_results_simp

end Stretches

variable (m : (ℓ : Loc nD τ sig) → Buf (Elt Ideal) ℓ) (ρ : Dev nD → PrngReg)

/-! ## The arrays the gather and the layer read, as functions of the launch memory -/

/-- The last time step's rows, when the gather reads them. -/
theorem rows_val (c : Dev nD) :
    (W6 (F := Ideal) m ρ c (Proc.devRef .tc main_v1) : S32x14400.Idx → EReal)
      = shapeCast S32x14400 (extractStridedSlice S32x1x14400 ![0, 19, 0] (m ((c : Thread nD τ).loc main_arg0) : S32x20x14400.Idx → EReal)
          slices_S32x20x14400_S32x1x14400_0_19_0) shapeCasts_S32x1x14400_S32x14400 := by
  have e5 : W6 (F := Ideal) m ρ c (Proc.devRef .tc main_v1) = W5 m ρ c (Proc.devRef .tc main_v1) := by keeps hostOps0_5
  have e4 : W5 (F := Ideal) m ρ c (Proc.devRef .tc main_v1) = W4 m ρ c (Proc.devRef .tc main_v1) := by keeps hostOps0_4
  have e3 : W4 (F := Ideal) m ρ c (Proc.devRef .tc main_v1) = W3 m ρ c (Proc.devRef .tc main_v1) := by keeps hostOps0_3
  have e2 : W3 (F := Ideal) m ρ c (Proc.devRef .tc main_v1) = W2 m ρ c (Proc.devRef .tc main_v1) := by keeps hostOps0_2
  have e1 : W2 (F := Ideal) m ρ c (Proc.devRef .tc main_v1) = W1 m ρ c (Proc.devRef .tc main_v1) := by keeps hostOps0_1
  exact e5.trans (e4.trans (e3.trans (e2.trans (e1.trans (s0_v1 (W0 m ρ c))))))

/-- The padded table, when the index normalisation reads it. -/
theorem tbl_val (c : Dev nD) :
    (W6 (F := Ideal) m ρ c (Proc.devRef .tc main_v4) : S25x7680.Idx → BitVec 32)
      = pad S25x7680 ![0, 0] ![0, 480] ![0, 0]
          (transpose S25x7200 [1, 0] (m ((c : Thread nD τ).loc main_arg13) : S7200x25.Idx → BitVec 32) transposes_S7200x25_S25x7200_1_0)
          (constantI S_ 32 0#32) pads_S25x7200_S25x7680_000_04800 h_S_ := by
  have e5 : W6 (F := Ideal) m ρ c (Proc.devRef .tc main_v4) = W5 m ρ c (Proc.devRef .tc main_v4) := by keeps hostOps0_5
  have e4 : W5 (F := Ideal) m ρ c (Proc.devRef .tc main_v4) = W4 m ρ c (Proc.devRef .tc main_v4) := by keeps hostOps0_4
  have e3 : W4 (F := Ideal) m ρ c (Proc.devRef .tc main_v4) = W3 m ρ c (Proc.devRef .tc main_v4) := by keeps hostOps0_3
  have e2 : W3 (F := Ideal) m ρ c (Proc.devRef .tc main_v4) = W2 m ρ c (Proc.devRef .tc main_v4) := by keeps hostOps0_2
  refine e5.trans (e4.trans (e3.trans (e2.trans ((s1_v4 (W1 m ρ c)).trans ?_))))
  exact congrArg₂ (fun x v => pad S25x7680 ![0, 0] ![0, 480] ![0, 0] x v pads_S25x7200_S25x7680_000_04800 h_S_)
    (s0_v2 (W0 m ρ c)) (s0_c (W0 m ρ c))

/-- The padded weights, as the layer finds them. -/
theorem wt_val (c : Dev nD) :
    (W7 (F := Ideal) m ρ c (Proc.devRef .tc main_v5) : S25x7680.Idx → EReal)
      = pad S25x7680 ![0, 0] ![0, 480] ![0, 0]
          (transpose S25x7200 [1, 0] (m ((c : Thread nD τ).loc main_arg1) : S7200x25.Idx → EReal) transposes_S7200x25_S25x7200_1_0)
          (sitofp (F := Ideal) .f32 (constantI S_ 32 0#32)) pads_S25x7200_S25x7680_000_04800 h_S_ := by
  have e6 : W7 (F := Ideal) m ρ c (Proc.devRef .tc main_v5) = W6 m ρ c (Proc.devRef .tc main_v5) := by keeps hostOps0_6
  have e5 : W6 (F := Ideal) m ρ c (Proc.devRef .tc main_v5) = W5 m ρ c (Proc.devRef .tc main_v5) := by keeps hostOps0_5
  have e4 : W5 (F := Ideal) m ρ c (Proc.devRef .tc main_v5) = W4 m ρ c (Proc.devRef .tc main_v5) := by keeps hostOps0_4
  have a2 : W3 (F := Ideal) m ρ c (Proc.devRef .tc main_v3) = W2 m ρ c (Proc.devRef .tc main_v3) := by keeps hostOps0_2
  have a1 : W2 (F := Ideal) m ρ c (Proc.devRef .tc main_v3) = W1 m ρ c (Proc.devRef .tc main_v3) := by keeps hostOps0_1
  refine e6.trans (e5.trans (e4.trans ((s3_v5 (W3 m ρ c)).trans ?_)))
  exact congrArg₂ (fun x (v : S_.Idx → BitVec 32) => pad S25x7680 ![0, 0] ![0, 480] ![0, 0] x (sitofp (F := Ideal) .f32 v) pads_S25x7200_S25x7680_000_04800 h_S_)
    (a2.trans (a1.trans (s0_v3 (W0 m ρ c)))) (s2_c (W2 m ρ c))

/-- The padded bias, as the layer finds it. -/
theorem bias_val (c : Dev nD) :
    (W7 (F := Ideal) m ρ c (Proc.devRef .tc main_v6) : S1x7680.Idx → EReal)
      = pad S1x7680 ![0, 0] ![0, 480] ![0, 0] (m ((c : Thread nD τ).loc main_arg6) : S1x7200.Idx → EReal)
          (sitofp (F := Ideal) .f32 (constantI S_ 32 0#32)) pads_S1x7200_S1x7680_000_04800 h_S_ := by
  have e6 : W7 (F := Ideal) m ρ c (Proc.devRef .tc main_v6) = W6 m ρ c (Proc.devRef .tc main_v6) := by keeps hostOps0_6
  have a4 : W5 (F := Ideal) m ρ c (Proc.devRef .tc main_arg6) = W4 m ρ c (Proc.devRef .tc main_arg6) := by keeps hostOps0_4
  have a3 : W4 (F := Ideal) m ρ c (Proc.devRef .tc main_arg6) = W3 m ρ c (Proc.devRef .tc main_arg6) := by keeps hostOps0_3
  have a2 : W3 (F := Ideal) m ρ c (Proc.devRef .tc main_arg6) = W2 m ρ c (Proc.devRef .tc main_arg6) := by keeps hostOps0_2
  have a1 : W2 (F := Ideal) m ρ c (Proc.devRef .tc main_arg6) = W1 m ρ c (Proc.devRef .tc main_arg6) := by keeps hostOps0_1
  have a0 : W1 (F := Ideal) m ρ c (Proc.devRef .tc main_arg6) = W0 m ρ c (Proc.devRef .tc main_arg6) := by keeps hostOps0
  refine e6.trans ((s5_v6 (W5 m ρ c)).trans ?_)
  exact congrArg₂ (fun (x : S1x7200.Idx → EReal) (v : S_.Idx → BitVec 32) => pad S1x7680 ![0, 0] ![0, 480] ![0, 0] x (sitofp (F := Ideal) .f32 v) pads_S1x7200_S1x7680_000_04800 h_S_)
    (a4.trans (a3.trans (a2.trans (a1.trans a0)))) (s4_c (W4 m ρ c))

/-! ## Read at an index -/

/-- The rows at `(r, n)`: the input at the last time step. -/
theorem rows_apply (c : Dev nD) (r : Fin 32) (n : Fin 14400) :
    (W6 (F := Ideal) m ρ c (Proc.devRef .tc main_v1) : S32x14400.Idx → EReal) (ix2 r n)
      = Cert.Spec.lastStep (m ((c : Thread nD τ).loc main_arg0)) (ix2 r n) := by
  refine (congrFun (rows_val m ρ c) (ix2 r n)).trans ?_
  refine (shapeCast_a1b_ab_apply _ _ r n).trans ?_
  exact slice3_axis1_apply 19 _ _ r (0 : Fin 1) n (19 : Fin 20) rfl

/-- The padded table at `(k, j)`. -/
theorem tbl_apply (c : Dev nD) (k : Fin 25) (j : Fin 7680) :
    (W6 (F := Ideal) m ρ c (Proc.devRef .tc main_v4) : S25x7680.Idx → BitVec 32) (ix2 k j)
      = Cert.Spec.padTbl 7680 (m ((c : Thread nD τ).loc main_arg13)) k j := by
  refine (congrFun (tbl_val m ρ c) (ix2 k j)).trans ?_
  refine (pad_cols_apply _ _ _ _ _ k j).trans ?_
  unfold Cert.Spec.padTbl
  by_cases hj : j.val < 7200
  · rw [dif_pos hj, dif_pos hj]; exact transpose_ix2_apply _ _ _ _
  · rw [dif_neg hj, dif_neg hj]; rfl

end Entry0

open Entry0

variable (m : (ℓ : Loc nD τ sig) → Buf (Elt Ideal) ℓ) (ρ : Dev nD → PrngReg)

/-! ## What the layer finds -/

/-- THE GATHERED ARRAY: `g[r, k, j]` is the last time step's row `r` at the column the padded table's word
    `(k, j)` selects. -/
theorem entry0_g (c : Dev nD) (i : S32x25x7680.Idx) :
    Cert.Spec.rdF (S := S32x25x7680) (V7 (F := Ideal) m ρ c main_v13) i
      = Cert.Spec.lastStep (m ((c : Thread nD τ).loc main_arg0))
          (ix2 (i 0) (Cert.Spec.col (n := 14400) (by norm_num) (Cert.Spec.padTbl 7680 (m ((c : Thread nD τ).loc main_arg13)) (i 1) (i 2)))) := by
  obtain ⟨r, k, j, rfl⟩ : ∃ (r : Fin 32) (k : Fin 25) (j : Fin 7680), i = ix3 r k j := ⟨i 0, i 1, i 2, eq_ix3 i⟩
  show (W7 (F := Ideal) m ρ c (Proc.devRef .tc main_v13) : S32x25x7680.Idx → EReal) (ix3 r k j)
      = Cert.Spec.lastStep (m ((c : Thread nD τ).loc main_arg0))
          (ix2 r (Cert.Spec.col (n := 14400) (by norm_num) (Cert.Spec.padTbl 7680 (m ((c : Thread nD τ).loc main_arg13)) k j)))
  refine (congrFun (s6_v13 (W6 m ρ c)) (ix3 r k j)).trans ?_
  refine (gather_wrapped_apply (by norm_num) _ _ _ (Cert.Spec.padTbl 7680 (m ((c : Thread nD τ).loc main_arg13)) k j) r k j ?_).trans ?_
  · refine (wrapped_apply _ _ _ _ k j).trans ?_
    exact congrArg (Cert.Spec.wrap 14400) (tbl_apply m ρ c k j)
  · exact rows_apply m ρ c r _

/-- THE WEIGHTS, transposed and padded. -/
theorem entry0_w (c : Dev nD) (i : S25x7680.Idx) :
    Cert.Spec.rdF (S := S25x7680) (V7 (F := Ideal) m ρ c main_v5) i
      = Cert.Spec.padWt 7680 (m ((c : Thread nD τ).loc main_arg1)) (i 0) (i 1) := by
  obtain ⟨k, j, rfl⟩ : ∃ (k : Fin 25) (j : Fin 7680), i = ix2 k j := ⟨i 0, i 1, eq_ix2 i⟩
  show (W7 (F := Ideal) m ρ c (Proc.devRef .tc main_v5) : S25x7680.Idx → EReal) (ix2 k j)
      = Cert.Spec.padWt 7680 (m ((c : Thread nD τ).loc main_arg1)) k j
  refine (congrFun (wt_val m ρ c) (ix2 k j)).trans ?_
  refine (pad_cols_apply _ _ _ _ _ k j).trans ?_
  unfold Cert.Spec.padWt
  by_cases hj : j.val < 7200
  · rw [dif_pos hj, dif_pos hj]; exact transpose_ix2_apply _ _ _ _
  · rw [dif_neg hj, dif_neg hj]; exact sitofp_zero_apply _

/-- THE BIAS, padded. -/
theorem entry0_b (c : Dev nD) (i : S1x7680.Idx) :
    Cert.Spec.rdF (S := S1x7680) (V7 (F := Ideal) m ρ c main_v6) i
      = Cert.Spec.padBias 7680 (m ((c : Thread nD τ).loc main_arg6)) (i 1) := by
  obtain ⟨k, j, rfl⟩ : ∃ (k : Fin 1) (j : Fin 7680), i = ix2 k j := ⟨i 0, i 1, eq_ix2 i⟩
  obtain rfl : k = 0 := Subsingleton.elim _ _
  show (W7 (F := Ideal) m ρ c (Proc.devRef .tc main_v6) : S1x7680.Idx → EReal) (ix2 (0 : Fin 1) j)
      = Cert.Spec.padBias 7680 (m ((c : Thread nD τ).loc main_arg6)) j
  refine (congrFun (bias_val m ρ c) (ix2 (0 : Fin 1) j)).trans ?_
  refine (pad_cols_apply _ _ _ _ _ (0 : Fin 1) j).trans ?_
  unfold Cert.Spec.padBias
  by_cases hj : j.val < 7200
  · rw [dif_pos hj, dif_pos hj]
  · rw [dif_neg hj, dif_neg hj]; exact sitofp_zero_apply _

end Cert.KernelIdeal.KVal

end
-- ==== Proof.KEntry1.lean ====
/-
  WHAT THE SECOND LAYER FINDS IN ITS THREE INPUT ARRAYS.

  Between the first layer and the second, the host operations transpose the table and the weights to `[25, 3600]`, pad
  table, weights and bias on the right of the column axis to 4096 columns (the table with the word 0, the others with
  the float 0), normalise the table's words as indices into the 7680 columns of the previous layer's padded output, and
  gather whole columns of that output at them. Read at an index, the three arrays are: the gathered array
  `g[r, k, j] = prev[r, col(tbl[k, j])]` with `prev` the previous layer's output as it was left, the padded weights and
  the padded bias, in the specification's words (`Cert.Spec.col`, `padTbl`, `padWt`, `padBias`).
-/
import proofs.«427585_j58162447123130_3_alg».proof.Proof.Gen.KernelIdeal.Frame
import proofs.«427585_j58162447123130_3_alg».proof.Proof.KEntryLib
import proofs.«427585_j58162447123130_3_alg».proof.Proof.KArgs

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem

/-- A buffer none of the stretch's operations writes holds after it what it held before. -/
local macro "keeps " h:ident : tactic => `(tactic| (
  refine StableHlo.after_of_forall_not_mem _ _ (List.forall_iff_forall_mem.mp ?_)
  simp only [$h:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! The layer's own auxiliary statements live in a namespace of their own: the other layers' modules state theirs under the
    same names. -/
namespace Entry1

/-! ## Each stretch of host operations, from any contents `W` -/

section Stretches
variable (W : Valuation τ sig (Elt Ideal))

theorem s0_tbl :
    (StableHlo.after (hostOps1 (F := Ideal)) W (Proc.devRef .tc main_v15) : S25x3600.Idx → BitVec 32)
      = transpose S25x3600 [1, 0] (W (Proc.devRef .tc main_arg14) : S3600x25.Idx → BitVec 32) transposes_S3600x25_S25x3600_1_0 := by
  after_results

theorem s0_wt :
    (StableHlo.after (hostOps1 (F := Ideal)) W (Proc.devRef .tc main_v16) : S25x3600.Idx → EReal)
      = transpose S25x3600 [1, 0] (W (Proc.devRef .tc main_arg2) : S3600x25.Idx → EReal) transposes_S3600x25_S25x3600_1_0 := by
  after_results

theorem s0_c :
    (StableHlo.after (hostOps1 (F := Ideal)) W (Proc.devRef .tc main_c_4) : S_.Idx → BitVec 32) = constantI S_ 32 0#32 := by
  after_results

theorem s1_tbl :
    (StableHlo.after (hostOps1_1 (F := Ideal)) W (Proc.devRef .tc main_v17) : S25x4096.Idx → BitVec 32)
      = pad S25x4096 ![0, 0] ![0, 496] ![0, 0] (W (Proc.devRef .tc main_v15) : S25x3600.Idx → BitVec 32)
          (W (Proc.devRef .tc main_c_4) : S_.Idx → BitVec 32) pads_S25x3600_S25x4096_000_04960 h_S_ := by
  after_results
  rfl

theorem s2_c :
    (StableHlo.after (hostOps1_2 (F := Ideal)) W (Proc.devRef .tc main_c_5) : S_.Idx → BitVec 32) = constantI S_ 32 0#32 := by
  after_results

theorem s3_wt :
    (StableHlo.after (hostOps1_3 (F := Ideal)) W (Proc.devRef .tc main_v18) : S25x4096.Idx → EReal)
      = pad S25x4096 ![0, 0] ![0, 496] ![0, 0] (W (Proc.devRef .tc main_v16) : S25x3600.Idx → EReal)
          (sitofp (F := Ideal) .f32 (W (Proc.devRef .tc main_c_5) : S_.Idx → BitVec 32)) pads_S25x3600_S25x4096_000_04960 h_S_ := by
  after_results
  rfl

theorem s4_c :
    (StableHlo.after (hostOps1_4 (F := Ideal)) W (Proc.devRef .tc main_c_6) : S_.Idx → BitVec 32) = constantI S_ 32 0#32 := by
  after_results

theorem s5_bias :
    (StableHlo.after (hostOps1_5 (F := Ideal)) W (Proc.devRef .tc main_v19) : S1x4096.Idx → EReal)
      = pad S1x4096 ![0, 0] ![0, 496] ![0, 0] (W (Proc.devRef .tc main_arg7) : S1x3600.Idx → EReal)
          (sitofp (F := Ideal) .f32 (W (Proc.devRef .tc main_c_6) : S_.Idx → BitVec 32)) pads_S1x3600_S1x4096_000_04960 h_S_ := by
  after_results
  rfl

set_option maxHeartbeats 1000000 in
theorem s6_g :
    (StableHlo.after (hostOps1_6 (F := Ideal)) W (Proc.devRef .tc main_v26) : S32x25x4096.Idx → EReal)
      = Host.gather gather_S32x7680_S25x4096x1_S32x25x4096_0_1_n_n_1_2_321 (W (Proc.devRef .tc main_v14) : S32x7680.Idx → EReal)
          (broadcastInDim S25x4096x1 ![0, 1] bcast_S25x4096_S25x4096x1_0_1
            (select (cmpi .slt (W (Proc.devRef .tc main_v17) : S25x4096.Idx → BitVec 32)
                (broadcastInDim S25x4096 ![] bcast_S_S25x4096 (constantI S_ 32 0#32)))
              (addi (W (Proc.devRef .tc main_v17) : S25x4096.Idx → BitVec 32)
                (broadcastInDim S25x4096 ![] bcast_S_S25x4096 (constantI S_ 32 7680#32)))
              (W (Proc.devRef .tc main_v17) : S25x4096.Idx → BitVec 32))) := by
  after_results_simp

end Stretches

variable (m : (ℓ : Loc nD τ sig) → Buf (Elt Ideal) ℓ) (ρ : Dev nD → PrngReg)

/-! ## The arrays the gather and the layer read, as functions of the launch memory and the previous output -/

/-- The previous layer's output, when the gather reads it, is as that layer left it: no host operation writes it. -/
theorem prev_val (c : Dev nD) :
    W14 (F := Ideal) m ρ c (Proc.devRef .tc main_v14) = W8 m ρ c (Proc.devRef .tc main_v14) := by
  have e5 : W14 (F := Ideal) m ρ c (Proc.devRef .tc main_v14) = W13 m ρ c (Proc.devRef .tc main_v14) := by keeps hostOps1_5
  have e4 : W13 (F := Ideal) m ρ c (Proc.devRef .tc main_v14) = W12 m ρ c (Proc.devRef .tc main_v14) := by keeps hostOps1_4
  have e3 : W12 (F := Ideal) m ρ c (Proc.devRef .tc main_v14) = W11 m ρ c (Proc.devRef .tc main_v14) := by keeps hostOps1_3
  have e2 : W11 (F := Ideal) m ρ c (Proc.devRef .tc main_v14) = W10 m ρ c (Proc.devRef .tc main_v14) := by keeps hostOps1_2
  have e1 : W10 (F := Ideal) m ρ c (Proc.devRef .tc main_v14) = W9 m ρ c (Proc.devRef .tc main_v14) := by keeps hostOps1_1
  have e0 : W9 (F := Ideal) m ρ c (Proc.devRef .tc main_v14) = W8 m ρ c (Proc.devRef .tc main_v14) := by keeps hostOps1
  exact e5.trans (e4.trans (e3.trans (e2.trans (e1.trans e0))))

/-- The padded table, when the index normalisation reads it. -/
theorem tbl_val (c : Dev nD) :
    (W14 (F := Ideal) m ρ c (Proc.devRef .tc main_v17) : S25x4096.Idx → BitVec 32)
      = pad S25x4096 ![0, 0] ![0, 496] ![0, 0]
          (transpose S25x3600 [1, 0] (m ((c : Thread nD τ).loc main_arg14) : S3600x25.Idx → BitVec 32) transposes_S3600x25_S25x3600_1_0)
          (constantI S_ 32 0#32) pads_S25x3600_S25x4096_000_04960 h_S_ := by
  have e5 : W14 (F := Ideal) m ρ c (Proc.devRef .tc main_v17) = W13 m ρ c (Proc.devRef .tc main_v17) := by keeps hostOps1_5
  have e4 : W13 (F := Ideal) m ρ c (Proc.devRef .tc main_v17) = W12 m ρ c (Proc.devRef .tc main_v17) := by keeps hostOps1_4
  have e3 : W12 (F := Ideal) m ρ c (Proc.devRef .tc main_v17) = W11 m ρ c (Proc.devRef .tc main_v17) := by keeps hostOps1_3
  have e2 : W11 (F := Ideal) m ρ c (Proc.devRef .tc main_v17) = W10 m ρ c (Proc.devRef .tc main_v17) := by keeps hostOps1_2
  refine e5.trans (e4.trans (e3.trans (e2.trans ((s1_tbl (W9 m ρ c)).trans ?_))))
  exact congrArg₂ (fun x v => pad S25x4096 ![0, 0] ![0, 496] ![0, 0] x v pads_S25x3600_S25x4096_000_04960 h_S_)
    ((s0_tbl (W8 m ρ c)).trans (congrArg (fun a : S3600x25.Idx → BitVec 32 => transpose S25x3600 [1, 0] a transposes_S3600x25_S25x3600_1_0) (W8_main_arg14 m ρ c)))
    (s0_c (W8 m ρ c))

/-- The padded weights, as the layer finds them. -/
theorem wt_val (c : Dev nD) :
    (W15 (F := Ideal) m ρ c (Proc.devRef .tc main_v18) : S25x4096.Idx → EReal)
      = pad S25x4096 ![0, 0] ![0, 496] ![0, 0]
          (transpose S25x3600 [1, 0] (m ((c : Thread nD τ).loc main_arg2) : S3600x25.Idx → EReal) transposes_S3600x25_S25x3600_1_0)
          (sitofp (F := Ideal) .f32 (constantI S_ 32 0#32)) pads_S25x3600_S25x4096_000_04960 h_S_ := by
  have e6 : W15 (F := Ideal) m ρ c (Proc.devRef .tc main_v18) = W14 m ρ c (Proc.devRef .tc main_v18) := by keeps hostOps1_6
  have e5 : W14 (F := Ideal) m ρ c (Proc.devRef .tc main_v18) = W13 m ρ c (Proc.devRef .tc main_v18) := by keeps hostOps1_5
  have e4 : W13 (F := Ideal) m ρ c (Proc.devRef .tc main_v18) = W12 m ρ c (Proc.devRef .tc main_v18) := by keeps hostOps1_4
  have a2 : W11 (F := Ideal) m ρ c (Proc.devRef .tc main_v16) = W10 m ρ c (Proc.devRef .tc main_v16) := by keeps hostOps1_2
  have a1 : W10 (F := Ideal) m ρ c (Proc.devRef .tc main_v16) = W9 m ρ c (Proc.devRef .tc main_v16) := by keeps hostOps1_1
  refine e6.trans (e5.trans (e4.trans ((s3_wt (W11 m ρ c)).trans ?_)))
  exact congrArg₂ (fun x (v : S_.Idx → BitVec 32) => pad S25x4096 ![0, 0] ![0, 496] ![0, 0] x (sitofp (F := Ideal) .f32 v) pads_S25x3600_S25x4096_000_04960 h_S_)
    (a2.trans (a1.trans ((s0_wt (W8 m ρ c)).trans (congrArg (fun a : S3600x25.Idx → EReal => transpose S25x3600 [1, 0] a transposes_S3600x25_S25x3600_1_0) (W8_main_arg2 m ρ c)))))
    (s2_c (W10 m ρ c))

/-- The padded bias, as the layer finds it. -/
theorem bias_val (c : Dev nD) :
    (W15 (F := Ideal) m ρ c (Proc.devRef .tc main_v19) : S1x4096.Idx → EReal)
      = pad S1x4096 ![0, 0] ![0, 496] ![0, 0] (m ((c : Thread nD τ).loc main_arg7) : S1x3600.Idx → EReal)
          (sitofp (F := Ideal) .f32 (constantI S_ 32 0#32)) pads_S1x3600_S1x4096_000_04960 h_S_ := by
  have e6 : W15 (F := Ideal) m ρ c (Proc.devRef .tc main_v19) = W14 m ρ c (Proc.devRef .tc main_v19) := by keeps hostOps1_6
  refine e6.trans ((s5_bias (W13 m ρ c)).trans ?_)
  exact congrArg₂ (fun (x : S1x3600.Idx → EReal) (v : S_.Idx → BitVec 32) => pad S1x4096 ![0, 0] ![0, 496] ![0, 0] x (sitofp (F := Ideal) .f32 v) pads_S1x3600_S1x4096_000_04960 h_S_)
    (W13_main_arg7 m ρ c) (s4_c (W12 m ρ c))

/-! ## Read at an index -/

/-- The padded table at `(k, j)`. -/
theorem tbl_apply (c : Dev nD) (k : Fin 25) (j : Fin 4096) :
    (W14 (F := Ideal) m ρ c (Proc.devRef .tc main_v17) : S25x4096.Idx → BitVec 32) (ix2 k j)
      = Cert.Spec.padTbl 4096 (m ((c : Thread nD τ).loc main_arg14)) k j := by
  refine (congrFun (tbl_val m ρ c) (ix2 k j)).trans ?_
  refine (pad_cols_apply _ _ _ _ _ k j).trans ?_
  unfold Cert.Spec.padTbl
  by_cases hj : j.val < 3600
  · rw [dif_pos hj, dif_pos hj]; exact transpose_ix2_apply _ _ _ _
  · rw [dif_neg hj, dif_neg hj]; rfl

end Entry1

open Entry1

variable (m : (ℓ : Loc nD τ sig) → Buf (Elt Ideal) ℓ) (ρ : Dev nD → PrngReg)

/-! ## What the layer finds -/

/-- THE GATHERED ARRAY: `g[r, k, j]` is the previous output's row `r` at the column the padded table's word `(k, j)`
    selects. -/
theorem entry1_g (c : Dev nD) (i : S32x25x4096.Idx) :
    Cert.Spec.rdF (S := S32x25x4096) (V15 (F := Ideal) m ρ c main_v26) i
      = Cert.Spec.rdF (S := S32x7680) (V8 (F := Ideal) m ρ c main_v14)
          (ix2 (i 0) (Cert.Spec.col (n := 7680) (by norm_num) (Cert.Spec.padTbl 4096 (m ((c : Thread nD τ).loc main_arg14)) (i 1) (i 2)))) := by
  obtain ⟨r, k, j, rfl⟩ : ∃ (r : Fin 32) (k : Fin 25) (j : Fin 4096), i = ix3 r k j := ⟨i 0, i 1, i 2, eq_ix3 i⟩
  show (W15 (F := Ideal) m ρ c (Proc.devRef .tc main_v26) : S32x25x4096.Idx → EReal) (ix3 r k j)
      = (W8 (F := Ideal) m ρ c (Proc.devRef .tc main_v14) : S32x7680.Idx → EReal)
          (ix2 r (Cert.Spec.col (n := 7680) (by norm_num) (Cert.Spec.padTbl 4096 (m ((c : Thread nD τ).loc main_arg14)) k j)))
  refine (congrFun (s6_g (W14 m ρ c)) (ix3 r k j)).trans ?_
  refine (gather_wrapped_apply (by norm_num) _ _ _ (Cert.Spec.padTbl 4096 (m ((c : Thread nD τ).loc main_arg14)) k j) r k j ?_).trans ?_
  · refine (wrapped_apply _ _ _ _ k j).trans ?_
    exact congrArg (Cert.Spec.wrap 7680) (tbl_apply m ρ c k j)
  · exact congrFun (prev_val m ρ c) _

/-- THE WEIGHTS, transposed and padded. -/
theorem entry1_w (c : Dev nD) (i : S25x4096.Idx) :
    Cert.Spec.rdF (S := S25x4096) (V15 (F := Ideal) m ρ c main_v18) i
      = Cert.Spec.padWt 4096 (m ((c : Thread nD τ).loc main_arg2)) (i 0) (i 1) := by
  obtain ⟨k, j, rfl⟩ : ∃ (k : Fin 25) (j : Fin 4096), i = ix2 k j := ⟨i 0, i 1, eq_ix2 i⟩
  show (W15 (F := Ideal) m ρ c (Proc.devRef .tc main_v18) : S25x4096.Idx → EReal) (ix2 k j)
      = Cert.Spec.padWt 4096 (m ((c : Thread nD τ).loc main_arg2)) k j
  refine (congrFun (wt_val m ρ c) (ix2 k j)).trans ?_
  refine (pad_cols_apply _ _ _ _ _ k j).trans ?_
  unfold Cert.Spec.padWt
  by_cases hj : j.val < 3600
  · rw [dif_pos hj, dif_pos hj]; exact transpose_ix2_apply _ _ _ _
  · rw [dif_neg hj, dif_neg hj]; exact sitofp_zero_apply _

/-- THE BIAS, padded. -/
theorem entry1_b (c : Dev nD) (i : S1x4096.Idx) :
    Cert.Spec.rdF (S := S1x4096) (V15 (F := Ideal) m ρ c main_v19) i
      = Cert.Spec.padBias 4096 (m ((c : Thread nD τ).loc main_arg7)) (i 1) := by
  obtain ⟨k, j, rfl⟩ : ∃ (k : Fin 1) (j : Fin 4096), i = ix2 k j := ⟨i 0, i 1, eq_ix2 i⟩
  obtain rfl : k = 0 := Subsingleton.elim _ _
  show (W15 (F := Ideal) m ρ c (Proc.devRef .tc main_v19) : S1x4096.Idx → EReal) (ix2 (0 : Fin 1) j)
      = Cert.Spec.padBias 4096 (m ((c : Thread nD τ).loc main_arg7)) j
  refine (congrFun (bias_val m ρ c) (ix2 (0 : Fin 1) j)).trans ?_
  refine (pad_cols_apply _ _ _ _ _ (0 : Fin 1) j).trans ?_
  unfold Cert.Spec.padBias
  by_cases hj : j.val < 3600
  · rw [dif_pos hj, dif_pos hj]
  · rw [dif_neg hj, dif_neg hj]; exact sitofp_zero_apply _

end Cert.KernelIdeal.KVal

end
-- ==== Proof.KEntry2.lean ====
/-
  WHAT THE THIRD LAYER FINDS IN ITS THREE INPUT ARRAYS.

  Between the second layer and the third, the host operations transpose the table and the weights to `[25, 1800]`, pad
  table, weights and bias on the right of the column axis to 2048 columns (the table with the word 0, the others with
  the float 0), normalise the table's words as indices into the 4096 columns of the previous layer's padded output, and
  gather whole columns of that output at them. Read at an index, the three arrays are: the gathered array
  `g[r, k, j] = prev[r, col(tbl[k, j])]` with `prev` the previous layer's output as it was left, the padded weights and
  the padded bias, in the specification's words (`Cert.Spec.col`, `padTbl`, `padWt`, `padBias`).
-/
import proofs.«427585_j58162447123130_3_alg».proof.Proof.Gen.KernelIdeal.Frame
import proofs.«427585_j58162447123130_3_alg».proof.Proof.KEntryLib
import proofs.«427585_j58162447123130_3_alg».proof.Proof.KArgs

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem

/-- A buffer none of the stretch's operations writes holds after it what it held before. -/
local macro "keeps " h:ident : tactic => `(tactic| (
  refine StableHlo.after_of_forall_not_mem _ _ (List.forall_iff_forall_mem.mp ?_)
  simp only [$h:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! The layer's own auxiliary statements live in a namespace of their own: the other layers' modules state theirs under the
    same names. -/
namespace Entry2

/-! ## Each stretch of host operations, from any contents `W` -/

section Stretches
variable (W : Valuation τ sig (Elt Ideal))

theorem s0_tbl :
    (StableHlo.after (hostOps2 (F := Ideal)) W (Proc.devRef .tc main_v28) : S25x1800.Idx → BitVec 32)
      = transpose S25x1800 [1, 0] (W (Proc.devRef .tc main_arg15) : S1800x25.Idx → BitVec 32) transposes_S1800x25_S25x1800_1_0 := by
  after_results

theorem s0_wt :
    (StableHlo.after (hostOps2 (F := Ideal)) W (Proc.devRef .tc main_v29) : S25x1800.Idx → EReal)
      = transpose S25x1800 [1, 0] (W (Proc.devRef .tc main_arg3) : S1800x25.Idx → EReal) transposes_S1800x25_S25x1800_1_0 := by
  after_results

theorem s0_c :
    (StableHlo.after (hostOps2 (F := Ideal)) W (Proc.devRef .tc main_c_9) : S_.Idx → BitVec 32) = constantI S_ 32 0#32 := by
  after_results

theorem s1_tbl :
    (StableHlo.after (hostOps2_1 (F := Ideal)) W (Proc.devRef .tc main_v30) : S25x2048.Idx → BitVec 32)
      = pad S25x2048 ![0, 0] ![0, 248] ![0, 0] (W (Proc.devRef .tc main_v28) : S25x1800.Idx → BitVec 32)
          (W (Proc.devRef .tc main_c_9) : S_.Idx → BitVec 32) pads_S25x1800_S25x2048_000_02480 h_S_ := by
  after_results
  rfl

theorem s2_c :
    (StableHlo.after (hostOps2_2 (F := Ideal)) W (Proc.devRef .tc main_c_10) : S_.Idx → BitVec 32) = constantI S_ 32 0#32 := by
  after_results

theorem s3_wt :
    (StableHlo.after (hostOps2_3 (F := Ideal)) W (Proc.devRef .tc main_v31) : S25x2048.Idx → EReal)
      = pad S25x2048 ![0, 0] ![0, 248] ![0, 0] (W (Proc.devRef .tc main_v29) : S25x1800.Idx → EReal)
          (sitofp (F := Ideal) .f32 (W (Proc.devRef .tc main_c_10) : S_.Idx → BitVec 32)) pads_S25x1800_S25x2048_000_02480 h_S_ := by
  after_results
  rfl

theorem s4_c :
    (StableHlo.after (hostOps2_4 (F := Ideal)) W (Proc.devRef .tc main_c_11) : S_.Idx → BitVec 32) = constantI S_ 32 0#32 := by
  after_results

theorem s5_bias :
    (StableHlo.after (hostOps2_5 (F := Ideal)) W (Proc.devRef .tc main_v32) : S1x2048.Idx → EReal)
      = pad S1x2048 ![0, 0] ![0, 248] ![0, 0] (W (Proc.devRef .tc main_arg8) : S1x1800.Idx → EReal)
          (sitofp (F := Ideal) .f32 (W (Proc.devRef .tc main_c_11) : S_.Idx → BitVec 32)) pads_S1x1800_S1x2048_000_02480 h_S_ := by
  after_results
  rfl

set_option maxHeartbeats 1000000 in
theorem s6_g :
    (StableHlo.after (hostOps2_6 (F := Ideal)) W (Proc.devRef .tc main_v39) : S32x25x2048.Idx → EReal)
      = Host.gather gather_S32x4096_S25x2048x1_S32x25x2048_0_1_n_n_1_2_321 (W (Proc.devRef .tc main_v27) : S32x4096.Idx → EReal)
          (broadcastInDim S25x2048x1 ![0, 1] bcast_S25x2048_S25x2048x1_0_1
            (select (cmpi .slt (W (Proc.devRef .tc main_v30) : S25x2048.Idx → BitVec 32)
                (broadcastInDim S25x2048 ![] bcast_S_S25x2048 (constantI S_ 32 0#32)))
              (addi (W (Proc.devRef .tc main_v30) : S25x2048.Idx → BitVec 32)
                (broadcastInDim S25x2048 ![] bcast_S_S25x2048 (constantI S_ 32 4096#32)))
              (W (Proc.devRef .tc main_v30) : S25x2048.Idx → BitVec 32))) := by
  after_results_simp

end Stretches

variable (m : (ℓ : Loc nD τ sig) → Buf (Elt Ideal) ℓ) (ρ : Dev nD → PrngReg)

/-! ## The arrays the gather and the layer read, as functions of the launch memory and the previous output -/

/-- The previous layer's output, when the gather reads it, is as that layer left it: no host operation writes it. -/
theorem prev_val (c : Dev nD) :
    W22 (F := Ideal) m ρ c (Proc.devRef .tc main_v27) = W16 m ρ c (Proc.devRef .tc main_v27) := by
  have e5 : W22 (F := Ideal) m ρ c (Proc.devRef .tc main_v27) = W21 m ρ c (Proc.devRef .tc main_v27) := by keeps hostOps2_5
  have e4 : W21 (F := Ideal) m ρ c (Proc.devRef .tc main_v27) = W20 m ρ c (Proc.devRef .tc main_v27) := by keeps hostOps2_4
  have e3 : W20 (F := Ideal) m ρ c (Proc.devRef .tc main_v27) = W19 m ρ c (Proc.devRef .tc main_v27) := by keeps hostOps2_3
  have e2 : W19 (F := Ideal) m ρ c (Proc.devRef .tc main_v27) = W18 m ρ c (Proc.devRef .tc main_v27) := by keeps hostOps2_2
  have e1 : W18 (F := Ideal) m ρ c (Proc.devRef .tc main_v27) = W17 m ρ c (Proc.devRef .tc main_v27) := by keeps hostOps2_1
  have e0 : W17 (F := Ideal) m ρ c (Proc.devRef .tc main_v27) = W16 m ρ c (Proc.devRef .tc main_v27) := by keeps hostOps2
  exact e5.trans (e4.trans (e3.trans (e2.trans (e1.trans e0))))

/-- The padded table, when the index normalisation reads it. -/
theorem tbl_val (c : Dev nD) :
    (W22 (F := Ideal) m ρ c (Proc.devRef .tc main_v30) : S25x2048.Idx → BitVec 32)
      = pad S25x2048 ![0, 0] ![0, 248] ![0, 0]
          (transpose S25x1800 [1, 0] (m ((c : Thread nD τ).loc main_arg15) : S1800x25.Idx → BitVec 32) transposes_S1800x25_S25x1800_1_0)
          (constantI S_ 32 0#32) pads_S25x1800_S25x2048_000_02480 h_S_ := by
  have e5 : W22 (F := Ideal) m ρ c (Proc.devRef .tc main_v30) = W21 m ρ c (Proc.devRef .tc main_v30) := by keeps hostOps2_5
  have e4 : W21 (F := Ideal) m ρ c (Proc.devRef .tc main_v30) = W20 m ρ c (Proc.devRef .tc main_v30) := by keeps hostOps2_4
  have e3 : W20 (F := Ideal) m ρ c (Proc.devRef .tc main_v30) = W19 m ρ c (Proc.devRef .tc main_v30) := by keeps hostOps2_3
  have e2 : W19 (F := Ideal) m ρ c (Proc.devRef .tc main_v30) = W18 m ρ c (Proc.devRef .tc main_v30) := by keeps hostOps2_2
  refine e5.trans (e4.trans (e3.trans (e2.trans ((s1_tbl (W17 m ρ c)).trans ?_))))
  exact congrArg₂ (fun x v => pad S25x2048 ![0, 0] ![0, 248] ![0, 0] x v pads_S25x1800_S25x2048_000_02480 h_S_)
    ((s0_tbl (W16 m ρ c)).trans (congrArg (fun a : S1800x25.Idx → BitVec 32 => transpose S25x1800 [1, 0] a transposes_S1800x25_S25x1800_1_0) (W16_main_arg15 m ρ c)))
    (s0_c (W16 m ρ c))

/-- The padded weights, as the layer finds them. -/
theorem wt_val (c : Dev nD) :
    (W23 (F := Ideal) m ρ c (Proc.devRef .tc main_v31) : S25x2048.Idx → EReal)
      = pad S25x2048 ![0, 0] ![0, 248] ![0, 0]
          (transpose S25x1800 [1, 0] (m ((c : Thread nD τ).loc main_arg3) : S1800x25.Idx → EReal) transposes_S1800x25_S25x1800_1_0)
          (sitofp (F := Ideal) .f32 (constantI S_ 32 0#32)) pads_S25x1800_S25x2048_000_02480 h_S_ := by
  have e6 : W23 (F := Ideal) m ρ c (Proc.devRef .tc main_v31) = W22 m ρ c (Proc.devRef .tc main_v31) := by keeps hostOps2_6
  have e5 : W22 (F := Ideal) m ρ c (Proc.devRef .tc main_v31) = W21 m ρ c (Proc.devRef .tc main_v31) := by keeps hostOps2_5
  have e4 : W21 (F := Ideal) m ρ c (Proc.devRef .tc main_v31) = W20 m ρ c (Proc.devRef .tc main_v31) := by keeps hostOps2_4
  have a2 : W19 (F := Ideal) m ρ c (Proc.devRef .tc main_v29) = W18 m ρ c (Proc.devRef .tc main_v29) := by keeps hostOps2_2
  have a1 : W18 (F := Ideal) m ρ c (Proc.devRef .tc main_v29) = W17 m ρ c (Proc.devRef .tc main_v29) := by keeps hostOps2_1
  refine e6.trans (e5.trans (e4.trans ((s3_wt (W19 m ρ c)).trans ?_)))
  exact congrArg₂ (fun x (v : S_.Idx → BitVec 32) => pad S25x2048 ![0, 0] ![0, 248] ![0, 0] x (sitofp (F := Ideal) .f32 v) pads_S25x1800_S25x2048_000_02480 h_S_)
    (a2.trans (a1.trans ((s0_wt (W16 m ρ c)).trans (congrArg (fun a : S1800x25.Idx → EReal => transpose S25x1800 [1, 0] a transposes_S1800x25_S25x1800_1_0) (W16_main_arg3 m ρ c)))))
    (s2_c (W18 m ρ c))

/-- The padded bias, as the layer finds it. -/
theorem bias_val (c : Dev nD) :
    (W23 (F := Ideal) m ρ c (Proc.devRef .tc main_v32) : S1x2048.Idx → EReal)
      = pad S1x2048 ![0, 0] ![0, 248] ![0, 0] (m ((c : Thread nD τ).loc main_arg8) : S1x1800.Idx → EReal)
          (sitofp (F := Ideal) .f32 (constantI S_ 32 0#32)) pads_S1x1800_S1x2048_000_02480 h_S_ := by
  have e6 : W23 (F := Ideal) m ρ c (Proc.devRef .tc main_v32) = W22 m ρ c (Proc.devRef .tc main_v32) := by keeps hostOps2_6
  refine e6.trans ((s5_bias (W21 m ρ c)).trans ?_)
  exact congrArg₂ (fun (x : S1x1800.Idx → EReal) (v : S_.Idx → BitVec 32) => pad S1x2048 ![0, 0] ![0, 248] ![0, 0] x (sitofp (F := Ideal) .f32 v) pads_S1x1800_S1x2048_000_02480 h_S_)
    (W21_main_arg8 m ρ c) (s4_c (W20 m ρ c))

/-! ## Read at an index -/

/-- The padded table at `(k, j)`. -/
theorem tbl_apply (c : Dev nD) (k : Fin 25) (j : Fin 2048) :
    (W22 (F := Ideal) m ρ c (Proc.devRef .tc main_v30) : S25x2048.Idx → BitVec 32) (ix2 k j)
      = Cert.Spec.padTbl 2048 (m ((c : Thread nD τ).loc main_arg15)) k j := by
  refine (congrFun (tbl_val m ρ c) (ix2 k j)).trans ?_
  refine (pad_cols_apply _ _ _ _ _ k j).trans ?_
  unfold Cert.Spec.padTbl
  by_cases hj : j.val < 1800
  · rw [dif_pos hj, dif_pos hj]; exact transpose_ix2_apply _ _ _ _
  · rw [dif_neg hj, dif_neg hj]; rfl

end Entry2

open Entry2

variable (m : (ℓ : Loc nD τ sig) → Buf (Elt Ideal) ℓ) (ρ : Dev nD → PrngReg)

/-! ## What the layer finds -/

/-- THE GATHERED ARRAY: `g[r, k, j]` is the previous output's row `r` at the column the padded table's word `(k, j)`
    selects. -/
theorem entry2_g (c : Dev nD) (i : S32x25x2048.Idx) :
    Cert.Spec.rdF (S := S32x25x2048) (V23 (F := Ideal) m ρ c main_v39) i
      = Cert.Spec.rdF (S := S32x4096) (V16 (F := Ideal) m ρ c main_v27)
          (ix2 (i 0) (Cert.Spec.col (n := 4096) (by norm_num) (Cert.Spec.padTbl 2048 (m ((c : Thread nD τ).loc main_arg15)) (i 1) (i 2)))) := by
  obtain ⟨r, k, j, rfl⟩ : ∃ (r : Fin 32) (k : Fin 25) (j : Fin 2048), i = ix3 r k j := ⟨i 0, i 1, i 2, eq_ix3 i⟩
  show (W23 (F := Ideal) m ρ c (Proc.devRef .tc main_v39) : S32x25x2048.Idx → EReal) (ix3 r k j)
      = (W16 (F := Ideal) m ρ c (Proc.devRef .tc main_v27) : S32x4096.Idx → EReal)
          (ix2 r (Cert.Spec.col (n := 4096) (by norm_num) (Cert.Spec.padTbl 2048 (m ((c : Thread nD τ).loc main_arg15)) k j)))
  refine (congrFun (s6_g (W22 m ρ c)) (ix3 r k j)).trans ?_
  refine (gather_wrapped_apply (by norm_num) _ _ _ (Cert.Spec.padTbl 2048 (m ((c : Thread nD τ).loc main_arg15)) k j) r k j ?_).trans ?_
  · refine (wrapped_apply _ _ _ _ k j).trans ?_
    exact congrArg (Cert.Spec.wrap 4096) (tbl_apply m ρ c k j)
  · exact congrFun (prev_val m ρ c) _

/-- THE WEIGHTS, transposed and padded. -/
theorem entry2_w (c : Dev nD) (i : S25x2048.Idx) :
    Cert.Spec.rdF (S := S25x2048) (V23 (F := Ideal) m ρ c main_v31) i
      = Cert.Spec.padWt 2048 (m ((c : Thread nD τ).loc main_arg3)) (i 0) (i 1) := by
  obtain ⟨k, j, rfl⟩ : ∃ (k : Fin 25) (j : Fin 2048), i = ix2 k j := ⟨i 0, i 1, eq_ix2 i⟩
  show (W23 (F := Ideal) m ρ c (Proc.devRef .tc main_v31) : S25x2048.Idx → EReal) (ix2 k j)
      = Cert.Spec.padWt 2048 (m ((c : Thread nD τ).loc main_arg3)) k j
  refine (congrFun (wt_val m ρ c) (ix2 k j)).trans ?_
  refine (pad_cols_apply _ _ _ _ _ k j).trans ?_
  unfold Cert.Spec.padWt
  by_cases hj : j.val < 1800
  · rw [dif_pos hj, dif_pos hj]; exact transpose_ix2_apply _ _ _ _
  · rw [dif_neg hj, dif_neg hj]; exact sitofp_zero_apply _

/-- THE BIAS, padded. -/
theorem entry2_b (c : Dev nD) (i : S1x2048.Idx) :
    Cert.Spec.rdF (S := S1x2048) (V23 (F := Ideal) m ρ c main_v32) i
      = Cert.Spec.padBias 2048 (m ((c : Thread nD τ).loc main_arg8)) (i 1) := by
  obtain ⟨k, j, rfl⟩ : ∃ (k : Fin 1) (j : Fin 2048), i = ix2 k j := ⟨i 0, i 1, eq_ix2 i⟩
  obtain rfl : k = 0 := Subsingleton.elim _ _
  show (W23 (F := Ideal) m ρ c (Proc.devRef .tc main_v32) : S1x2048.Idx → EReal) (ix2 (0 : Fin 1) j)
      = Cert.Spec.padBias 2048 (m ((c : Thread nD τ).loc main_arg8)) j
  refine (congrFun (bias_val m ρ c) (ix2 (0 : Fin 1) j)).trans ?_
  refine (pad_cols_apply _ _ _ _ _ (0 : Fin 1) j).trans ?_
  unfold Cert.Spec.padBias
  by_cases hj : j.val < 1800
  · rw [dif_pos hj, dif_pos hj]
  · rw [dif_neg hj, dif_neg hj]; exact sitofp_zero_apply _

end Cert.KernelIdeal.KVal

end
-- ==== Proof.KEntry3.lean ====
/-
  WHAT THE FOURTH LAYER FINDS IN ITS THREE INPUT ARRAYS.

  Between the third layer and the fourth, the host operations transpose the table and the weights to `[25, 900]`, pad
  table, weights and bias on the right of the column axis to 1024 columns (the table with the word 0, the others with
  the float 0), normalise the table's words as indices into the 2048 columns of the previous layer's padded output, and
  gather whole columns of that output at them. Read at an index, the three arrays are: the gathered array
  `g[r, k, j] = prev[r, col(tbl[k, j])]` with `prev` the previous layer's output as it was left, the padded weights and
  the padded bias, in the specification's words (`Cert.Spec.col`, `padTbl`, `padWt`, `padBias`).
-/
import proofs.«427585_j58162447123130_3_alg».proof.Proof.Gen.KernelIdeal.Frame
import proofs.«427585_j58162447123130_3_alg».proof.Proof.KEntryLib
import proofs.«427585_j58162447123130_3_alg».proof.Proof.KArgs

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem

/-- A buffer none of the stretch's operations writes holds after it what it held before. -/
local macro "keeps " h:ident : tactic => `(tactic| (
  refine StableHlo.after_of_forall_not_mem _ _ (List.forall_iff_forall_mem.mp ?_)
  simp only [$h:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! The layer's own auxiliary statements live in a namespace of their own: the other layers' modules state theirs under the
    same names. -/
namespace Entry3

/-! ## Each stretch of host operations, from any contents `W` -/

section Stretches
variable (W : Valuation τ sig (Elt Ideal))

theorem s0_tbl :
    (StableHlo.after (hostOps3 (F := Ideal)) W (Proc.devRef .tc main_v41) : S25x900.Idx → BitVec 32)
      = transpose S25x900 [1, 0] (W (Proc.devRef .tc main_arg16) : S900x25.Idx → BitVec 32) transposes_S900x25_S25x900_1_0 := by
  after_results

theorem s0_wt :
    (StableHlo.after (hostOps3 (F := Ideal)) W (Proc.devRef .tc main_v42) : S25x900.Idx → EReal)
      = transpose S25x900 [1, 0] (W (Proc.devRef .tc main_arg4) : S900x25.Idx → EReal) transposes_S900x25_S25x900_1_0 := by
  after_results

theorem s0_c :
    (StableHlo.after (hostOps3 (F := Ideal)) W (Proc.devRef .tc main_c_14) : S_.Idx → BitVec 32) = constantI S_ 32 0#32 := by
  after_results

theorem s1_tbl :
    (StableHlo.after (hostOps3_1 (F := Ideal)) W (Proc.devRef .tc main_v43) : S25x1024.Idx → BitVec 32)
      = pad S25x1024 ![0, 0] ![0, 124] ![0, 0] (W (Proc.devRef .tc main_v41) : S25x900.Idx → BitVec 32)
          (W (Proc.devRef .tc main_c_14) : S_.Idx → BitVec 32) pads_S25x900_S25x1024_000_01240 h_S_ := by
  after_results
  rfl

theorem s2_c :
    (StableHlo.after (hostOps3_2 (F := Ideal)) W (Proc.devRef .tc main_c_15) : S_.Idx → BitVec 32) = constantI S_ 32 0#32 := by
  after_results

theorem s3_wt :
    (StableHlo.after (hostOps3_3 (F := Ideal)) W (Proc.devRef .tc main_v44) : S25x1024.Idx → EReal)
      = pad S25x1024 ![0, 0] ![0, 124] ![0, 0] (W (Proc.devRef .tc main_v42) : S25x900.Idx → EReal)
          (sitofp (F := Ideal) .f32 (W (Proc.devRef .tc main_c_15) : S_.Idx → BitVec 32)) pads_S25x900_S25x1024_000_01240 h_S_ := by
  after_results
  rfl

theorem s4_c :
    (StableHlo.after (hostOps3_4 (F := Ideal)) W (Proc.devRef .tc main_c_16) : S_.Idx → BitVec 32) = constantI S_ 32 0#32 := by
  after_results

theorem s5_bias :
    (StableHlo.after (hostOps3_5 (F := Ideal)) W (Proc.devRef .tc main_v45) : S1x1024.Idx → EReal)
      = pad S1x1024 ![0, 0] ![0, 124] ![0, 0] (W (Proc.devRef .tc main_arg9) : S1x900.Idx → EReal)
          (sitofp (F := Ideal) .f32 (W (Proc.devRef .tc main_c_16) : S_.Idx → BitVec 32)) pads_S1x900_S1x1024_000_01240 h_S_ := by
  after_results
  rfl

set_option maxHeartbeats 1000000 in
theorem s6_g :
    (StableHlo.after (hostOps3_6 (F := Ideal)) W (Proc.devRef .tc main_v52) : S32x25x1024.Idx → EReal)
      = Host.gather gather_S32x2048_S25x1024x1_S32x25x1024_0_1_n_n_1_2_321 (W (Proc.devRef .tc main_v40) : S32x2048.Idx → EReal)
          (broadcastInDim S25x1024x1 ![0, 1] bcast_S25x1024_S25x1024x1_0_1
            (select (cmpi .slt (W (Proc.devRef .tc main_v43) : S25x1024.Idx → BitVec 32)
                (broadcastInDim S25x1024 ![] bcast_S_S25x1024 (constantI S_ 32 0#32)))
              (addi (W (Proc.devRef .tc main_v43) : S25x1024.Idx → BitVec 32)
                (broadcastInDim S25x1024 ![] bcast_S_S25x1024 (constantI S_ 32 2048#32)))
              (W (Proc.devRef .tc main_v43) : S25x1024.Idx → BitVec 32))) := by
  after_results_simp

end Stretches

variable (m : (ℓ : Loc nD τ sig) → Buf (Elt Ideal) ℓ) (ρ : Dev nD → PrngReg)

/-! ## The arrays the gather and the layer read, as functions of the launch memory and the previous output -/

/-- The previous layer's output, when the gather reads it, is as that layer left it: no host operation writes it. -/
theorem prev_val (c : Dev nD) :
    W30 (F := Ideal) m ρ c (Proc.devRef .tc main_v40) = W24 m ρ c (Proc.devRef .tc main_v40) := by
  have e5 : W30 (F := Ideal) m ρ c (Proc.devRef .tc main_v40) = W29 m ρ c (Proc.devRef .tc main_v40) := by keeps hostOps3_5
  have e4 : W29 (F := Ideal) m ρ c (Proc.devRef .tc main_v40) = W28 m ρ c (Proc.devRef .tc main_v40) := by keeps hostOps3_4
  have e3 : W28 (F := Ideal) m ρ c (Proc.devRef .tc main_v40) = W27 m ρ c (Proc.devRef .tc main_v40) := by keeps hostOps3_3
  have e2 : W27 (F := Ideal) m ρ c (Proc.devRef .tc main_v40) = W26 m ρ c (Proc.devRef .tc main_v40) := by keeps hostOps3_2
  have e1 : W26 (F := Ideal) m ρ c (Proc.devRef .tc main_v40) = W25 m ρ c (Proc.devRef .tc main_v40) := by keeps hostOps3_1
  have e0 : W25 (F := Ideal) m ρ c (Proc.devRef .tc main_v40) = W24 m ρ c (Proc.devRef .tc main_v40) := by keeps hostOps3
  exact e5.trans (e4.trans (e3.trans (e2.trans (e1.trans e0))))

/-- The padded table, when the index normalisation reads it. -/
theorem tbl_val (c : Dev nD) :
    (W30 (F := Ideal) m ρ c (Proc.devRef .tc main_v43) : S25x1024.Idx → BitVec 32)
      = pad S25x1024 ![0, 0] ![0, 124] ![0, 0]
          (transpose S25x900 [1, 0] (m ((c : Thread nD τ).loc main_arg16) : S900x25.Idx → BitVec 32) transposes_S900x25_S25x900_1_0)
          (constantI S_ 32 0#32) pads_S25x900_S25x1024_000_01240 h_S_ := by
  have e5 : W30 (F := Ideal) m ρ c (Proc.devRef .tc main_v43) = W29 m ρ c (Proc.devRef .tc main_v43) := by keeps hostOps3_5
  have e4 : W29 (F := Ideal) m ρ c (Proc.devRef .tc main_v43) = W28 m ρ c (Proc.devRef .tc main_v43) := by keeps hostOps3_4
  have e3 : W28 (F := Ideal) m ρ c (Proc.devRef .tc main_v43) = W27 m ρ c (Proc.devRef .tc main_v43) := by keeps hostOps3_3
  have e2 : W27 (F := Ideal) m ρ c (Proc.devRef .tc main_v43) = W26 m ρ c (Proc.devRef .tc main_v43) := by keeps hostOps3_2
  refine e5.trans (e4.trans (e3.trans (e2.trans ((s1_tbl (W25 m ρ c)).trans ?_))))
  exact congrArg₂ (fun x v => pad S25x1024 ![0, 0] ![0, 124] ![0, 0] x v pads_S25x900_S25x1024_000_01240 h_S_)
    ((s0_tbl (W24 m ρ c)).trans (congrArg (fun a : S900x25.Idx → BitVec 32 => transpose S25x900 [1, 0] a transposes_S900x25_S25x900_1_0) (W24_main_arg16 m ρ c)))
    (s0_c (W24 m ρ c))

/-- The padded weights, as the layer finds them. -/
theorem wt_val (c : Dev nD) :
    (W31 (F := Ideal) m ρ c (Proc.devRef .tc main_v44) : S25x1024.Idx → EReal)
      = pad S25x1024 ![0, 0] ![0, 124] ![0, 0]
          (transpose S25x900 [1, 0] (m ((c : Thread nD τ).loc main_arg4) : S900x25.Idx → EReal) transposes_S900x25_S25x900_1_0)
          (sitofp (F := Ideal) .f32 (constantI S_ 32 0#32)) pads_S25x900_S25x1024_000_01240 h_S_ := by
  have e6 : W31 (F := Ideal) m ρ c (Proc.devRef .tc main_v44) = W30 m ρ c (Proc.devRef .tc main_v44) := by keeps hostOps3_6
  have e5 : W30 (F := Ideal) m ρ c (Proc.devRef .tc main_v44) = W29 m ρ c (Proc.devRef .tc main_v44) := by keeps hostOps3_5
  have e4 : W29 (F := Ideal) m ρ c (Proc.devRef .tc main_v44) = W28 m ρ c (Proc.devRef .tc main_v44) := by keeps hostOps3_4
  have a2 : W27 (F := Ideal) m ρ c (Proc.devRef .tc main_v42) = W26 m ρ c (Proc.devRef .tc main_v42) := by keeps hostOps3_2
  have a1 : W26 (F := Ideal) m ρ c (Proc.devRef .tc main_v42) = W25 m ρ c (Proc.devRef .tc main_v42) := by keeps hostOps3_1
  refine e6.trans (e5.trans (e4.trans ((s3_wt (W27 m ρ c)).trans ?_)))
  exact congrArg₂ (fun x (v : S_.Idx → BitVec 32) => pad S25x1024 ![0, 0] ![0, 124] ![0, 0] x (sitofp (F := Ideal) .f32 v) pads_S25x900_S25x1024_000_01240 h_S_)
    (a2.trans (a1.trans ((s0_wt (W24 m ρ c)).trans (congrArg (fun a : S900x25.Idx → EReal => transpose S25x900 [1, 0] a transposes_S900x25_S25x900_1_0) (W24_main_arg4 m ρ c)))))
    (s2_c (W26 m ρ c))

/-- The padded bias, as the layer finds it. -/
theorem bias_val (c : Dev nD) :
    (W31 (F := Ideal) m ρ c (Proc.devRef .tc main_v45) : S1x1024.Idx → EReal)
      = pad S1x1024 ![0, 0] ![0, 124] ![0, 0] (m ((c : Thread nD τ).loc main_arg9) : S1x900.Idx → EReal)
          (sitofp (F := Ideal) .f32 (constantI S_ 32 0#32)) pads_S1x900_S1x1024_000_01240 h_S_ := by
  have e6 : W31 (F := Ideal) m ρ c (Proc.devRef .tc main_v45) = W30 m ρ c (Proc.devRef .tc main_v45) := by keeps hostOps3_6
  refine e6.trans ((s5_bias (W29 m ρ c)).trans ?_)
  exact congrArg₂ (fun (x : S1x900.Idx → EReal) (v : S_.Idx → BitVec 32) => pad S1x1024 ![0, 0] ![0, 124] ![0, 0] x (sitofp (F := Ideal) .f32 v) pads_S1x900_S1x1024_000_01240 h_S_)
    (W29_main_arg9 m ρ c) (s4_c (W28 m ρ c))

/-! ## Read at an index -/

/-- The padded table at `(k, j)`. -/
theorem tbl_apply (c : Dev nD) (k : Fin 25) (j : Fin 1024) :
    (W30 (F := Ideal) m ρ c (Proc.devRef .tc main_v43) : S25x1024.Idx → BitVec 32) (ix2 k j)
      = Cert.Spec.padTbl 1024 (m ((c : Thread nD τ).loc main_arg16)) k j := by
  refine (congrFun (tbl_val m ρ c) (ix2 k j)).trans ?_
  refine (pad_cols_apply _ _ _ _ _ k j).trans ?_
  unfold Cert.Spec.padTbl
  by_cases hj : j.val < 900
  · rw [dif_pos hj, dif_pos hj]; exact transpose_ix2_apply _ _ _ _
  · rw [dif_neg hj, dif_neg hj]; rfl

end Entry3

open Entry3

variable (m : (ℓ : Loc nD τ sig) → Buf (Elt Ideal) ℓ) (ρ : Dev nD → PrngReg)

/-! ## What the layer finds -/

/-- THE GATHERED ARRAY: `g[r, k, j]` is the previous output's row `r` at the column the padded table's word `(k, j)`
    selects. -/
theorem entry3_g (c : Dev nD) (i : S32x25x1024.Idx) :
    Cert.Spec.rdF (S := S32x25x1024) (V31 (F := Ideal) m ρ c main_v52) i
      = Cert.Spec.rdF (S := S32x2048) (V24 (F := Ideal) m ρ c main_v40)
          (ix2 (i 0) (Cert.Spec.col (n := 2048) (by norm_num) (Cert.Spec.padTbl 1024 (m ((c : Thread nD τ).loc main_arg16)) (i 1) (i 2)))) := by
  obtain ⟨r, k, j, rfl⟩ : ∃ (r : Fin 32) (k : Fin 25) (j : Fin 1024), i = ix3 r k j := ⟨i 0, i 1, i 2, eq_ix3 i⟩
  show (W31 (F := Ideal) m ρ c (Proc.devRef .tc main_v52) : S32x25x1024.Idx → EReal) (ix3 r k j)
      = (W24 (F := Ideal) m ρ c (Proc.devRef .tc main_v40) : S32x2048.Idx → EReal)
          (ix2 r (Cert.Spec.col (n := 2048) (by norm_num) (Cert.Spec.padTbl 1024 (m ((c : Thread nD τ).loc main_arg16)) k j)))
  refine (congrFun (s6_g (W30 m ρ c)) (ix3 r k j)).trans ?_
  refine (gather_wrapped_apply (by norm_num) _ _ _ (Cert.Spec.padTbl 1024 (m ((c : Thread nD τ).loc main_arg16)) k j) r k j ?_).trans ?_
  · refine (wrapped_apply _ _ _ _ k j).trans ?_
    exact congrArg (Cert.Spec.wrap 2048) (tbl_apply m ρ c k j)
  · exact congrFun (prev_val m ρ c) _

/-- THE WEIGHTS, transposed and padded. -/
theorem entry3_w (c : Dev nD) (i : S25x1024.Idx) :
    Cert.Spec.rdF (S := S25x1024) (V31 (F := Ideal) m ρ c main_v44) i
      = Cert.Spec.padWt 1024 (m ((c : Thread nD τ).loc main_arg4)) (i 0) (i 1) := by
  obtain ⟨k, j, rfl⟩ : ∃ (k : Fin 25) (j : Fin 1024), i = ix2 k j := ⟨i 0, i 1, eq_ix2 i⟩
  show (W31 (F := Ideal) m ρ c (Proc.devRef .tc main_v44) : S25x1024.Idx → EReal) (ix2 k j)
      = Cert.Spec.padWt 1024 (m ((c : Thread nD τ).loc main_arg4)) k j
  refine (congrFun (wt_val m ρ c) (ix2 k j)).trans ?_
  refine (pad_cols_apply _ _ _ _ _ k j).trans ?_
  unfold Cert.Spec.padWt
  by_cases hj : j.val < 900
  · rw [dif_pos hj, dif_pos hj]; exact transpose_ix2_apply _ _ _ _
  · rw [dif_neg hj, dif_neg hj]; exact sitofp_zero_apply _

/-- THE BIAS, padded. -/
theorem entry3_b (c : Dev nD) (i : S1x1024.Idx) :
    Cert.Spec.rdF (S := S1x1024) (V31 (F := Ideal) m ρ c main_v45) i
      = Cert.Spec.padBias 1024 (m ((c : Thread nD τ).loc main_arg9)) (i 1) := by
  obtain ⟨k, j, rfl⟩ : ∃ (k : Fin 1) (j : Fin 1024), i = ix2 k j := ⟨i 0, i 1, eq_ix2 i⟩
  obtain rfl : k = 0 := Subsingleton.elim _ _
  show (W31 (F := Ideal) m ρ c (Proc.devRef .tc main_v45) : S1x1024.Idx → EReal) (ix2 (0 : Fin 1) j)
      = Cert.Spec.padBias 1024 (m ((c : Thread nD τ).loc main_arg9)) j
  refine (congrFun (bias_val m ρ c) (ix2 (0 : Fin 1) j)).trans ?_
  refine (pad_cols_apply _ _ _ _ _ (0 : Fin 1) j).trans ?_
  unfold Cert.Spec.padBias
  by_cases hj : j.val < 900
  · rw [dif_pos hj, dif_pos hj]
  · rw [dif_neg hj, dif_neg hj]; exact sitofp_zero_apply _

end Cert.KernelIdeal.KVal

end
-- ==== Proof.KEntry4.lean ====
/-
  WHAT THE FIFTH LAYER FINDS IN ITS THREE INPUT ARRAYS.

  Between the fourth layer and the fifth, the host operations transpose the table and the weights to `[25, 450]`, pad
  table, weights and bias on the right of the column axis to 512 columns (the table with the word 0, the others with
  the float 0), normalise the table's words as indices into the 1024 columns of the previous layer's padded output, and
  gather whole columns of that output at them. Read at an index, the three arrays are: the gathered array
  `g[r, k, j] = prev[r, col(tbl[k, j])]` with `prev` the previous layer's output as it was left, the padded weights and
  the padded bias, in the specification's words (`Cert.Spec.col`, `padTbl`, `padWt`, `padBias`).
-/
import proofs.«427585_j58162447123130_3_alg».proof.Proof.Gen.KernelIdeal.Frame
import proofs.«427585_j58162447123130_3_alg».proof.Proof.KEntryLib
import proofs.«427585_j58162447123130_3_alg».proof.Proof.KArgs

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem

/-- A buffer none of the stretch's operations writes holds after it what it held before. -/
local macro "keeps " h:ident : tactic => `(tactic| (
  refine StableHlo.after_of_forall_not_mem _ _ (List.forall_iff_forall_mem.mp ?_)
  simp only [$h:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! The layer's own auxiliary statements live in a namespace of their own: the other layers' modules state theirs under the
    same names. -/
namespace Entry4

/-! ## Each stretch of host operations, from any contents `W` -/

section Stretches
variable (W : Valuation τ sig (Elt Ideal))

theorem s0_tbl :
    (StableHlo.after (hostOps4 (F := Ideal)) W (Proc.devRef .tc main_v54) : S25x450.Idx → BitVec 32)
      = transpose S25x450 [1, 0] (W (Proc.devRef .tc main_arg17) : S450x25.Idx → BitVec 32) transposes_S450x25_S25x450_1_0 := by
  after_results

theorem s0_wt :
    (StableHlo.after (hostOps4 (F := Ideal)) W (Proc.devRef .tc main_v55) : S25x450.Idx → EReal)
      = transpose S25x450 [1, 0] (W (Proc.devRef .tc main_arg5) : S450x25.Idx → EReal) transposes_S450x25_S25x450_1_0 := by
  after_results

theorem s0_c :
    (StableHlo.after (hostOps4 (F := Ideal)) W (Proc.devRef .tc main_c_19) : S_.Idx → BitVec 32) = constantI S_ 32 0#32 := by
  after_results

theorem s1_tbl :
    (StableHlo.after (hostOps4_1 (F := Ideal)) W (Proc.devRef .tc main_v56) : S25x512.Idx → BitVec 32)
      = pad S25x512 ![0, 0] ![0, 62] ![0, 0] (W (Proc.devRef .tc main_v54) : S25x450.Idx → BitVec 32)
          (W (Proc.devRef .tc main_c_19) : S_.Idx → BitVec 32) pads_S25x450_S25x512_000_0620 h_S_ := by
  after_results
  rfl

theorem s2_c :
    (StableHlo.after (hostOps4_2 (F := Ideal)) W (Proc.devRef .tc main_c_20) : S_.Idx → BitVec 32) = constantI S_ 32 0#32 := by
  after_results

theorem s3_wt :
    (StableHlo.after (hostOps4_3 (F := Ideal)) W (Proc.devRef .tc main_v57) : S25x512.Idx → EReal)
      = pad S25x512 ![0, 0] ![0, 62] ![0, 0] (W (Proc.devRef .tc main_v55) : S25x450.Idx → EReal)
          (sitofp (F := Ideal) .f32 (W (Proc.devRef .tc main_c_20) : S_.Idx → BitVec 32)) pads_S25x450_S25x512_000_0620 h_S_ := by
  after_results
  rfl

theorem s4_c :
    (StableHlo.after (hostOps4_4 (F := Ideal)) W (Proc.devRef .tc main_c_21) : S_.Idx → BitVec 32) = constantI S_ 32 0#32 := by
  after_results

theorem s5_bias :
    (StableHlo.after (hostOps4_5 (F := Ideal)) W (Proc.devRef .tc main_v58) : S1x512.Idx → EReal)
      = pad S1x512 ![0, 0] ![0, 62] ![0, 0] (W (Proc.devRef .tc main_arg10) : S1x450.Idx → EReal)
          (sitofp (F := Ideal) .f32 (W (Proc.devRef .tc main_c_21) : S_.Idx → BitVec 32)) pads_S1x450_S1x512_000_0620 h_S_ := by
  after_results
  rfl

set_option maxHeartbeats 1000000 in
theorem s6_g :
    (StableHlo.after (hostOps4_6 (F := Ideal)) W (Proc.devRef .tc main_v65) : S32x25x512.Idx → EReal)
      = Host.gather gather_S32x1024_S25x512x1_S32x25x512_0_1_n_n_1_2_321 (W (Proc.devRef .tc main_v53) : S32x1024.Idx → EReal)
          (broadcastInDim S25x512x1 ![0, 1] bcast_S25x512_S25x512x1_0_1
            (select (cmpi .slt (W (Proc.devRef .tc main_v56) : S25x512.Idx → BitVec 32)
                (broadcastInDim S25x512 ![] bcast_S_S25x512 (constantI S_ 32 0#32)))
              (addi (W (Proc.devRef .tc main_v56) : S25x512.Idx → BitVec 32)
                (broadcastInDim S25x512 ![] bcast_S_S25x512 (constantI S_ 32 1024#32)))
              (W (Proc.devRef .tc main_v56) : S25x512.Idx → BitVec 32))) := by
  after_results_simp

end Stretches

variable (m : (ℓ : Loc nD τ sig) → Buf (Elt Ideal) ℓ) (ρ : Dev nD → PrngReg)

/-! ## The arrays the gather and the layer read, as functions of the launch memory and the previous output -/

/-- The previous layer's output, when the gather reads it, is as that layer left it: no host operation writes it. -/
theorem prev_val (c : Dev nD) :
    W38 (F := Ideal) m ρ c (Proc.devRef .tc main_v53) = W32 m ρ c (Proc.devRef .tc main_v53) := by
  have e5 : W38 (F := Ideal) m ρ c (Proc.devRef .tc main_v53) = W37 m ρ c (Proc.devRef .tc main_v53) := by keeps hostOps4_5
  have e4 : W37 (F := Ideal) m ρ c (Proc.devRef .tc main_v53) = W36 m ρ c (Proc.devRef .tc main_v53) := by keeps hostOps4_4
  have e3 : W36 (F := Ideal) m ρ c (Proc.devRef .tc main_v53) = W35 m ρ c (Proc.devRef .tc main_v53) := by keeps hostOps4_3
  have e2 : W35 (F := Ideal) m ρ c (Proc.devRef .tc main_v53) = W34 m ρ c (Proc.devRef .tc main_v53) := by keeps hostOps4_2
  have e1 : W34 (F := Ideal) m ρ c (Proc.devRef .tc main_v53) = W33 m ρ c (Proc.devRef .tc main_v53) := by keeps hostOps4_1
  have e0 : W33 (F := Ideal) m ρ c (Proc.devRef .tc main_v53) = W32 m ρ c (Proc.devRef .tc main_v53) := by keeps hostOps4
  exact e5.trans (e4.trans (e3.trans (e2.trans (e1.trans e0))))

/-- The padded table, when the index normalisation reads it. -/
theorem tbl_val (c : Dev nD) :
    (W38 (F := Ideal) m ρ c (Proc.devRef .tc main_v56) : S25x512.Idx → BitVec 32)
      = pad S25x512 ![0, 0] ![0, 62] ![0, 0]
          (transpose S25x450 [1, 0] (m ((c : Thread nD τ).loc main_arg17) : S450x25.Idx → BitVec 32) transposes_S450x25_S25x450_1_0)
          (constantI S_ 32 0#32) pads_S25x450_S25x512_000_0620 h_S_ := by
  have e5 : W38 (F := Ideal) m ρ c (Proc.devRef .tc main_v56) = W37 m ρ c (Proc.devRef .tc main_v56) := by keeps hostOps4_5
  have e4 : W37 (F := Ideal) m ρ c (Proc.devRef .tc main_v56) = W36 m ρ c (Proc.devRef .tc main_v56) := by keeps hostOps4_4
  have e3 : W36 (F := Ideal) m ρ c (Proc.devRef .tc main_v56) = W35 m ρ c (Proc.devRef .tc main_v56) := by keeps hostOps4_3
  have e2 : W35 (F := Ideal) m ρ c (Proc.devRef .tc main_v56) = W34 m ρ c (Proc.devRef .tc main_v56) := by keeps hostOps4_2
  refine e5.trans (e4.trans (e3.trans (e2.trans ((s1_tbl (W33 m ρ c)).trans ?_))))
  exact congrArg₂ (fun x v => pad S25x512 ![0, 0] ![0, 62] ![0, 0] x v pads_S25x450_S25x512_000_0620 h_S_)
    ((s0_tbl (W32 m ρ c)).trans (congrArg (fun a : S450x25.Idx → BitVec 32 => transpose S25x450 [1, 0] a transposes_S450x25_S25x450_1_0) (W32_main_arg17 m ρ c)))
    (s0_c (W32 m ρ c))

/-- The padded weights, as the layer finds them. -/
theorem wt_val (c : Dev nD) :
    (W39 (F := Ideal) m ρ c (Proc.devRef .tc main_v57) : S25x512.Idx → EReal)
      = pad S25x512 ![0, 0] ![0, 62] ![0, 0]
          (transpose S25x450 [1, 0] (m ((c : Thread nD τ).loc main_arg5) : S450x25.Idx → EReal) transposes_S450x25_S25x450_1_0)
          (sitofp (F := Ideal) .f32 (constantI S_ 32 0#32)) pads_S25x450_S25x512_000_0620 h_S_ := by
  have e6 : W39 (F := Ideal) m ρ c (Proc.devRef .tc main_v57) = W38 m ρ c (Proc.devRef .tc main_v57) := by keeps hostOps4_6
  have e5 : W38 (F := Ideal) m ρ c (Proc.devRef .tc main_v57) = W37 m ρ c (Proc.devRef .tc main_v57) := by keeps hostOps4_5
  have e4 : W37 (F := Ideal) m ρ c (Proc.devRef .tc main_v57) = W36 m ρ c (Proc.devRef .tc main_v57) := by keeps hostOps4_4
  have a2 : W35 (F := Ideal) m ρ c (Proc.devRef .tc main_v55) = W34 m ρ c (Proc.devRef .tc main_v55) := by keeps hostOps4_2
  have a1 : W34 (F := Ideal) m ρ c (Proc.devRef .tc main_v55) = W33 m ρ c (Proc.devRef .tc main_v55) := by keeps hostOps4_1
  refine e6.trans (e5.trans (e4.trans ((s3_wt (W35 m ρ c)).trans ?_)))
  exact congrArg₂ (fun x (v : S_.Idx → BitVec 32) => pad S25x512 ![0, 0] ![0, 62] ![0, 0] x (sitofp (F := Ideal) .f32 v) pads_S25x450_S25x512_000_0620 h_S_)
    (a2.trans (a1.trans ((s0_wt (W32 m ρ c)).trans (congrArg (fun a : S450x25.Idx → EReal => transpose S25x450 [1, 0] a transposes_S450x25_S25x450_1_0) (W32_main_arg5 m ρ c)))))
    (s2_c (W34 m ρ c))

/-- The padded bias, as the layer finds it. -/
theorem bias_val (c : Dev nD) :
    (W39 (F := Ideal) m ρ c (Proc.devRef .tc main_v58) : S1x512.Idx → EReal)
      = pad S1x512 ![0, 0] ![0, 62] ![0, 0] (m ((c : Thread nD τ).loc main_arg10) : S1x450.Idx → EReal)
          (sitofp (F := Ideal) .f32 (constantI S_ 32 0#32)) pads_S1x450_S1x512_000_0620 h_S_ := by
  have e6 : W39 (F := Ideal) m ρ c (Proc.devRef .tc main_v58) = W38 m ρ c (Proc.devRef .tc main_v58) := by keeps hostOps4_6
  refine e6.trans ((s5_bias (W37 m ρ c)).trans ?_)
  exact congrArg₂ (fun (x : S1x450.Idx → EReal) (v : S_.Idx → BitVec 32) => pad S1x512 ![0, 0] ![0, 62] ![0, 0] x (sitofp (F := Ideal) .f32 v) pads_S1x450_S1x512_000_0620 h_S_)
    (W37_main_arg10 m ρ c) (s4_c (W36 m ρ c))

/-! ## Read at an index -/

/-- The padded table at `(k, j)`. -/
theorem tbl_apply (c : Dev nD) (k : Fin 25) (j : Fin 512) :
    (W38 (F := Ideal) m ρ c (Proc.devRef .tc main_v56) : S25x512.Idx → BitVec 32) (ix2 k j)
      = Cert.Spec.padTbl 512 (m ((c : Thread nD τ).loc main_arg17)) k j := by
  refine (congrFun (tbl_val m ρ c) (ix2 k j)).trans ?_
  refine (pad_cols_apply _ _ _ _ _ k j).trans ?_
  unfold Cert.Spec.padTbl
  by_cases hj : j.val < 450
  · rw [dif_pos hj, dif_pos hj]; exact transpose_ix2_apply _ _ _ _
  · rw [dif_neg hj, dif_neg hj]; rfl

end Entry4

open Entry4

variable (m : (ℓ : Loc nD τ sig) → Buf (Elt Ideal) ℓ) (ρ : Dev nD → PrngReg)

/-! ## What the layer finds -/

/-- THE GATHERED ARRAY: `g[r, k, j]` is the previous output's row `r` at the column the padded table's word `(k, j)`
    selects. -/
theorem entry4_g (c : Dev nD) (i : S32x25x512.Idx) :
    Cert.Spec.rdF (S := S32x25x512) (V39 (F := Ideal) m ρ c main_v65) i
      = Cert.Spec.rdF (S := S32x1024) (V32 (F := Ideal) m ρ c main_v53)
          (ix2 (i 0) (Cert.Spec.col (n := 1024) (by norm_num) (Cert.Spec.padTbl 512 (m ((c : Thread nD τ).loc main_arg17)) (i 1) (i 2)))) := by
  obtain ⟨r, k, j, rfl⟩ : ∃ (r : Fin 32) (k : Fin 25) (j : Fin 512), i = ix3 r k j := ⟨i 0, i 1, i 2, eq_ix3 i⟩
  show (W39 (F := Ideal) m ρ c (Proc.devRef .tc main_v65) : S32x25x512.Idx → EReal) (ix3 r k j)
      = (W32 (F := Ideal) m ρ c (Proc.devRef .tc main_v53) : S32x1024.Idx → EReal)
          (ix2 r (Cert.Spec.col (n := 1024) (by norm_num) (Cert.Spec.padTbl 512 (m ((c : Thread nD τ).loc main_arg17)) k j)))
  refine (congrFun (s6_g (W38 m ρ c)) (ix3 r k j)).trans ?_
  refine (gather_wrapped_apply (by norm_num) _ _ _ (Cert.Spec.padTbl 512 (m ((c : Thread nD τ).loc main_arg17)) k j) r k j ?_).trans ?_
  · refine (wrapped_apply _ _ _ _ k j).trans ?_
    exact congrArg (Cert.Spec.wrap 1024) (tbl_apply m ρ c k j)
  · exact congrFun (prev_val m ρ c) _

/-- THE WEIGHTS, transposed and padded. -/
theorem entry4_w (c : Dev nD) (i : S25x512.Idx) :
    Cert.Spec.rdF (S := S25x512) (V39 (F := Ideal) m ρ c main_v57) i
      = Cert.Spec.padWt 512 (m ((c : Thread nD τ).loc main_arg5)) (i 0) (i 1) := by
  obtain ⟨k, j, rfl⟩ : ∃ (k : Fin 25) (j : Fin 512), i = ix2 k j := ⟨i 0, i 1, eq_ix2 i⟩
  show (W39 (F := Ideal) m ρ c (Proc.devRef .tc main_v57) : S25x512.Idx → EReal) (ix2 k j)
      = Cert.Spec.padWt 512 (m ((c : Thread nD τ).loc main_arg5)) k j
  refine (congrFun (wt_val m ρ c) (ix2 k j)).trans ?_
  refine (pad_cols_apply _ _ _ _ _ k j).trans ?_
  unfold Cert.Spec.padWt
  by_cases hj : j.val < 450
  · rw [dif_pos hj, dif_pos hj]; exact transpose_ix2_apply _ _ _ _
  · rw [dif_neg hj, dif_neg hj]; exact sitofp_zero_apply _

/-- THE BIAS, padded. -/
theorem entry4_b (c : Dev nD) (i : S1x512.Idx) :
    Cert.Spec.rdF (S := S1x512) (V39 (F := Ideal) m ρ c main_v58) i
      = Cert.Spec.padBias 512 (m ((c : Thread nD τ).loc main_arg10)) (i 1) := by
  obtain ⟨k, j, rfl⟩ : ∃ (k : Fin 1) (j : Fin 512), i = ix2 k j := ⟨i 0, i 1, eq_ix2 i⟩
  obtain rfl : k = 0 := Subsingleton.elim _ _
  show (W39 (F := Ideal) m ρ c (Proc.devRef .tc main_v58) : S1x512.Idx → EReal) (ix2 (0 : Fin 1) j)
      = Cert.Spec.padBias 512 (m ((c : Thread nD τ).loc main_arg10)) j
  refine (congrFun (bias_val m ρ c) (ix2 (0 : Fin 1) j)).trans ?_
  refine (pad_cols_apply _ _ _ _ _ (0 : Fin 1) j).trans ?_
  unfold Cert.Spec.padBias
  by_cases hj : j.val < 450
  · rw [dif_pos hj, dif_pos hj]
  · rw [dif_neg hj, dif_neg hj]; exact sitofp_zero_apply _

end Cert.KernelIdeal.KVal

end
-- ==== Proof.KEntry5.lean ====
/-
  What the dense region finds in its three input arrays when it is entered, and the program's result after it.

  Between the last reduce layer and the dense region the host converts the layer's output and the dense weights
  (at the ideal instance a change of format is the identity), pads the 450 × 2 weights with 0 to 512 × 128, reshapes
  the bias of 2 entries to one row and pads it with 0 to 128 columns. After the dense region the host slices the first
  two columns of its 32 × 128 output. Each stretch of host operations is read as an equation of whole arrays over the
  contents before it; the two arguments are read back to the launch memory; the padded arrays are then read at an index.
-/
import proofs.«427585_j58162447123130_3_alg».proof.Proof.Gen.KernelIdeal.Frame
import proofs.«427585_j58162447123130_3_alg».proof.Proof.Spec
import Idealize.ShloMosaic.Lib.ValueIdx
import Idealize.ShloMosaic.Lib.KernelVsHost
import Idealize.ShloMosaic.Lib.Pipeline.Value
import Idealize.ShloMosaic.Lib.StableHlo.Run
import Idealize.ShloMosaic.PureOps.Ideal

set_option maxRecDepth 16384

noncomputable section

namespace Cert.KernelIdeal.KVal

open Cert.KernelIdeal Cert.KernelIdeal.Gen Idealize.ShloMosaic Idealize.ShloMosaic.ValueIdx Idealize.ShloMosaic.TcCoe Idealize.SL.Sem

variable (m : (ℓ : Loc nD τ sig) → Buf (Elt Ideal) ℓ) (ρ : Dev nD → PrngReg)

/-! ## Each stretch's own results, as equations of whole arrays over the contents before the stretch -/

/-- The first stretch converts the last reduce layer's output. -/
theorem s5_v67 (c : Dev nD) :
    @Eq (S32x512.Idx → EReal) (W41 (F := Ideal) m ρ c (Proc.devRef .tc main_v67))
      (truncf (F := Ideal) .bf16 (W40 (F := Ideal) m ρ c (Proc.devRef .tc main_v66) : FVec Ideal S32x512 .f32) bitsLt_bf16_f32) := by
  show StableHlo.after hostOps5 _ (Proc.devRef .tc main_v67) = _
  after_results <;> rfl

/-- … and the dense weights. -/
theorem s5_v68 (c : Dev nD) :
    @Eq (S450x2.Idx → EReal) (W41 (F := Ideal) m ρ c (Proc.devRef .tc main_v68))
      (truncf (F := Ideal) .bf16 (W40 (F := Ideal) m ρ c (Proc.devRef .tc main_arg11) : FVec Ideal S450x2 .f32) bitsLt_bf16_f32) := by
  show StableHlo.after hostOps5 _ (Proc.devRef .tc main_v68) = _
  after_results <;> rfl

/-- … and sets the integer constant 0 the padding value is converted from. -/
theorem s5_c24 (c : Dev nD) :
    @Eq (S_.Idx → BitVec 32) (W41 (F := Ideal) m ρ c (Proc.devRef .tc main_c_24)) (constantI S_ 32 0#32) := by
  show StableHlo.after hostOps5 _ (Proc.devRef .tc main_c_24) = _
  after_results <;> rfl

/-- The second stretch pads the converted weights to 512 × 128 with the converted constant. -/
theorem s51_v69 (c : Dev nD) :
    @Eq (S512x128.Idx → EReal) (W42 (F := Ideal) m ρ c (Proc.devRef .tc main_v69))
      (pad S512x128 ![0, 0] ![62, 126] ![0, 0] (W41 (F := Ideal) m ρ c (Proc.devRef .tc main_v68) : S450x2.Idx → EReal)
          (sitofp (F := Ideal) .bf16 (W41 (F := Ideal) m ρ c (Proc.devRef .tc main_c_24) : S_.Idx → BitVec 32)) pads_S450x2_S512x128_0620_01260 h_S_) := by
  show StableHlo.after hostOps5_1 _ (Proc.devRef .tc main_v69) = _
  after_results <;> rfl

/-- The third stretch reshapes the bias to one row. -/
theorem s52_v70 (c : Dev nD) :
    @Eq (S1x2.Idx → EReal) (W43 (F := Ideal) m ρ c (Proc.devRef .tc main_v70))
      (shapeCast S1x2 (W42 (F := Ideal) m ρ c (Proc.devRef .tc main_arg12) : S2.Idx → EReal) shapeCasts_S2_S1x2) := by
  show StableHlo.after hostOps5_2 _ (Proc.devRef .tc main_v70) = _
  after_results <;> rfl

/-- … and sets the second constant 0. -/
theorem s52_c25 (c : Dev nD) :
    @Eq (S_.Idx → BitVec 32) (W43 (F := Ideal) m ρ c (Proc.devRef .tc main_c_25)) (constantI S_ 32 0#32) := by
  show StableHlo.after hostOps5_2 _ (Proc.devRef .tc main_c_25) = _
  after_results <;> rfl

/-- The fourth stretch pads the bias row to 128 columns. -/
theorem s53_v71 (c : Dev nD) :
    @Eq (S1x128.Idx → EReal) (W44 (F := Ideal) m ρ c (Proc.devRef .tc main_v71))
      (pad S1x128 ![0, 0] ![0, 126] ![0, 0] (W43 (F := Ideal) m ρ c (Proc.devRef .tc main_v70) : S1x2.Idx → EReal)
          (sitofp (F := Ideal) .f32 (W43 (F := Ideal) m ρ c (Proc.devRef .tc main_c_25) : S_.Idx → BitVec 32)) pads_S1x2_S1x128_000_01260 h_S_) := by
  show StableHlo.after hostOps5_3 _ (Proc.devRef .tc main_v71) = _
  after_results <;> rfl

/-- The last stretch slices the two real columns out of the dense region's output. -/
theorem s6_v73 (c : Dev nD) :
    @Eq (S32x2.Idx → EReal) (W46 (F := Ideal) m ρ c (Proc.devRef .tc main_v73))
      (extractStridedSlice S32x2 ![0, 0] (W45 (F := Ideal) m ρ c (Proc.devRef .tc main_v72) : S32x128.Idx → EReal) slices_S32x128_S32x2_0_0) := by
  show StableHlo.after hostOps6 _ (Proc.devRef .tc main_v73) = _
  after_results <;> rfl

/-! ## Buffers a stretch does not write -/

theorem keep51_v67 (c : Dev nD) :
    @Eq (S32x512.Idx → EReal) (W42 (F := Ideal) m ρ c (Proc.devRef .tc main_v67)) (W41 (F := Ideal) m ρ c (Proc.devRef .tc main_v67)) := by
  show StableHlo.after hostOps5_1 _ (Proc.devRef .tc main_v67) = _
  after_results <;> rfl
theorem keep52_v67 (c : Dev nD) :
    @Eq (S32x512.Idx → EReal) (W43 (F := Ideal) m ρ c (Proc.devRef .tc main_v67)) (W42 (F := Ideal) m ρ c (Proc.devRef .tc main_v67)) := by
  show StableHlo.after hostOps5_2 _ (Proc.devRef .tc main_v67) = _
  after_results <;> rfl
theorem keep53_v67 (c : Dev nD) :
    @Eq (S32x512.Idx → EReal) (W44 (F := Ideal) m ρ c (Proc.devRef .tc main_v67)) (W43 (F := Ideal) m ρ c (Proc.devRef .tc main_v67)) := by
  show StableHlo.after hostOps5_3 _ (Proc.devRef .tc main_v67) = _
  after_results <;> rfl
theorem keep52_v69 (c : Dev nD) :
    @Eq (S512x128.Idx → EReal) (W43 (F := Ideal) m ρ c (Proc.devRef .tc main_v69)) (W42 (F := Ideal) m ρ c (Proc.devRef .tc main_v69)) := by
  show StableHlo.after hostOps5_2 _ (Proc.devRef .tc main_v69) = _
  after_results <;> rfl
theorem keep53_v69 (c : Dev nD) :
    @Eq (S512x128.Idx → EReal) (W44 (F := Ideal) m ρ c (Proc.devRef .tc main_v69)) (W43 (F := Ideal) m ρ c (Proc.devRef .tc main_v69)) := by
  show StableHlo.after hostOps5_3 _ (Proc.devRef .tc main_v69) = _
  after_results <;> rfl

/-! ## The two arguments, read back to the launch memory -/

/-- The dense weights are the launch memory's when the first stretch reads them. -/
theorem W40_arg11 (c : Dev nD) :
    W40 (F := Ideal) m ρ c (Proc.devRef .tc main_arg11) = m ((c : Thread nD τ).loc main_arg11) := by
  refine Eq.trans (Eq.symm ?_) (W46_main_arg11 (F := Ideal) m ρ c)
  calc W46 (F := Ideal) m ρ c (Proc.devRef .tc main_arg11)
    _ = W45 (F := Ideal) m ρ c (Proc.devRef .tc main_arg11) := by
          show StableHlo.after hostOps6 _ (Proc.devRef .tc main_arg11) = _
          after_results <;> rfl
    _ = W44 (F := Ideal) m ρ c (Proc.devRef .tc main_arg11) := W45_of_ne m ρ c main_arg11 (by decide)
    _ = W43 (F := Ideal) m ρ c (Proc.devRef .tc main_arg11) := by
          show StableHlo.after hostOps5_3 _ (Proc.devRef .tc main_arg11) = _
          after_results <;> rfl
    _ = W42 (F := Ideal) m ρ c (Proc.devRef .tc main_arg11) := by
          show StableHlo.after hostOps5_2 _ (Proc.devRef .tc main_arg11) = _
          after_results <;> rfl
    _ = W41 (F := Ideal) m ρ c (Proc.devRef .tc main_arg11) := by
          show StableHlo.after hostOps5_1 _ (Proc.devRef .tc main_arg11) = _
          after_results <;> rfl
    _ = W40 (F := Ideal) m ρ c (Proc.devRef .tc main_arg11) := by
          show StableHlo.after hostOps5 _ (Proc.devRef .tc main_arg11) = _
          after_results <;> rfl

/-- The dense bias is the launch memory's when the third stretch reads it. -/
theorem W42_arg12 (c : Dev nD) :
    W42 (F := Ideal) m ρ c (Proc.devRef .tc main_arg12) = m ((c : Thread nD τ).loc main_arg12) := by
  refine Eq.trans (Eq.symm ?_) (W46_main_arg12 (F := Ideal) m ρ c)
  calc W46 (F := Ideal) m ρ c (Proc.devRef .tc main_arg12)
    _ = W45 (F := Ideal) m ρ c (Proc.devRef .tc main_arg12) := by
          show StableHlo.after hostOps6 _ (Proc.devRef .tc main_arg12) = _
          after_results <;> rfl
    _ = W44 (F := Ideal) m ρ c (Proc.devRef .tc main_arg12) := W45_of_ne m ρ c main_arg12 (by decide)
    _ = W43 (F := Ideal) m ρ c (Proc.devRef .tc main_arg12) := by
          show StableHlo.after hostOps5_3 _ (Proc.devRef .tc main_arg12) = _
          after_results <;> rfl
    _ = W42 (F := Ideal) m ρ c (Proc.devRef .tc main_arg12) := by
          show StableHlo.after hostOps5_2 _ (Proc.devRef .tc main_arg12) = _
          after_results <;> rfl

/-! ## The padded arrays read at an index -/

/-- The padding value: the integer 0 converted is the real 0. -/
theorem padZero (φ : FTy) (j : S_.Idx) : (sitofp (F := Ideal) φ (constantI S_ 32 0#32) : S_.Idx → EReal) j = 0 := by
  show (((0#32 : BitVec 32).toInt : ℝ) : EReal) = 0
  rw [BitVec.toInt_zero, Int.cast_zero, EReal.coe_zero]

/-- The weights padded to 512 × 128: the real entry inside the 450 × 2 corner, 0 outside. -/
theorem padW_apply (x : S450x2.Idx → EReal) (i : S512x128.Idx) :
    pad S512x128 ![0, 0] ![62, 126] ![0, 0] (truncf (F := Ideal) .bf16 (x : FVec Ideal S450x2 .f32) bitsLt_bf16_f32 : S450x2.Idx → EReal)
        (sitofp (F := Ideal) .bf16 (constantI S_ 32 0#32)) pads_S450x2_S512x128_0620_01260 h_S_ i
      = if hk : (i 0).val < 450 ∧ (i 1).val < 2 then x (ix2 ⟨(i 0).val, hk.1⟩ ⟨(i 1).val, hk.2⟩) else 0 := by
  by_cases hk : (i 0).val < 450 ∧ (i 1).val < 2
  · rw [dif_pos hk]
    refine (pad_apply_of_inside _ _ _ _ _ pads_S450x2_S512x128_0620_01260 h_S_ i (ix2 ⟨(i 0).val, hk.1⟩ ⟨(i 1).val, hk.2⟩) ?_).trans rfl
    intro a
    fin_cases a
    · show (i 0).val = 0 + (i 0).val * (0 + 1)
      omega
    · show (i 1).val = 0 + (i 1).val * (0 + 1)
      omega
  · rw [dif_neg hk]
    by_cases h0 : (i 0).val < 450
    · have h1 : ¬ (i 1).val < 2 := fun h => hk ⟨h0, h⟩
      refine (pad_apply_of_not_inside _ _ _ _ _ pads_S450x2_S512x128_0620_01260 h_S_ i (1 : Fin 2) ?_).trans (padZero _ _)
      show ¬(0 ≤ (i 1).val ∧ ((i 1).val - 0) % (0 + 1) = 0 ∧ ((i 1).val - 0) / (0 + 1) < 2)
      omega
    · refine (pad_apply_of_not_inside _ _ _ _ _ pads_S450x2_S512x128_0620_01260 h_S_ i (0 : Fin 2) ?_).trans (padZero _ _)
      show ¬(0 ≤ (i 0).val ∧ ((i 0).val - 0) % (0 + 1) = 0 ∧ ((i 0).val - 0) / (0 + 1) < 450)
      omega

/-- The bias reshaped to a row and padded to 128 columns: the real entry in the first two columns, 0 beyond. -/
theorem padB_apply (x : S2.Idx → EReal) (i : S1x128.Idx) :
    pad S1x128 ![0, 0] ![0, 126] ![0, 0] (shapeCast S1x2 x shapeCasts_S2_S1x2 : S1x2.Idx → EReal)
        (sitofp (F := Ideal) .f32 (constantI S_ 32 0#32)) pads_S1x2_S1x128_000_01260 h_S_ i
      = if ho : (i 1).val < 2 then x (ix1 ⟨(i 1).val, ho⟩) else 0 := by
  have hi0 : (i 0).val < 1 := (i 0).isLt
  by_cases ho : (i 1).val < 2
  · rw [dif_pos ho]
    refine (pad_apply_of_inside _ _ _ _ _ pads_S1x2_S1x128_000_01260 h_S_ i (ix2 (0 : Fin 1) ⟨(i 1).val, ho⟩) ?_).trans ?_
    · intro a
      fin_cases a
      · show (i 0).val = 0 + 0 * (0 + 1)
        omega
      · show (i 1).val = 0 + (i 1).val * (0 + 1)
        omega
    · refine shapeCast_apply x shapeCasts_S2_S1x2 _ _ ?_
      rw [Shape.rowMajor_val_one, Shape.rowMajor_val_two]
      show (i 1).val = 0 * 2 + (i 1).val
      omega
  · rw [dif_neg ho]
    refine (pad_apply_of_not_inside _ _ _ _ _ pads_S1x2_S1x128_000_01260 h_S_ i (1 : Fin 2) ?_).trans (padZero _ _)
    show ¬(0 ≤ (i 1).val ∧ ((i 1).val - 0) % (0 + 1) = 0 ∧ ((i 1).val - 0) / (0 + 1) < 2)
    omega

/-! ## What the dense region finds, and the program's result -/

/-- The dense region's activations are the last reduce layer's output. -/
theorem entry5_a (c : Dev nD) (i : S32x512.Idx) :
    Cert.Spec.rdF (S := S32x512) (V44 (F := Ideal) m ρ c main_v67) i = Cert.Spec.rdF (S := S32x512) (V40 (F := Ideal) m ρ c main_v66) i :=
  (congrFun ((keep53_v67 m ρ c).trans ((keep52_v67 m ρ c).trans ((keep51_v67 m ρ c).trans (s5_v67 m ρ c)))) i).trans rfl

/-- The dense region's weights are the argument's inside the 450 × 2 corner and 0 outside. -/
theorem entry5_w (c : Dev nD) (i : S512x128.Idx) :
    Cert.Spec.rdF (S := S512x128) (V44 (F := Ideal) m ρ c main_v69) i
      = if hk : (i 0).val < 450 ∧ (i 1).val < 2 then Cert.Spec.rdF (S := S450x2) (m ((c : Thread nD τ).loc main_arg11)) (ix2 ⟨(i 0).val, hk.1⟩ ⟨(i 1).val, hk.2⟩) else 0 := by
  have e : @Eq (S512x128.Idx → EReal) (V44 (F := Ideal) m ρ c main_v69)
      (pad S512x128 ![0, 0] ![62, 126] ![0, 0]
        (truncf (F := Ideal) .bf16 (m ((c : Thread nD τ).loc main_arg11) : FVec Ideal S450x2 .f32) bitsLt_bf16_f32 : S450x2.Idx → EReal)
        (sitofp (F := Ideal) .bf16 (constantI S_ 32 0#32)) pads_S450x2_S512x128_0620_01260 h_S_) := by
    refine (keep53_v69 m ρ c).trans ((keep52_v69 m ρ c).trans ((s51_v69 m ρ c).trans ?_))
    rw [s5_v68 m ρ c, s5_c24 m ρ c, W40_arg11 m ρ c]
  exact (congrFun e i).trans (padW_apply (m ((c : Thread nD τ).loc main_arg11)) i)

/-- The dense region's bias row is the argument's in the first two columns and 0 beyond. -/
theorem entry5_b (c : Dev nD) (i : S1x128.Idx) :
    Cert.Spec.rdF (S := S1x128) (V44 (F := Ideal) m ρ c main_v71) i
      = if ho : (i 1).val < 2 then Cert.Spec.rdF (S := S2) (m ((c : Thread nD τ).loc main_arg12)) (ix1 ⟨(i 1).val, ho⟩) else 0 := by
  have e : @Eq (S1x128.Idx → EReal) (V44 (F := Ideal) m ρ c main_v71)
      (pad S1x128 ![0, 0] ![0, 126] ![0, 0]
        (shapeCast S1x2 (m ((c : Thread nD τ).loc main_arg12) : S2.Idx → EReal) shapeCasts_S2_S1x2 : S1x2.Idx → EReal)
        (sitofp (F := Ideal) .f32 (constantI S_ 32 0#32)) pads_S1x2_S1x128_000_01260 h_S_) := by
    refine (s53_v71 m ρ c).trans ?_
    rw [s52_v70 m ρ c, s52_c25 m ρ c, W42_arg12 m ρ c]
  exact (congrFun e i).trans (padB_apply (m ((c : Thread nD τ).loc main_arg12)) i)

/-- The program's result is the first two columns of the dense region's output. -/
theorem result_slice (c : Dev nD) (r : Fin 32) (o : Fin 2) :
    Cert.Spec.rdF (S := S32x2) (W46 (F := Ideal) m ρ c (Proc.devRef .tc main_v73)) (ix2 r o)
      = Cert.Spec.rdF (S := S32x128) (V45 (F := Ideal) m ρ c main_v72) (ix2 r ⟨o.val, by omega⟩) := by
  refine (congrFun (s6_v73 m ρ c) (ix2 r o)).trans ?_
  show extractStridedSlice S32x2 ![0, 0] (W45 (F := Ideal) m ρ c (Proc.devRef .tc main_v72) : S32x128.Idx → EReal) slices_S32x128_S32x2_0_0 (ix2 r o)
      = (W45 (F := Ideal) m ρ c (Proc.devRef .tc main_v72) : S32x128.Idx → EReal) (ix2 r ⟨o.val, by omega⟩)
  refine extractStridedSlice_apply _ _ slices_S32x128_S32x2_0_0 (ix2 r o) (ix2 r ⟨o.val, by omega⟩) ?_
  intro a
  fin_cases a
  · show r.val = 0 + r.val
    omega
  · show o.val = 0 + o.val
    omega

end Cert.KernelIdeal.KVal
-- ==== Proof.KValue.lean ====
/-
  The idealized kernel program's result as the network of the launch memory's argument arrays.

  Each reduce region leaves in its output array the 25-term weighted sum plus bias of what it found in its three input
  arrays (the region's value); what it found is the gather of the previous activations at the padded, wrapped and clamped
  table, the padded transposed weights and the padded bias (the entry contents). Together: region p's output array is the
  padded layer p of the previous region's output array. The dense region likewise gives the padded dense layer, and the
  program's result is its first two columns. Under the tables' range the padded stack is the network on those columns.
-/
import proofs.«427585_j58162447123130_3_alg».proof.Proof.Spec
import proofs.«427585_j58162447123130_3_alg».proof.Proof.SpecNet
import proofs.«427585_j58162447123130_3_alg».proof.Proof.KRegion0
import proofs.«427585_j58162447123130_3_alg».proof.Proof.KRegion1
import proofs.«427585_j58162447123130_3_alg».proof.Proof.KRegion2
import proofs.«427585_j58162447123130_3_alg».proof.Proof.KRegion3
import proofs.«427585_j58162447123130_3_alg».proof.Proof.KRegion4
import proofs.«427585_j58162447123130_3_alg».proof.Proof.KRegion5
import proofs.«427585_j58162447123130_3_alg».proof.Proof.KEntry0
import proofs.«427585_j58162447123130_3_alg».proof.Proof.KEntry1
import proofs.«427585_j58162447123130_3_alg».proof.Proof.KEntry2
import proofs.«427585_j58162447123130_3_alg».proof.Proof.KEntry3
import proofs.«427585_j58162447123130_3_alg».proof.Proof.KEntry4
import proofs.«427585_j58162447123130_3_alg».proof.Proof.KEntry5

set_option maxRecDepth 16384

noncomputable section

namespace Cert.KernelIdeal.KVal

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg)

/-- The argument arrays of the launch memory at their literal types. -/
abbrev ax (c : Dev nD) : S32x20x14400.Idx → EReal := m ((c : Thread nD τ).loc main_arg0)
abbrev aw0 (c : Dev nD) : S7200x25.Idx → EReal := m ((c : Thread nD τ).loc main_arg1)
abbrev aw1 (c : Dev nD) : S3600x25.Idx → EReal := m ((c : Thread nD τ).loc main_arg2)
abbrev aw2 (c : Dev nD) : S1800x25.Idx → EReal := m ((c : Thread nD τ).loc main_arg3)
abbrev aw3 (c : Dev nD) : S900x25.Idx → EReal := m ((c : Thread nD τ).loc main_arg4)
abbrev aw4 (c : Dev nD) : S450x25.Idx → EReal := m ((c : Thread nD τ).loc main_arg5)
abbrev ab0 (c : Dev nD) : S1x7200.Idx → EReal := m ((c : Thread nD τ).loc main_arg6)
abbrev ab1 (c : Dev nD) : S1x3600.Idx → EReal := m ((c : Thread nD τ).loc main_arg7)
abbrev ab2 (c : Dev nD) : S1x1800.Idx → EReal := m ((c : Thread nD τ).loc main_arg8)
abbrev ab3 (c : Dev nD) : S1x900.Idx → EReal := m ((c : Thread nD τ).loc main_arg9)
abbrev ab4 (c : Dev nD) : S1x450.Idx → EReal := m ((c : Thread nD τ).loc main_arg10)
abbrev aWfc (c : Dev nD) : S450x2.Idx → EReal := m ((c : Thread nD τ).loc main_arg11)
abbrev abfc (c : Dev nD) : S2.Idx → EReal := m ((c : Thread nD τ).loc main_arg12)
abbrev ak0 (c : Dev nD) : S7200x25.Idx → BitVec 32 := m ((c : Thread nD τ).loc main_arg13)
abbrev ak1 (c : Dev nD) : S3600x25.Idx → BitVec 32 := m ((c : Thread nD τ).loc main_arg14)
abbrev ak2 (c : Dev nD) : S1800x25.Idx → BitVec 32 := m ((c : Thread nD τ).loc main_arg15)
abbrev ak3 (c : Dev nD) : S900x25.Idx → BitVec 32 := m ((c : Thread nD τ).loc main_arg16)
abbrev ak4 (c : Dev nD) : S450x25.Idx → BitVec 32 := m ((c : Thread nD τ).loc main_arg17)

/-- Region 0's output array at its exit is the padded first layer of the last time step's rows. -/
theorem exit0 (c : Dev nD) : (V8 (F := Ideal) m ρ c main_v14 : S32x7680.Idx → EReal)
    = Cert.Spec.padLayer 7680 (Np := 14400) (by norm_num) (Cert.Spec.lastStep (ax m c)) (ak0 m c) (aw0 m c) (ab0 m c) := by
  have e : (V8 (F := Ideal) m ρ c main_v14 : S32x7680.Idx → EReal) = (dat0 (F := Ideal) (V7 m ρ) c).arrAt 3 cfg0.N := W8_arr m ρ c 3
  rw [e, region0_value (V7 m ρ) c]
  funext i
  simp only [entry0_g m ρ c, entry0_w m ρ c, entry0_b m ρ c]
  rfl

theorem exit1 (c : Dev nD) : (V16 (F := Ideal) m ρ c main_v27 : S32x4096.Idx → EReal)
    = Cert.Spec.padLayer 4096 (Np := 7680) (by norm_num) (V8 (F := Ideal) m ρ c main_v14 : S32x7680.Idx → EReal) (ak1 m c) (aw1 m c) (ab1 m c) := by
  have e : (V16 (F := Ideal) m ρ c main_v27 : S32x4096.Idx → EReal) = (dat1 (F := Ideal) (V15 m ρ) c).arrAt 3 cfg1.N := W16_arr m ρ c 3
  rw [e, region1_value (V15 m ρ) c]
  funext i
  simp only [entry1_g m ρ c, entry1_w m ρ c, entry1_b m ρ c]
  rfl

theorem exit2 (c : Dev nD) : (V24 (F := Ideal) m ρ c main_v40 : S32x2048.Idx → EReal)
    = Cert.Spec.padLayer 2048 (Np := 4096) (by norm_num) (V16 (F := Ideal) m ρ c main_v27 : S32x4096.Idx → EReal) (ak2 m c) (aw2 m c) (ab2 m c) := by
  have e : (V24 (F := Ideal) m ρ c main_v40 : S32x2048.Idx → EReal) = (dat2 (F := Ideal) (V23 m ρ) c).arrAt 3 cfg2.N := W24_arr m ρ c 3
  rw [e, region2_value (V23 m ρ) c]
  funext i
  simp only [entry2_g m ρ c, entry2_w m ρ c, entry2_b m ρ c]
  rfl

theorem exit3 (c : Dev nD) : (V32 (F := Ideal) m ρ c main_v53 : S32x1024.Idx → EReal)
    = Cert.Spec.padLayer 1024 (Np := 2048) (by norm_num) (V24 (F := Ideal) m ρ c main_v40 : S32x2048.Idx → EReal) (ak3 m c) (aw3 m c) (ab3 m c) := by
  have e : (V32 (F := Ideal) m ρ c main_v53 : S32x1024.Idx → EReal) = (dat3 (F := Ideal) (V31 m ρ) c).arrAt 3 cfg3.N := W32_arr m ρ c 3
  rw [e, region3_value (V31 m ρ) c]
  funext i
  simp only [entry3_g m ρ c, entry3_w m ρ c, entry3_b m ρ c]
  rfl

theorem exit4 (c : Dev nD) : (V40 (F := Ideal) m ρ c main_v66 : S32x512.Idx → EReal)
    = Cert.Spec.padLayer 512 (Np := 1024) (by norm_num) (V32 (F := Ideal) m ρ c main_v53 : S32x1024.Idx → EReal) (ak4 m c) (aw4 m c) (ab4 m c) := by
  have e : (V40 (F := Ideal) m ρ c main_v66 : S32x512.Idx → EReal) = (dat4 (F := Ideal) (V39 m ρ) c).arrAt 3 cfg4.N := W40_arr m ρ c 3
  rw [e, region4_value (V39 m ρ) c]
  funext i
  simp only [entry4_g m ρ c, entry4_w m ρ c, entry4_b m ρ c]
  rfl

/-- The dense region's output array at its exit is the padded dense layer of region 4's output array. -/
theorem exit5 (c : Dev nD) : (V45 (F := Ideal) m ρ c main_v72 : S32x128.Idx → EReal)
    = Cert.Spec.padDense (V40 (F := Ideal) m ρ c main_v66 : S32x512.Idx → EReal) (aWfc m c) (abfc m c) := by
  have e : (V45 (F := Ideal) m ρ c main_v72 : S32x128.Idx → EReal) = (dat5 (F := Ideal) (V44 m ρ) c).arrAt 3 cfg5.N := W45_arr m ρ c 3
  rw [e, region5_value (V44 m ρ) c]
  funext i
  simp only [entry5_a m ρ c, entry5_w m ρ c, entry5_b m ρ c]
  rfl

/-- The dense region's output array is the kernel's arrangement of the whole stack. -/
theorem exit5_padNet (c : Dev nD) : (V45 (F := Ideal) m ρ c main_v72 : S32x128.Idx → EReal)
    = Cert.Spec.padNet (ax m c) (aw0 m c) (aw1 m c) (aw2 m c) (aw3 m c) (aw4 m c) (ab0 m c) (ab1 m c) (ab2 m c) (ab3 m c) (ab4 m c)
        (aWfc m c) (abfc m c) (ak0 m c) (ak1 m c) (ak2 m c) (ak3 m c) (ak4 m c) := by
  rw [exit5, exit4, exit3, exit2, exit1, exit0]
  rfl

/-- THE RESULT: under the tables' range, the result buffer's final contents is the network of the argument arrays. -/
theorem result_net (c : Dev nD)
    (h1 : ∀ i, 0 ≤ (ak1 m c i).toInt ∧ (ak1 m c i).toInt < 7200) (h2 : ∀ i, 0 ≤ (ak2 m c i).toInt ∧ (ak2 m c i).toInt < 3600)
    (h3 : ∀ i, 0 ≤ (ak3 m c i).toInt ∧ (ak3 m c i).toInt < 1800) (h4 : ∀ i, 0 ≤ (ak4 m c i).toInt ∧ (ak4 m c i).toInt < 900) :
    (W46 (F := Ideal) m ρ c (Proc.devRef .tc main_v73) : S32x2.Idx → EReal)
      = Cert.Spec.net (ax m c) (aw0 m c) (aw1 m c) (aw2 m c) (aw3 m c) (aw4 m c) (ab0 m c) (ab1 m c) (ab2 m c) (ab3 m c) (ab4 m c)
        (aWfc m c) (abfc m c) (ak0 m c) (ak1 m c) (ak2 m c) (ak3 m c) (ak4 m c) := by
  funext i
  obtain ⟨r, o, rfl⟩ : ∃ (r : Fin 32) (o : Fin 2), i = ix2 r o := ⟨i 0, i 1, eq_ix2 i⟩
  refine (result_slice m ρ c r o).trans ?_
  show (V45 (F := Ideal) m ρ c main_v72 : S32x128.Idx → EReal) (ix2 r ⟨o.val, by omega⟩) = _
  rw [exit5_padNet m ρ c]
  exact Cert.Spec.padNet_eq_net _ _ _ _ _ _ _ _ _ _ _ _ _ _ _ _ _ _ h1 h2 h3 h4 r o

end Cert.KernelIdeal.KVal

end
-- ==== Proof.RefTail.lean ====
/-
  The end of the reference function. After the five layers the reference multiplies the 640 × 450 stack by the dense
  weights, adds the dense bias, views the 640 rows as 32 × 20, keeps step 19 of every group of 20 and drops that axis:
  result row `r` is the dense layer's row `20 r + 19`.
-/
import proofs.«427585_j58162447123130_3_alg».proof.Proof.Gen.ReferenceIdeal.Read
import proofs.«427585_j58162447123130_3_alg».proof.Proof.Spec

noncomputable section

namespace Cert.RefValue

open Cert.ReferenceIdeal Cert.ReferenceIdeal.Gen Cert.ReferenceIdeal.Read Idealize.ShloMosaic Idealize.ShloMosaic.ValueIdx

variable (x0 : (⟨S32x20x14400, .f32⟩ : BufTy).Contents (Elt Ideal))
variable (x1 : (⟨S7200x25, .f32⟩ : BufTy).Contents (Elt Ideal))
variable (x2 : (⟨S3600x25, .f32⟩ : BufTy).Contents (Elt Ideal))
variable (x3 : (⟨S1800x25, .f32⟩ : BufTy).Contents (Elt Ideal))
variable (x4 : (⟨S900x25, .f32⟩ : BufTy).Contents (Elt Ideal))
variable (x5 : (⟨S450x25, .f32⟩ : BufTy).Contents (Elt Ideal))
variable (x6 : (⟨S1x7200, .f32⟩ : BufTy).Contents (Elt Ideal))
variable (x7 : (⟨S1x3600, .f32⟩ : BufTy).Contents (Elt Ideal))
variable (x8 : (⟨S1x1800, .f32⟩ : BufTy).Contents (Elt Ideal))
variable (x9 : (⟨S1x900, .f32⟩ : BufTy).Contents (Elt Ideal))
variable (x10 : (⟨S1x450, .f32⟩ : BufTy).Contents (Elt Ideal))
variable (x11 : (⟨S450x2, .f32⟩ : BufTy).Contents (Elt Ideal))
variable (x12 : (⟨S2, .f32⟩ : BufTy).Contents (Elt Ideal))
variable (x13 : (⟨S7200x25, .i32⟩ : BufTy).Contents (Elt Ideal))
variable (x14 : (⟨S3600x25, .i32⟩ : BufTy).Contents (Elt Ideal))
variable (x15 : (⟨S1800x25, .i32⟩ : BufTy).Contents (Elt Ideal))
variable (x16 : (⟨S900x25, .i32⟩ : BufTy).Contents (Elt Ideal))
variable (x17 : (⟨S450x25, .i32⟩ : BufTy).Contents (Elt Ideal))

/-- Through the two reshapes and the slice, result index `(r, o)` reads the dense output at `(20 r + 19, o)`. -/
theorem tail_idx (r : Fin 32) (o : Fin 2) :
    idx_main_v110 (idx_main_v111 (idx_main_v112 (ix2 r o))) = ix2 (⟨20 * r.val + 19, by omega⟩ : Fin 640) o := by
  funext a
  match a with
  | ⟨0, _⟩ =>
    apply Fin.ext
    show (((r.val * 2 + o.val) / 2 * 20 + (19 + 0)) * 2 + (r.val * 2 + o.val) % 2) / 2 = 20 * r.val + 19
    omega
  | ⟨1, _⟩ =>
    apply Fin.ext
    show (((r.val * 2 + o.val) / 2 * 20 + (19 + 0)) * 2 + (r.val * 2 + o.val) % 2) % 2 = o.val
    omega

/-- The contraction reads the left operand along its row … -/
theorem tail_lidx (R : Fin 640) (o : Fin 2) (k : Fin 450) : lidx_main_v106 (ix2 R o) k = ix2 R k := by
  funext a
  match a with
  | ⟨0, _⟩ => rfl
  | ⟨1, _⟩ => rfl

/-- … and the right operand along its column. -/
theorem tail_ridx (R : Fin 640) (o : Fin 2) (k : Fin 450) : ridx_main_v106 (ix2 R o) k = ix2 k o := by
  funext a
  match a with
  | ⟨0, _⟩ => rfl
  | ⟨1, _⟩ => rfl

/-- The bias is broadcast along the rows. -/
theorem tail_bidx (R : Fin 640) (o : Fin 2) : idx_main_v107 (idx_main_v108 (ix2 R o)) = ix1 o := by
  funext a
  match a with
  | ⟨0, _⟩ => rfl

/-- THE TAIL: result element `(r, o)` is the dense layer of the fifth layer's output at row `20 r + 19`. -/
theorem ref_tail (r : Fin 32) (o : Fin 2) :
    val_main_v112 (F := Ideal) x0 x1 x2 x3 x4 x5 x6 x7 x8 x9 x10 x11 x12 x13 x14 x15 x16 x17 (ix2 r o)
      = Cert.Spec.dense (R := 640) (val_main_v105 (F := Ideal) x0 x1 x2 x3 x4 x5 x6 x7 x8 x9 x10 x13 x14 x15 x16 x17) x11 x12
          (ix2 (⟨20 * r.val + 19, by omega⟩ : Fin 640) o) := by
  rw [val_main_v112_apply, val_main_v111_apply, val_main_v110_apply, tail_idx, val_main_v109_apply, Ideal.addf_def,
    val_main_v106_apply, val_main_v108_apply, val_main_v107_apply, tail_bidx]
  show (∑ k : Fin 450, val_main_v105 (F := Ideal) x0 x1 x2 x3 x4 x5 x6 x7 x8 x9 x10 x13 x14 x15 x16 x17 (lidx_main_v106 (ix2 (⟨20 * r.val + 19, by omega⟩ : Fin 640) o) k)
          * x11 (ridx_main_v106 (ix2 (⟨20 * r.val + 19, by omega⟩ : Fin 640) o) k)) + x12 (ix1 o)
      = (∑ k : Fin 450, val_main_v105 (F := Ideal) x0 x1 x2 x3 x4 x5 x6 x7 x8 x9 x10 x13 x14 x15 x16 x17 (ix2 (⟨20 * r.val + 19, by omega⟩ : Fin 640) k) * x11 (ix2 k o))
          + x12 (ix1 o)
  refine congrArg (· + x12 (ix1 o)) (Finset.sum_congr rfl fun k _ => ?_)
  rw [tail_lidx, tail_ridx]

end Cert.RefValue

end
-- ==== Proof.RefLayers.lean ====
/-
  The reference program's five layers, each read as the layer of the specification.

  A layer of the reference gathers, for every output node, 25 columns of every row of its input, the columns read off
  an integer table: a negative word is first wrapped by the axis length, and the gather then reads the word signed and
  clamps it into the axis. The gathered entries are weighted and summed along the 25 neighbours onto the zero initial
  value, the bias is added, and twice a literal times the zero array is added, which changes nothing. So each layer's
  output is `Cert.Spec.layer` of the previous layer's output.
-/
import proofs.«427585_j58162447123130_3_alg».proof.Proof.Gen.ReferenceIdeal.Read
import proofs.«427585_j58162447123130_3_alg».proof.Proof.Spec
import proofs.«427585_j58162447123130_3_alg».proof.Proof.LibGatherRows

noncomputable section

namespace Cert.RefValue

open Cert.ReferenceIdeal Cert.ReferenceIdeal.Gen Cert.ReferenceIdeal.Read
open Idealize.ShloMosaic Idealize.ShloMosaic.ValueIdx Idealize.ShloMosaic.StableHlo

/-! ## A gather of whole rows at a table of columns, read at an index -/

section Gather
variable {α : Type}

/-- With the start index the wrapped table word, the column read is the specification's `col`. -/
theorem gather_wrap_apply {R N J : Nat} (hN : 0 < N)
    (wf : GatherDims.WF ⟨2, ![R, N]⟩ ⟨3, ![J, 25, 1]⟩ ⟨3, ![R, J, 25]⟩ [0] [1] [] [1] [] 2 ![R, 1])
    (x : (⟨2, ![R, N]⟩ : Shape).Idx → α) (idx : IVec ⟨3, ![J, 25, 1]⟩ 32)
    (knn : (⟨2, ![J, 25]⟩ : Shape).Idx → BitVec 32) (r : Fin R) (j : Fin J) (k : Fin 25)
    (hidx : idx (ix3 j k (0 : Fin 1)) = Cert.Spec.wrap N (knn (ix2 j k))) :
    Host.gather (rowGatherDims R N J 25 wf) x idx (ix3 r j k) = x (ix2 r (Cert.Spec.col hN (knn (ix2 j k)))) := by
  rw [gather_rows_apply hN]
  refine congrArg (fun c => x (ix2 r c)) (Fin.ext ?_)
  show min (idx (ix3 j k (0 : Fin 1))).toInt.toNat (N - 1) = min (Cert.Spec.wrap N (knn (ix2 j k))).toInt.toNat (N - 1)
  rw [hidx]

end Gather

/-- A layer's arithmetic once every operand is read at its index: the sum onto the zero initial value, the bias, and
    two literal multiples of zero added in front. -/
theorem layer_arith (c1 c2 s b : EReal) :
    (c1 * 0 : EReal) + (c2 * 0 + ((0 + s) + b)) = s + b := by
  rw [mul_zero, mul_zero, zero_add, zero_add, zero_add]

/-! ## Layer 0: 14400 → 7200 -/

theorem ref_layer0 (x0 : (⟨S32x20x14400, .f32⟩ : BufTy).Contents (Elt Ideal)) (x1 : (⟨S7200x25, .f32⟩ : BufTy).Contents (Elt Ideal))
    (x6 : (⟨S1x7200, .f32⟩ : BufTy).Contents (Elt Ideal)) (x13 : (⟨S7200x25, .i32⟩ : BufTy).Contents (Elt Ideal)) :
    val_main_v21 (F := Ideal) x0 x1 x6 x13
      = Cert.Spec.layer (R := 640) (N := 14400) (J := 7200) (by norm_num) (val_main_v0 (F := Ideal) x0) x13 x1 x6 := by
  funext i
  obtain ⟨r, j, rfl⟩ : ∃ r j, i = ix2 r j := ⟨i 0, i 1, eq_ix2 i⟩
  rw [val_main_v21_apply, val_main_v20_apply, val_main_v19_apply, val_main_v18_apply, val_main_cst_4_apply, val_main_cst_3_apply,
    val_main_v17_apply, val_main_v16_apply, val_main_v15_apply, val_main_v14_apply, val_main_cst_2_apply, val_main_cst_1_apply,
    val_main_v13_apply, val_main_v11_apply, val_main_v12_apply, val_main_cst_apply]
  simp only [Ideal.addf_def, Ideal.mulf_def, Ideal.ofBits_def, Ideal.ofBits_zero_f32]
  rw [layer_arith]
  show _ = (∑ k : Fin 25, (val_main_v0 (F := Ideal) x0) (ix2 r (Cert.Spec.col _ (x13 (ix2 j k)))) * x1 (ix2 j k))
      + x6 (ix2 (0 : Fin 1) j)
  have hb : idx_main_v12 (ix2 r j) = ix2 (0 : Fin 1) j := by
    funext a; match a with | ⟨0, _⟩ => rfl | ⟨1, _⟩ => rfl
  rw [hb]
  refine congrArg (· + x6 (ix2 (0 : Fin 1) j)) (Finset.sum_congr rfl fun k _ => ?_)
  have hk : idx_main_v11 (ix2 r j) k = ix3 r j k := by
    funext a; match a with | ⟨0, _⟩ => rfl | ⟨1, _⟩ => rfl | ⟨2, _⟩ => rfl
  rw [hk, val_main_v10_apply, val_main_v9_apply, val_main_v8_apply, Ideal.mulf_def]
  have hw : idx_main_v8 (idx_main_v9 (ix3 r j k)) = ix2 j k := by
    funext a; match a with | ⟨0, _⟩ => rfl | ⟨1, _⟩ => rfl
  rw [hw]
  refine congrArg (· * x1 (ix2 j k)) ?_
  unfold val_main_v7
  generalize val_main_v0 (F := Ideal) x0 = h
  refine gather_wrap_apply (by norm_num) gather_S640x14400_S7200x25x1_S640x7200x25_0_1_n_n_1_2_6401_wf h _ x13 r j k ?_
  rw [val_main_v6_apply]
  have hi : idx_main_v6 (ix3 j k (0 : Fin 1)) = ix2 j k := by
    funext a; match a with | ⟨0, _⟩ => rfl | ⟨1, _⟩ => rfl
  rw [hi, val_main_v5_apply, val_main_v2_apply, val_main_v4_apply, val_main_v1_apply, val_main_v3_apply, val_main_c_apply,
    val_main_c_0_apply]
  rfl

/-! ## Layer 1: 7200 → 3600 -/

theorem ref_layer1 (x0 : (⟨S32x20x14400, .f32⟩ : BufTy).Contents (Elt Ideal)) (x1 : (⟨S7200x25, .f32⟩ : BufTy).Contents (Elt Ideal))
    (x2 : (⟨S3600x25, .f32⟩ : BufTy).Contents (Elt Ideal)) (x6 : (⟨S1x7200, .f32⟩ : BufTy).Contents (Elt Ideal))
    (x7 : (⟨S1x3600, .f32⟩ : BufTy).Contents (Elt Ideal)) (x13 : (⟨S7200x25, .i32⟩ : BufTy).Contents (Elt Ideal))
    (x14 : (⟨S3600x25, .i32⟩ : BufTy).Contents (Elt Ideal)) :
    val_main_v42 (F := Ideal) x0 x1 x2 x6 x7 x13 x14
      = Cert.Spec.layer (R := 640) (N := 7200) (J := 3600) (by norm_num) (val_main_v21 (F := Ideal) x0 x1 x6 x13) x14 x2 x7 := by
  funext i
  obtain ⟨r, j, rfl⟩ : ∃ r j, i = ix2 r j := ⟨i 0, i 1, eq_ix2 i⟩
  rw [val_main_v42_apply, val_main_v41_apply, val_main_v40_apply, val_main_v39_apply, val_main_cst_11_apply, val_main_cst_10_apply,
    val_main_v38_apply, val_main_v37_apply, val_main_v36_apply, val_main_v35_apply, val_main_cst_9_apply, val_main_cst_8_apply,
    val_main_v34_apply, val_main_v32_apply, val_main_v33_apply, val_main_cst_7_apply]
  simp only [Ideal.addf_def, Ideal.mulf_def, Ideal.ofBits_def, Ideal.ofBits_zero_f32]
  rw [layer_arith]
  show _ = (∑ k : Fin 25, (val_main_v21 (F := Ideal) x0 x1 x6 x13) (ix2 r (Cert.Spec.col _ (x14 (ix2 j k)))) * x2 (ix2 j k))
      + x7 (ix2 (0 : Fin 1) j)
  have hb : idx_main_v33 (ix2 r j) = ix2 (0 : Fin 1) j := by
    funext a; match a with | ⟨0, _⟩ => rfl | ⟨1, _⟩ => rfl
  rw [hb]
  refine congrArg (· + x7 (ix2 (0 : Fin 1) j)) (Finset.sum_congr rfl fun k _ => ?_)
  have hk : idx_main_v32 (ix2 r j) k = ix3 r j k := by
    funext a; match a with | ⟨0, _⟩ => rfl | ⟨1, _⟩ => rfl | ⟨2, _⟩ => rfl
  rw [hk, val_main_v31_apply, val_main_v30_apply, val_main_v29_apply, Ideal.mulf_def]
  have hw : idx_main_v29 (idx_main_v30 (ix3 r j k)) = ix2 j k := by
    funext a; match a with | ⟨0, _⟩ => rfl | ⟨1, _⟩ => rfl
  rw [hw]
  refine congrArg (· * x2 (ix2 j k)) ?_
  unfold val_main_v28
  generalize val_main_v21 (F := Ideal) x0 x1 x6 x13 = h
  refine gather_wrap_apply (by norm_num) gather_S640x7200_S3600x25x1_S640x3600x25_0_1_n_n_1_2_6401_wf h _ x14 r j k ?_
  rw [val_main_v27_apply]
  have hi : idx_main_v27 (ix3 j k (0 : Fin 1)) = ix2 j k := by
    funext a; match a with | ⟨0, _⟩ => rfl | ⟨1, _⟩ => rfl
  rw [hi, val_main_v26_apply, val_main_v23_apply, val_main_v25_apply, val_main_v22_apply, val_main_v24_apply, val_main_c_5_apply,
    val_main_c_6_apply]
  rfl

/-! ## Layer 2: 3600 → 1800 -/

theorem ref_layer2 (x0 : (⟨S32x20x14400, .f32⟩ : BufTy).Contents (Elt Ideal)) (x1 : (⟨S7200x25, .f32⟩ : BufTy).Contents (Elt Ideal))
    (x2 : (⟨S3600x25, .f32⟩ : BufTy).Contents (Elt Ideal)) (x3 : (⟨S1800x25, .f32⟩ : BufTy).Contents (Elt Ideal))
    (x6 : (⟨S1x7200, .f32⟩ : BufTy).Contents (Elt Ideal)) (x7 : (⟨S1x3600, .f32⟩ : BufTy).Contents (Elt Ideal))
    (x8 : (⟨S1x1800, .f32⟩ : BufTy).Contents (Elt Ideal)) (x13 : (⟨S7200x25, .i32⟩ : BufTy).Contents (Elt Ideal))
    (x14 : (⟨S3600x25, .i32⟩ : BufTy).Contents (Elt Ideal)) (x15 : (⟨S1800x25, .i32⟩ : BufTy).Contents (Elt Ideal)) :
    val_main_v63 (F := Ideal) x0 x1 x2 x3 x6 x7 x8 x13 x14 x15
      = Cert.Spec.layer (R := 640) (N := 3600) (J := 1800) (by norm_num) (val_main_v42 (F := Ideal) x0 x1 x2 x6 x7 x13 x14) x15 x3 x8 := by
  funext i
  obtain ⟨r, j, rfl⟩ : ∃ r j, i = ix2 r j := ⟨i 0, i 1, eq_ix2 i⟩
  rw [val_main_v63_apply, val_main_v62_apply, val_main_v61_apply, val_main_v60_apply, val_main_cst_18_apply, val_main_cst_17_apply,
    val_main_v59_apply, val_main_v58_apply, val_main_v57_apply, val_main_v56_apply, val_main_cst_16_apply, val_main_cst_15_apply,
    val_main_v55_apply, val_main_v53_apply, val_main_v54_apply, val_main_cst_14_apply]
  simp only [Ideal.addf_def, Ideal.mulf_def, Ideal.ofBits_def, Ideal.ofBits_zero_f32]
  rw [layer_arith]
  show _ = (∑ k : Fin 25, (val_main_v42 (F := Ideal) x0 x1 x2 x6 x7 x13 x14) (ix2 r (Cert.Spec.col _ (x15 (ix2 j k)))) * x3 (ix2 j k))
      + x8 (ix2 (0 : Fin 1) j)
  have hb : idx_main_v54 (ix2 r j) = ix2 (0 : Fin 1) j := by
    funext a; match a with | ⟨0, _⟩ => rfl | ⟨1, _⟩ => rfl
  rw [hb]
  refine congrArg (· + x8 (ix2 (0 : Fin 1) j)) (Finset.sum_congr rfl fun k _ => ?_)
  have hk : idx_main_v53 (ix2 r j) k = ix3 r j k := by
    funext a; match a with | ⟨0, _⟩ => rfl | ⟨1, _⟩ => rfl | ⟨2, _⟩ => rfl
  rw [hk, val_main_v52_apply, val_main_v51_apply, val_main_v50_apply, Ideal.mulf_def]
  have hw : idx_main_v50 (idx_main_v51 (ix3 r j k)) = ix2 j k := by
    funext a; match a with | ⟨0, _⟩ => rfl | ⟨1, _⟩ => rfl
  rw [hw]
  refine congrArg (· * x3 (ix2 j k)) ?_
  unfold val_main_v49
  generalize val_main_v42 (F := Ideal) x0 x1 x2 x6 x7 x13 x14 = h
  refine gather_wrap_apply (by norm_num) gather_S640x3600_S1800x25x1_S640x1800x25_0_1_n_n_1_2_6401_wf h _ x15 r j k ?_
  rw [val_main_v48_apply]
  have hi : idx_main_v48 (ix3 j k (0 : Fin 1)) = ix2 j k := by
    funext a; match a with | ⟨0, _⟩ => rfl | ⟨1, _⟩ => rfl
  rw [hi, val_main_v47_apply, val_main_v44_apply, val_main_v46_apply, val_main_v43_apply, val_main_v45_apply, val_main_c_12_apply,
    val_main_c_13_apply]
  rfl

/-! ## Layer 3: 1800 → 900 -/

theorem ref_layer3 (x0 : (⟨S32x20x14400, .f32⟩ : BufTy).Contents (Elt Ideal)) (x1 : (⟨S7200x25, .f32⟩ : BufTy).Contents (Elt Ideal))
    (x2 : (⟨S3600x25, .f32⟩ : BufTy).Contents (Elt Ideal)) (x3 : (⟨S1800x25, .f32⟩ : BufTy).Contents (Elt Ideal))
    (x4 : (⟨S900x25, .f32⟩ : BufTy).Contents (Elt Ideal)) (x6 : (⟨S1x7200, .f32⟩ : BufTy).Contents (Elt Ideal))
    (x7 : (⟨S1x3600, .f32⟩ : BufTy).Contents (Elt Ideal)) (x8 : (⟨S1x1800, .f32⟩ : BufTy).Contents (Elt Ideal))
    (x9 : (⟨S1x900, .f32⟩ : BufTy).Contents (Elt Ideal)) (x13 : (⟨S7200x25, .i32⟩ : BufTy).Contents (Elt Ideal))
    (x14 : (⟨S3600x25, .i32⟩ : BufTy).Contents (Elt Ideal)) (x15 : (⟨S1800x25, .i32⟩ : BufTy).Contents (Elt Ideal))
    (x16 : (⟨S900x25, .i32⟩ : BufTy).Contents (Elt Ideal)) :
    val_main_v84 (F := Ideal) x0 x1 x2 x3 x4 x6 x7 x8 x9 x13 x14 x15 x16
      = Cert.Spec.layer (R := 640) (N := 1800) (J := 900) (by norm_num) (val_main_v63 (F := Ideal) x0 x1 x2 x3 x6 x7 x8 x13 x14 x15) x16 x4 x9 := by
  funext i
  obtain ⟨r, j, rfl⟩ : ∃ r j, i = ix2 r j := ⟨i 0, i 1, eq_ix2 i⟩
  rw [val_main_v84_apply, val_main_v83_apply, val_main_v82_apply, val_main_v81_apply, val_main_cst_25_apply, val_main_cst_24_apply,
    val_main_v80_apply, val_main_v79_apply, val_main_v78_apply, val_main_v77_apply, val_main_cst_23_apply, val_main_cst_22_apply,
    val_main_v76_apply, val_main_v74_apply, val_main_v75_apply, val_main_cst_21_apply]
  simp only [Ideal.addf_def, Ideal.mulf_def, Ideal.ofBits_def, Ideal.ofBits_zero_f32]
  rw [layer_arith]
  show _ = (∑ k : Fin 25, (val_main_v63 (F := Ideal) x0 x1 x2 x3 x6 x7 x8 x13 x14 x15) (ix2 r (Cert.Spec.col _ (x16 (ix2 j k)))) * x4 (ix2 j k))
      + x9 (ix2 (0 : Fin 1) j)
  have hb : idx_main_v75 (ix2 r j) = ix2 (0 : Fin 1) j := by
    funext a; match a with | ⟨0, _⟩ => rfl | ⟨1, _⟩ => rfl
  rw [hb]
  refine congrArg (· + x9 (ix2 (0 : Fin 1) j)) (Finset.sum_congr rfl fun k _ => ?_)
  have hk : idx_main_v74 (ix2 r j) k = ix3 r j k := by
    funext a; match a with | ⟨0, _⟩ => rfl | ⟨1, _⟩ => rfl | ⟨2, _⟩ => rfl
  rw [hk, val_main_v73_apply, val_main_v72_apply, val_main_v71_apply, Ideal.mulf_def]
  have hw : idx_main_v71 (idx_main_v72 (ix3 r j k)) = ix2 j k := by
    funext a; match a with | ⟨0, _⟩ => rfl | ⟨1, _⟩ => rfl
  rw [hw]
  refine congrArg (· * x4 (ix2 j k)) ?_
  unfold val_main_v70
  generalize val_main_v63 (F := Ideal) x0 x1 x2 x3 x6 x7 x8 x13 x14 x15 = h
  refine gather_wrap_apply (by norm_num) gather_S640x1800_S900x25x1_S640x900x25_0_1_n_n_1_2_6401_wf h _ x16 r j k ?_
  rw [val_main_v69_apply]
  have hi : idx_main_v69 (ix3 j k (0 : Fin 1)) = ix2 j k := by
    funext a; match a with | ⟨0, _⟩ => rfl | ⟨1, _⟩ => rfl
  rw [hi, val_main_v68_apply, val_main_v65_apply, val_main_v67_apply, val_main_v64_apply, val_main_v66_apply, val_main_c_19_apply,
    val_main_c_20_apply]
  rfl

/-! ## Layer 4: 900 → 450 -/

theorem ref_layer4 (x0 : (⟨S32x20x14400, .f32⟩ : BufTy).Contents (Elt Ideal)) (x1 : (⟨S7200x25, .f32⟩ : BufTy).Contents (Elt Ideal))
    (x2 : (⟨S3600x25, .f32⟩ : BufTy).Contents (Elt Ideal)) (x3 : (⟨S1800x25, .f32⟩ : BufTy).Contents (Elt Ideal))
    (x4 : (⟨S900x25, .f32⟩ : BufTy).Contents (Elt Ideal)) (x5 : (⟨S450x25, .f32⟩ : BufTy).Contents (Elt Ideal))
    (x6 : (⟨S1x7200, .f32⟩ : BufTy).Contents (Elt Ideal)) (x7 : (⟨S1x3600, .f32⟩ : BufTy).Contents (Elt Ideal))
    (x8 : (⟨S1x1800, .f32⟩ : BufTy).Contents (Elt Ideal)) (x9 : (⟨S1x900, .f32⟩ : BufTy).Contents (Elt Ideal))
    (x10 : (⟨S1x450, .f32⟩ : BufTy).Contents (Elt Ideal)) (x13 : (⟨S7200x25, .i32⟩ : BufTy).Contents (Elt Ideal))
    (x14 : (⟨S3600x25, .i32⟩ : BufTy).Contents (Elt Ideal)) (x15 : (⟨S1800x25, .i32⟩ : BufTy).Contents (Elt Ideal))
    (x16 : (⟨S900x25, .i32⟩ : BufTy).Contents (Elt Ideal)) (x17 : (⟨S450x25, .i32⟩ : BufTy).Contents (Elt Ideal)) :
    val_main_v105 (F := Ideal) x0 x1 x2 x3 x4 x5 x6 x7 x8 x9 x10 x13 x14 x15 x16 x17
      = Cert.Spec.layer (R := 640) (N := 900) (J := 450) (by norm_num) (val_main_v84 (F := Ideal) x0 x1 x2 x3 x4 x6 x7 x8 x9 x13 x14 x15 x16) x17 x5 x10 := by
  funext i
  obtain ⟨r, j, rfl⟩ : ∃ r j, i = ix2 r j := ⟨i 0, i 1, eq_ix2 i⟩
  rw [val_main_v105_apply, val_main_v104_apply, val_main_v103_apply, val_main_v102_apply, val_main_cst_32_apply, val_main_cst_31_apply,
    val_main_v101_apply, val_main_v100_apply, val_main_v99_apply, val_main_v98_apply, val_main_cst_30_apply, val_main_cst_29_apply,
    val_main_v97_apply, val_main_v95_apply, val_main_v96_apply, val_main_cst_28_apply]
  simp only [Ideal.addf_def, Ideal.mulf_def, Ideal.ofBits_def, Ideal.ofBits_zero_f32]
  rw [layer_arith]
  show _ = (∑ k : Fin 25, (val_main_v84 (F := Ideal) x0 x1 x2 x3 x4 x6 x7 x8 x9 x13 x14 x15 x16) (ix2 r (Cert.Spec.col _ (x17 (ix2 j k)))) * x5 (ix2 j k))
      + x10 (ix2 (0 : Fin 1) j)
  have hb : idx_main_v96 (ix2 r j) = ix2 (0 : Fin 1) j := by
    funext a; match a with | ⟨0, _⟩ => rfl | ⟨1, _⟩ => rfl
  rw [hb]
  refine congrArg (· + x10 (ix2 (0 : Fin 1) j)) (Finset.sum_congr rfl fun k _ => ?_)
  have hk : idx_main_v95 (ix2 r j) k = ix3 r j k := by
    funext a; match a with | ⟨0, _⟩ => rfl | ⟨1, _⟩ => rfl | ⟨2, _⟩ => rfl
  rw [hk, val_main_v94_apply, val_main_v93_apply, val_main_v92_apply, Ideal.mulf_def]
  have hw : idx_main_v92 (idx_main_v93 (ix3 r j k)) = ix2 j k := by
    funext a; match a with | ⟨0, _⟩ => rfl | ⟨1, _⟩ => rfl
  rw [hw]
  refine congrArg (· * x5 (ix2 j k)) ?_
  unfold val_main_v91
  generalize val_main_v84 (F := Ideal) x0 x1 x2 x3 x4 x6 x7 x8 x9 x13 x14 x15 x16 = h
  refine gather_wrap_apply (by norm_num) gather_S640x900_S450x25x1_S640x450x25_0_1_n_n_1_2_6401_wf h _ x17 r j k ?_
  rw [val_main_v90_apply]
  have hi : idx_main_v90 (ix3 j k (0 : Fin 1)) = ix2 j k := by
    funext a; match a with | ⟨0, _⟩ => rfl | ⟨1, _⟩ => rfl
  rw [hi, val_main_v89_apply, val_main_v86_apply, val_main_v88_apply, val_main_v85_apply, val_main_v87_apply, val_main_c_26_apply,
    val_main_c_27_apply]
  rfl

end Cert.RefValue

end
-- ==== Proof.RefNet.lean ====
/-
  The reference computes the function. Its five layers run on all 640 rows (32 batch rows × 20 steps) and only step 19
  of each batch row survives the final slice; a layer acts row by row, so row `20 r + 19` of each layer of the 640-row
  stack is row `r` of the same layer applied to the last step's 32 rows. With the tail (dense layer, then the slice)
  this identifies the reference's result with `net`.
-/
import proofs.«427585_j58162447123130_3_alg».proof.Proof.RefTail
import proofs.«427585_j58162447123130_3_alg».proof.Proof.RefLayers

noncomputable section

namespace Cert.RefValue

open Cert.ReferenceIdeal Cert.ReferenceIdeal.Gen Cert.ReferenceIdeal.Read Idealize.ShloMosaic Idealize.ShloMosaic.TcCoe Idealize.SL.Sem Idealize.ShloMosaic.StableHlo Idealize.ShloMosaic.ValueIdx

variable (x0 : (⟨S32x20x14400, .f32⟩ : BufTy).Contents (Elt Ideal))
variable (x1 : (⟨S7200x25, .f32⟩ : BufTy).Contents (Elt Ideal))
variable (x2 : (⟨S3600x25, .f32⟩ : BufTy).Contents (Elt Ideal))
variable (x3 : (⟨S1800x25, .f32⟩ : BufTy).Contents (Elt Ideal))
variable (x4 : (⟨S900x25, .f32⟩ : BufTy).Contents (Elt Ideal))
variable (x5 : (⟨S450x25, .f32⟩ : BufTy).Contents (Elt Ideal))
variable (x6 : (⟨S1x7200, .f32⟩ : BufTy).Contents (Elt Ideal))
variable (x7 : (⟨S1x3600, .f32⟩ : BufTy).Contents (Elt Ideal))
variable (x8 : (⟨S1x1800, .f32⟩ : BufTy).Contents (Elt Ideal))
variable (x9 : (⟨S1x900, .f32⟩ : BufTy).Contents (Elt Ideal))
variable (x10 : (⟨S1x450, .f32⟩ : BufTy).Contents (Elt Ideal))
variable (x11 : (⟨S450x2, .f32⟩ : BufTy).Contents (Elt Ideal))
variable (x12 : (⟨S2, .f32⟩ : BufTy).Contents (Elt Ideal))
variable (x13 : (⟨S7200x25, .i32⟩ : BufTy).Contents (Elt Ideal))
variable (x14 : (⟨S3600x25, .i32⟩ : BufTy).Contents (Elt Ideal))
variable (x15 : (⟨S1800x25, .i32⟩ : BufTy).Contents (Elt Ideal))
variable (x16 : (⟨S900x25, .i32⟩ : BufTy).Contents (Elt Ideal))
variable (x17 : (⟨S450x25, .i32⟩ : BufTy).Contents (Elt Ideal))

/-- Row `20 r + 19` of the flattened input is step 19 of batch row `r`. -/
theorem ref_row0 (r : Fin 32) (n : Fin 14400) :
    val_main_v0 (F := Ideal) x0 (ix2 (⟨20 * r.val + 19, by omega⟩ : Fin 640) n) = Cert.Spec.lastStep x0 (ix2 r n) := by
  rw [val_main_v0_apply]
  show x0 (idx_main_v0 (ix2 (⟨20 * r.val + 19, by omega⟩ : Fin 640) n)) = x0 (ix3 r (19 : Fin 20) n)
  refine congrArg x0 (funext fun a => ?_)
  match a with
  | ⟨0, _⟩ =>
    apply Fin.ext
    show ((20 * r.val + 19) * 14400 + n.val) / 288000 = r.val
    omega
  | ⟨1, _⟩ =>
    apply Fin.ext
    show ((20 * r.val + 19) * 14400 + n.val) / 14400 % 20 = 19
    omega
  | ⟨2, _⟩ =>
    apply Fin.ext
    show ((20 * r.val + 19) * 14400 + n.val) % 14400 = n.val
    omega

/-- Row `20 r + 19` of the first layer on the 640-row stack is row `r` of the first layer on the last step's rows … -/
theorem ref_row1 (r : Fin 32) (j : Fin 7200) :
    val_main_v21 (F := Ideal) x0 x1 x6 x13 (ix2 (⟨20 * r.val + 19, by omega⟩ : Fin 640) j)
      = Cert.Spec.layer (N := 14400) (by norm_num) (Cert.Spec.lastStep x0) x13 x1 x6 (ix2 r j) :=
  (congrFun (ref_layer0 x0 x1 x6 x13) _).trans
    (Cert.Spec.layer_row_congr _ _ _ _ _ _ _ r (fun n => ref_row0 x0 r n) j)

/-- … and so on through the second layer … -/
theorem ref_row2 (r : Fin 32) (j : Fin 3600) :
    val_main_v42 (F := Ideal) x0 x1 x2 x6 x7 x13 x14 (ix2 (⟨20 * r.val + 19, by omega⟩ : Fin 640) j)
      = Cert.Spec.layer (N := 7200) (by norm_num)
          (Cert.Spec.layer (N := 14400) (by norm_num) (Cert.Spec.lastStep x0) x13 x1 x6) x14 x2 x7 (ix2 r j) :=
  (congrFun (ref_layer1 x0 x1 x2 x6 x7 x13 x14) _).trans
    (Cert.Spec.layer_row_congr _ _ _ _ _ _ _ r (fun n => ref_row1 x0 x1 x6 x13 r n) j)

/-- … the third … -/
theorem ref_row3 (r : Fin 32) (j : Fin 1800) :
    val_main_v63 (F := Ideal) x0 x1 x2 x3 x6 x7 x8 x13 x14 x15 (ix2 (⟨20 * r.val + 19, by omega⟩ : Fin 640) j)
      = Cert.Spec.layer (N := 3600) (by norm_num)
          (Cert.Spec.layer (N := 7200) (by norm_num)
            (Cert.Spec.layer (N := 14400) (by norm_num) (Cert.Spec.lastStep x0) x13 x1 x6) x14 x2 x7) x15 x3 x8 (ix2 r j) :=
  (congrFun (ref_layer2 x0 x1 x2 x3 x6 x7 x8 x13 x14 x15) _).trans
    (Cert.Spec.layer_row_congr _ _ _ _ _ _ _ r (fun n => ref_row2 x0 x1 x2 x6 x7 x13 x14 r n) j)

/-- … the fourth … -/
theorem ref_row4 (r : Fin 32) (j : Fin 900) :
    val_main_v84 (F := Ideal) x0 x1 x2 x3 x4 x6 x7 x8 x9 x13 x14 x15 x16 (ix2 (⟨20 * r.val + 19, by omega⟩ : Fin 640) j)
      = Cert.Spec.layer (N := 1800) (by norm_num)
          (Cert.Spec.layer (N := 3600) (by norm_num)
            (Cert.Spec.layer (N := 7200) (by norm_num)
              (Cert.Spec.layer (N := 14400) (by norm_num) (Cert.Spec.lastStep x0) x13 x1 x6) x14 x2 x7) x15 x3 x8)
          x16 x4 x9 (ix2 r j) :=
  (congrFun (ref_layer3 x0 x1 x2 x3 x4 x6 x7 x8 x9 x13 x14 x15 x16) _).trans
    (Cert.Spec.layer_row_congr _ _ _ _ _ _ _ r (fun n => ref_row3 x0 x1 x2 x3 x6 x7 x8 x13 x14 x15 r n) j)

/-- … and the fifth. -/
theorem ref_row5 (r : Fin 32) (j : Fin 450) :
    val_main_v105 (F := Ideal) x0 x1 x2 x3 x4 x5 x6 x7 x8 x9 x10 x13 x14 x15 x16 x17 (ix2 (⟨20 * r.val + 19, by omega⟩ : Fin 640) j)
      = Cert.Spec.layer (N := 900) (by norm_num)
          (Cert.Spec.layer (N := 1800) (by norm_num)
            (Cert.Spec.layer (N := 3600) (by norm_num)
              (Cert.Spec.layer (N := 7200) (by norm_num)
                (Cert.Spec.layer (N := 14400) (by norm_num) (Cert.Spec.lastStep x0) x13 x1 x6) x14 x2 x7) x15 x3 x8)
            x16 x4 x9)
          x17 x5 x10 (ix2 r j) :=
  (congrFun (ref_layer4 x0 x1 x2 x3 x4 x5 x6 x7 x8 x9 x10 x13 x14 x15 x16 x17) _).trans
    (Cert.Spec.layer_row_congr _ _ _ _ _ _ _ r (fun n => ref_row4 x0 x1 x2 x3 x4 x6 x7 x8 x9 x13 x14 x15 x16 r n) j)

/-- THE REFERENCE COMPUTES THE FUNCTION: its result is `net` of its eighteen arguments. -/
theorem ref_net :
    val_main_v112 (F := Ideal) x0 x1 x2 x3 x4 x5 x6 x7 x8 x9 x10 x11 x12 x13 x14 x15 x16 x17 = Cert.Spec.net x0 x1 x2 x3 x4 x5 x6 x7 x8 x9 x10 x11 x12 x13 x14 x15 x16 x17 := by
  funext i
  obtain ⟨r, o, rfl⟩ : ∃ (r : Fin 32) (o : Fin 2), i = ix2 r o := ⟨i 0, i 1, eq_ix2 i⟩
  rw [ref_tail]
  unfold Cert.Spec.net
  show (∑ k : Fin 450, val_main_v105 (F := Ideal) x0 x1 x2 x3 x4 x5 x6 x7 x8 x9 x10 x13 x14 x15 x16 x17 (ix2 (⟨20 * r.val + 19, by omega⟩ : Fin 640) k) * x11 (ix2 k o))
        + x12 (ix1 o)
      = (∑ k : Fin 450, Cert.Spec.layer (N := 900) (by norm_num)
          (Cert.Spec.layer (N := 1800) (by norm_num)
            (Cert.Spec.layer (N := 3600) (by norm_num)
              (Cert.Spec.layer (N := 7200) (by norm_num)
                (Cert.Spec.layer (N := 14400) (by norm_num) (Cert.Spec.lastStep x0) x13 x1 x6) x14 x2 x7) x15 x3 x8)
            x16 x4 x9)
          x17 x5 x10 (ix2 r k) * x11 (ix2 k o))
        + x12 (ix1 o)
  refine congrArg (· + x12 (ix1 o)) (Finset.sum_congr rfl fun k _ => ?_)
  rw [ref_row5]

/-- The reference's result buffer, as the run names it, is `net` of the argument buffers. -/
theorem ref_result (m : (ℓ : Loc nD τ sig) → Buf (Elt Ideal) ℓ) (c : Dev nD) :
    Cert.ReferenceIdeal.Value.res_main_v112 (F := Ideal) m c
      = Cert.Spec.net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  rw [Cert.ReferenceIdeal.Read.val_main_v112_eq, ref_net]

end Cert.RefValue

end
-- ==== Proof.lean ====
/-
  A five-layer locally connected network (each output node gathers 25 entries of its row through an integer table,
  weights them, sums and adds a bias) followed by a dense 450 → 2 layer, evaluated on the last of 20 time steps.

  The reference runs all 640 = 32 · 20 rows and keeps the rows of the last step; every layer acts row by row, so the kept
  rows are the network of the last step's 32 rows (`Cert.Spec.net`). The kernel slices the last step first, carries every
  activation array padded to a tile multiple, gathers on the host and reduces the 25 weighted neighbours in a kernel
  region per layer, then runs the dense layer with zero-padded weights; its padded columns are never read by a table
  whose words index the real columns, and a zero weight row annihilates whatever the padding holds. The claim is stated
  under that range of the tables of layers 1-4 (the first layer gathers from the same unpadded input in both programs).
  At the extended reals both results are the same sums of the same products, term by term.
-/
import proofs.«427585_j58162447123130_3_alg».proof.Defs
import proofs.«427585_j58162447123130_3_alg».proof.Proof.Gen.Kernel
import proofs.«427585_j58162447123130_3_alg».proof.Proof.Gen.Kernel.Frame
import proofs.«427585_j58162447123130_3_alg».proof.Proof.Gen.KernelIdeal
import proofs.«427585_j58162447123130_3_alg».proof.Proof.Gen.KernelIdeal.Frame
import proofs.«427585_j58162447123130_3_alg».proof.Proof.Gen.ReferenceIdeal
import proofs.«427585_j58162447123130_3_alg».proof.Proof.Gen.Pre_finite_inputs
import proofs.«427585_j58162447123130_3_alg».proof.Proof.Gen.ReferenceIdeal.Run
import proofs.«427585_j58162447123130_3_alg».proof.Proof.Gen.ReferenceIdeal.Read
import proofs.«427585_j58162447123130_3_alg».proof.Proof.PreRange
import proofs.«427585_j58162447123130_3_alg».proof.Proof.KRun
import proofs.«427585_j58162447123130_3_alg».proof.Proof.KValue
import proofs.«427585_j58162447123130_3_alg».proof.Proof.RefNet
import Idealize.ShloMosaic.Adequacy
import Idealize.ShloMosaic.Init

noncomputable section

namespace Cert.Proof

open Idealize.ShloMosaic Idealize.SL.Sem

/-- The word-level kernel runs and leaves its arguments unchanged: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a host program: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network of the argument arrays in their result: the kernel by the padded stack read
    off its regions and host stretches, under the tables' range the precondition states; the reference by its run read
    one operation at a time. -/
theorem algebraic : Cert.algebraic_KernelIdeal_ReferenceIdeal := by
  intro m ρ m' ρ' hpre hagree
  refine ⟨fun c => Cert.Spec.net (Cert.KernelIdeal.KVal.ax m c) (Cert.KernelIdeal.KVal.aw0 m c) (Cert.KernelIdeal.KVal.aw1 m c)
      (Cert.KernelIdeal.KVal.aw2 m c) (Cert.KernelIdeal.KVal.aw3 m c) (Cert.KernelIdeal.KVal.aw4 m c)
      (Cert.KernelIdeal.KVal.ab0 m c) (Cert.KernelIdeal.KVal.ab1 m c) (Cert.KernelIdeal.KVal.ab2 m c)
      (Cert.KernelIdeal.KVal.ab3 m c) (Cert.KernelIdeal.KVal.ab4 m c) (Cert.KernelIdeal.KVal.aWfc m c)
      (Cert.KernelIdeal.KVal.abfc m c) (Cert.KernelIdeal.KVal.ak0 m c) (Cert.KernelIdeal.KVal.ak1 m c)
      (Cert.KernelIdeal.KVal.ak2 m c) (Cert.KernelIdeal.KVal.ak3 m c) (Cert.KernelIdeal.KVal.ak4 m c), ?_, ?_⟩
  · refine (θ_run Cert.KernelIdeal.defs _ _).mono (fun r h c => ⟨(h c).1.trans ?_, (h c).2⟩)
      (Cert.KernelIdeal.KVal.run_main (F := Ideal) m ρ)
    exact Cert.KernelIdeal.KVal.result_net m ρ c
      (Cert.PreRange.knn1_range _ _ _ _ _ _ _ _ _ _ _ _ _ _ _ _ _ _ (hpre c))
      (Cert.PreRange.knn2_range _ _ _ _ _ _ _ _ _ _ _ _ _ _ _ _ _ _ (hpre c))
      (Cert.PreRange.knn3_range _ _ _ _ _ _ _ _ _ _ _ _ _ _ _ _ _ _ (hpre c))
      (Cert.PreRange.knn4_range _ _ _ _ _ _ _ _ _ _ _ _ _ _ _ _ _ _ (hpre c))
  · refine (θ_run Cert.ReferenceIdeal.defs _ _).mono (fun r h c => ⟨(h c).1.trans ?_, (h c).2⟩)
      (Cert.ReferenceIdeal.Value.run (F := Ideal) m' ρ')
    rw [Cert.RefValue.ref_result m' c, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
